-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v7_3)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v7_3) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v146) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x3 : Shape := ⟨3, ![64, 64, 3]⟩
abbrev S64x64x4 : Shape := ⟨3, ![64, 64, 4]⟩
abbrev S64x32x32x32x3 : Shape := ⟨5, ![64, 32, 32, 32, 3]⟩
abbrev S64x64 : Shape := ⟨2, ![64, 64]⟩
abbrev S64x64x1024x3 : Shape := ⟨4, ![64, 64, 1024, 3]⟩
abbrev S_ : Shape := ⟨0, ![]⟩

class Facts : Prop where
  bcast_S_S64x64x3 : S_.BroadcastsInDim S64x64x3 (![] : Fin 0 → Fin S64x64x3.rank)
  reducesTo_S64x64x3_S_d0_1_2 : S64x64x3.ReducesTo [0, 1, 2] S_
  h_S_ : 0 < S_.numel
  bcast_S_S64x64x4 : S_.BroadcastsInDim S64x64x4 (![] : Fin 0 → Fin S64x64x4.rank)
  reducesTo_S64x64x4_S_d0_1_2 : S64x64x4.ReducesTo [0, 1, 2] S_
  bcast_S_S64x32x32x32x3 : S_.BroadcastsInDim S64x32x32x32x3 (![] : Fin 0 → Fin S64x32x32x32x3.rank)
  reducesTo_S64x32x32x32x3_S_d0_1_2_3_4 : S64x32x32x32x3.ReducesTo [0, 1, 2, 3, 4] S_
  bcast_S_S64x64x1024x3 : S_.BroadcastsInDim S64x64x1024x3 (![] : Fin 0 → Fin S64x64x1024x3.rank)
  reducesTo_S64x64x1024x3_S_d0_1_2_3 : S64x64x1024x3.ReducesTo [0, 1, 2, 3] S_

variable [Facts]

def fn_part1 {F : FTy → Type} [FloatOps F] (main_arg5 : FVec F S64x64x1024x3 .f32) (main_v13 : IVec S_ 1) (main_v16 : IVec S64x32x32x32x3 1) : IVec S_ 1 :=
  let main_c_5 : IVec S_ 1 := constantI S_ 1 1#1
  let main_v17 : IVec S_ 1 := (fun x v => Host.reduce IntOp.andi x v reducesTo_S64x32x32x32x3_S_d0_1_2_3_4 h_S_) main_v16 main_c_5
  let main_v18 : IVec S_ 1 := andi main_v13 main_v17
  let main_v19 : FVec F S64x64x1024x3 .f32 := Host.absf main_arg5
  let main_cst_6 : FVec F S_ .f32 := constant S_ .f32 0x7F800000#32
  let main_v20 : FVec F S64x64x1024x3 .f32 := broadcastInDim S64x64x1024x3 ![] bcast_S_S64x64x1024x3 main_cst_6
  let main_v21 : IVec S64x64x1024x3 1 := cmpf .olt main_v19 main_v20
  let main_c_7 : IVec S_ 1 := constantI S_ 1 1#1
  let main_v22 : IVec S_ 1 := (fun x v => Host.reduce IntOp.andi x v reducesTo_S64x64x1024x3_S_d0_1_2_3 h_S_) main_v21 main_c_7
  let main_v23 : IVec S_ 1 := andi main_v18 main_v22
  main_v23

def fn {F : FTy → Type} [FloatOps F] (main_arg0 : FVec F S64x64x3 .f32) (main_arg1 : FVec F S64x64x3 .f32) (main_arg2 : FVec F S64x64x4 .f32) (main_arg3 : FVec F S64x32x32x32x3 .f32) (main_arg4 : IVec S64x64 32) (main_arg5 : FVec F S64x64x1024x3 .f32) : IVec S_ 1 :=
  let main_v0 : FVec F S64x64x3 .f32 := Host.absf main_arg0
  let main_cst : FVec F S_ .f32 := constant S_ .f32 0x7F800000#32
  let main_v1 : FVec F S64x64x3 .f32 := broadcastInDim S64x64x3 ![] bcast_S_S64x64x3 main_cst
  let main_v2 : IVec S64x64x3 1 := cmpf .olt main_v0 main_v1
  let main_c : IVec S_ 1 := constantI S_ 1 1#1
  let main_v3 : IVec S_ 1 := (fun x v => Host.reduce IntOp.andi x v reducesTo_S64x64x3_S_d0_1_2 h_S_) main_v2 main_c
  let main_v4 : FVec F S64x64x3 .f32 := Host.absf main_arg1
  let main_cst_0 : FVec F S_ .f32 := constant S_ .f32 0x7F800000#32
  let main_v5 : FVec F S64x64x3 .f32 := broadcastInDim S64x64x3 ![] bcast_S_S64x64x3 main_cst_0
  let main_v6 : IVec S64x64x3 1 := cmpf .olt main_v4 main_v5
  let main_c_1 : IVec S_ 1 := constantI S_ 1 1#1
  let main_v7 : IVec S_ 1 := (fun x v => Host.reduce IntOp.andi x v reducesTo_S64x64x3_S_d0_1_2 h_S_) main_v6 main_c_1
  let main_v8 : IVec S_ 1 := andi main_v3 main_v7
  let main_v9 : FVec F S64x64x4 .f32 := Host.absf main_arg2
  let main_cst_2 : FVec F S_ .f32 := constant S_ .f32 0x7F800000#32
  let main_v10 : FVec F S64x64x4 .f32 := broadcastInDim S64x64x4 ![] bcast_S_S64x64x4 main_cst_2
  let main_v11 : IVec S64x64x4 1 := cmpf .olt main_v9 main_v10
  let main_c_3 : IVec S_ 1 := constantI S_ 1 1#1
  let main_v12 : IVec S_ 1 := (fun x v => Host.reduce IntOp.andi x v reducesTo_S64x64x4_S_d0_1_2 h_S_) main_v11 main_c_3
  let main_v13 : IVec S_ 1 := andi main_v8 main_v12
  let main_v14 : FVec F S64x32x32x32x3 .f32 := Host.absf main_arg3
  let main_cst_4 : FVec F S_ .f32 := constant S_ .f32 0x7F800000#32
  let main_v15 : FVec F S64x32x32x32x3 .f32 := broadcastInDim S64x32x32x32x3 ![] bcast_S_S64x32x32x32x3 main_cst_4
  let main_v16 : IVec S64x32x32x32x3 1 := cmpf .olt main_v14 main_v15
  fn_part1 (F := F) main_arg5 main_v13 main_v16
-- ==== Kernel.lean ====
abbrev S64x64x3 : Shape := ⟨3, ![64, 64, 3]⟩
abbrev S64x64x4 : Shape := ⟨3, ![64, 64, 4]⟩
abbrev S64x32x32x32x3 : Shape := ⟨5, ![64, 32, 32, 32, 3]⟩
abbrev S64x64 : Shape := ⟨2, ![64, 64]⟩
abbrev S64x64x1024x3 : Shape := ⟨4, ![64, 64, 1024, 3]⟩
abbrev S64x64x1 : Shape := ⟨3, ![64, 64, 1]⟩
abbrev S64x64x1024x1 : Shape := ⟨4, ![64, 64, 1024, 1]⟩
abbrev S64x64x1024 : Shape := ⟨3, ![64, 64, 1024]⟩
abbrev S4x64x3 : Shape := ⟨3, ![4, 64, 3]⟩
abbrev S4x64x4 : Shape := ⟨3, ![4, 64, 4]⟩
abbrev S4x64x1 : Shape := ⟨3, ![4, 64, 1]⟩
abbrev S4x64x1024 : Shape := ⟨3, ![4, 64, 1024]⟩
abbrev S4x64 : Shape := ⟨2, ![4, 64]⟩
abbrev S4 : Shape := ⟨1, ![4]⟩
abbrev S4x1 : Shape := ⟨2, ![4, 1]⟩
abbrev S_ : Shape := ⟨0, ![]⟩
abbrev S64x32768x3 : Shape := ⟨3, ![64, 32768, 3]⟩
abbrev S64x65536x1 : Shape := ⟨3, ![64, 65536, 1]⟩
abbrev S1 : Shape := ⟨1, ![1]⟩
abbrev S1x1x1 : Shape := ⟨3, ![1, 1, 1]⟩
abbrev S64x65536 : Shape := ⟨2, ![64, 65536]⟩
abbrev S64x65536x3 : Shape := ⟨3, ![64, 65536, 3]⟩
abbrev S64x64x1x1 : Shape := ⟨4, ![64, 64, 1, 1]⟩

abbrev nBuf : Space → Nat
  | .hbm => 81
  | .vmem => 22
  | .smem => 0
  | _ => 0

abbrev bufTy : (tb : Table) → Fin (tcTables nBuf tb) → BufTy
  | .hbm, ⟨0, _⟩ => ⟨S64x64x3, .f32⟩
  | .hbm, ⟨1, _⟩ => ⟨S64x64x3, .f32⟩
  | .hbm, ⟨2, _⟩ => ⟨S64x64x4, .f32⟩
  | .hbm, ⟨3, _⟩ => ⟨S64x32x32x32x3, .f32⟩
  | .hbm, ⟨4, _⟩ => ⟨S64x64, .i32⟩
  | .hbm, ⟨5, _⟩ => ⟨S64x64x1024x3, .f32⟩
  | .hbm, ⟨6, _⟩ => ⟨S64x64x1, .i32⟩
  | .hbm, ⟨7, _⟩ => ⟨S64x64x1024x1, .f32⟩
  | .hbm, ⟨8, _⟩ => ⟨S64x64x1024, .f32⟩
  | .hbm, ⟨9, _⟩ => ⟨S64x64x1024x1, .f32⟩
  | .hbm, ⟨10, _⟩ => ⟨S64x64x1024, .f32⟩
  | .hbm, ⟨11, _⟩ => ⟨S64x64x1024x1, .f32⟩
  | .hbm, ⟨12, _⟩ => ⟨S64x64x1024, .f32⟩
  | .hbm, ⟨13, _⟩ => ⟨S64x64x1024, .f32⟩
  | .hbm, ⟨14, _⟩ => ⟨S64x64x1024, .f32⟩
  | .hbm, ⟨15, _⟩ => ⟨S64x64x1024, .f32⟩
  | .hbm, ⟨16, _⟩ => ⟨S64x64x1024, .f32⟩
  | .hbm, ⟨17, _⟩ => ⟨S64x64x1024x1, .f32⟩
  | .hbm, ⟨18, _⟩ => ⟨S64x64x1024x1, .f32⟩
  | .hbm, ⟨19, _⟩ => ⟨S64x64x1024x1, .f32⟩
  | .hbm, ⟨20, _⟩ => ⟨S64x64x1024x3, .f32⟩
  | .hbm, ⟨21, _⟩ => ⟨S_, .f32⟩
  | .hbm, ⟨22, _⟩ => ⟨S64x64x1024x3, .f32⟩
  | .hbm, ⟨23, _⟩ => ⟨S64x64x1024x3, .f32⟩
  | .hbm, ⟨24, _⟩ => ⟨S_, .f32⟩
  | .hbm, ⟨25, _⟩ => ⟨S64x64x1024x3, .f32⟩
  | .hbm, ⟨26, _⟩ => ⟨S64x64x1024x3, .f32⟩
  | .hbm, ⟨27, _⟩ => ⟨S64x64x1024x3, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S64x64x1024x3, .i32⟩
  | .hbm, ⟨32, _⟩ => ⟨S64x64x1024x3, .i32⟩
  | .hbm, ⟨33, _⟩ => ⟨S_, .i32⟩
  | .hbm, ⟨34, _⟩ => ⟨S64x64x1024x3, .i32⟩
  | .hbm, ⟨35, _⟩ => ⟨S64x64x1024x3, .i32⟩
  | .hbm, ⟨36, _⟩ => ⟨S64x64x1024x1, .i32⟩
  | .hbm, ⟨37, _⟩ => ⟨S64x64x1024, .i32⟩
  | .hbm, ⟨38, _⟩ => ⟨S_, .i32⟩
  | .hbm, ⟨39, _⟩ => ⟨S64x64x1024, .i32⟩
  | .hbm, ⟨40, _⟩ => ⟨S64x64x1024, .i32⟩
  | .hbm, ⟨41, _⟩ => ⟨S64x64x1024x1, .i32⟩
  | .hbm, ⟨42, _⟩ => ⟨S64x64x1024, .i32⟩
  | .hbm, ⟨43, _⟩ => ⟨S64x64x1024, .i32⟩
  | .hbm, ⟨44, _⟩ => ⟨S_, .i32⟩
  | .hbm, ⟨45, _⟩ => ⟨S64x64x1024, .i32⟩
  | .hbm, ⟨46, _⟩ => ⟨S64x64x1024, .i32⟩
  | .hbm, ⟨47, _⟩ => ⟨S64x64x1024x1, .i32⟩
  | .hbm, ⟨48, _⟩ => ⟨S64x64x1024, .i32⟩
  | .hbm, ⟨49, _⟩ => ⟨S64x64x1024, .i32⟩
  | .hbm, ⟨50, _⟩ => ⟨S64x32768x3, .f32⟩
  | .hbm, ⟨51, _⟩ => ⟨S64x65536x1, .i32⟩
  | .hbm, ⟨52, _⟩ => ⟨S_, .i32⟩
  | .hbm, ⟨53, _⟩ => ⟨S64x65536x1, .i32⟩
  | .hbm, ⟨54, _⟩ => ⟨S64x65536x1, .i1⟩
  | .hbm, ⟨55, _⟩ => ⟨S_, .i32⟩
  | .hbm, ⟨56, _⟩ => ⟨S64x65536x1, .i32⟩
  | .hbm, ⟨57, _⟩ => ⟨S64x65536x1, .i32⟩
  | .hbm, ⟨58, _⟩ => ⟨S64x65536x1, .i32⟩
  | .hbm, ⟨59, _⟩ => ⟨S1, .i32⟩
  | .hbm, ⟨60, _⟩ => ⟨S_, .i32⟩
  | .hbm, ⟨61, _⟩ => ⟨S64x65536x1, .i32⟩
  | .hbm, ⟨62, _⟩ => ⟨S64x65536x1, .i1⟩
  | .hbm, ⟨63, _⟩ => ⟨S1x1x1, .i32⟩
  | .hbm, ⟨64, _⟩ => ⟨S64x65536x1, .i32⟩
  | .hbm, ⟨65, _⟩ => ⟨S64x65536x1, .i1⟩
  | .hbm, ⟨66, _⟩ => ⟨S64x65536x1, .i1⟩
  | .hbm, ⟨67, _⟩ => ⟨S_, .i1⟩
  | .hbm, ⟨68, _⟩ => ⟨S64x65536, .i1⟩
  | .hbm, ⟨69, _⟩ => ⟨S64x65536x3, .f32⟩
  | .hbm, ⟨70, _⟩ => ⟨S64x65536x3, .i1⟩
  | .hbm, ⟨71, _⟩ => ⟨S_, .f32⟩
  | .hbm, ⟨72, _⟩ => ⟨S64x65536x3, .f32⟩
  | .hbm, ⟨73, _⟩ => ⟨S64x65536x3, .f32⟩
  | .hbm, ⟨74, _⟩ => ⟨S64x64x1024x3, .f32⟩
  | .hbm, ⟨75, _⟩ => ⟨S_, .i32⟩
  | .hbm, ⟨76, _⟩ => ⟨S64x64, .i32⟩
  | .hbm, ⟨77, _⟩ => ⟨S64x64, .i1⟩
  | .hbm, ⟨78, _⟩ => ⟨S64x64x1x1, .i1⟩
  | .hbm, ⟨79, _⟩ => ⟨S64x64x1024x3, .i1⟩
  | .hbm, ⟨80, _⟩ => ⟨S64x64x1024x3, .f32⟩
  | .local _ .vmem, ⟨0, _⟩ => ⟨S4x64x3, .f32⟩
  | .local _ .vmem, ⟨1, _⟩ => ⟨S4x64x3, .f32⟩
  | .local _ .vmem, ⟨2, _⟩ => ⟨S4x64x3, .f32⟩
  | .local _ .vmem, ⟨3, _⟩ => ⟨S4x64x3, .f32⟩
  | .local _ .vmem, ⟨4, _⟩ => ⟨S4x64x4, .f32⟩
  | .local _ .vmem, ⟨5, _⟩ => ⟨S4x64x4, .f32⟩
  | .local _ .vmem, ⟨6, _⟩ => ⟨S4x64x1, .i32⟩
  | .local _ .vmem, ⟨7, _⟩ => ⟨S4x64x1, .i32⟩
  | .local _ .vmem, ⟨8, _⟩ => ⟨S4x64x1024, .f32⟩
  | .local _ .vmem, ⟨9, _⟩ => ⟨S4x64x1024, .f32⟩
  | .local _ .vmem, ⟨10, _⟩ => ⟨S4x64x1024, .f32⟩
  | .local _ .vmem, ⟨11, _⟩ => ⟨S4x64x1024, .f32⟩
  | .local _ .vmem, ⟨12, _⟩ => ⟨S4x64x1024, .f32⟩
  | .local _ .vmem, ⟨13, _⟩ => ⟨S4x64x1024, .f32⟩
  | .local _ .vmem, ⟨14, _⟩ => ⟨S4x64x1024, .f32⟩
  | .local _ .vmem, ⟨15, _⟩ => ⟨S4x64x1024, .f32⟩
  | .local _ .vmem, ⟨16, _⟩ => ⟨S4x64x1024, .f32⟩
  | .local _ .vmem, ⟨17, _⟩ => ⟨S4x64x1024, .f32⟩
  | .local _ .vmem, ⟨18, _⟩ => ⟨S4x64x1024, .f32⟩
  | .local _ .vmem, ⟨19, _⟩ => ⟨S4x64x1024, .f32⟩
  | .local _ .vmem, ⟨20, _⟩ => ⟨S4x64x1024, .f32⟩
  | .local _ .vmem, ⟨21, _⟩ => ⟨S4x64x1024, .f32⟩
  | _, _ => ⟨S64x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_c_2 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_c_3 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v32 : Ref sig .tc := ⟨.hbm, 73, rfl⟩
abbrev main_v33 : Ref sig .tc := ⟨.hbm, 74, rfl⟩
abbrev main_c_4 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_call2_v0 : Ref sig .tc := ⟨.hbm, 79, rfl⟩
abbrev main_v37 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S64x64_S64x64x1 : S64x64.ShapeCasts S64x64x1
  slices_S64x64x1024x3_S64x64x1024x1_0_0_0_0 : S64x64x1024x3.Slices ![0, 0, 0, 0] S64x64x1024x1
  shapeCasts_S64x64x1024x1_S64x64x1024 : S64x64x1024x1.ShapeCasts S64x64x1024
  slices_S64x64x1024x3_S64x64x1024x1_0_0_0_1 : S64x64x1024x3.Slices ![0, 0, 0, 1] S64x64x1024x1
  slices_S64x64x1024x3_S64x64x1024x1_0_0_0_2 : S64x64x1024x3.Slices ![0, 0, 0, 2] S64x64x1024x1
  inb_S4x64x1024_S4x64x1024_0_0_0 : ∀ a, (![0, 0, 0] : Fin 3 → Nat) a + S4x64x1024.size a ≤ S4x64x1024.size a
  h_S4x64x1024 : 0 < S4x64x1024.numel
  shapeCasts_S4x64x1024_S4x64x1024 : S4x64x1024.ShapeCasts S4x64x1024
  inb_S4x64x3_S4x64x3_0_0_0 : ∀ a, (![0, 0, 0] : Fin 3 → Nat) a + S4x64x3.size a ≤ S4x64x3.size a
  h_S4x64x3 : 0 < S4x64x3.numel
  inb_S4x64x4_S4x64x4_0_0_0 : ∀ a, (![0, 0, 0] : Fin 3 → Nat) a + S4x64x4.size a ≤ S4x64x4.size a
  h_S4x64x4 : 0 < S4x64x4.numel
  inb_S4x64x1_S4x64x1_0_0_0 : ∀ a, (![0, 0, 0] : Fin 3 → Nat) a + S4x64x1.size a ≤ S4x64x1.size a
  h_S4x64x1 : 0 < S4x64x1.numel
  shapeCasts_S4x64x1_S4x64x1 : S4x64x1.ShapeCasts S4x64x1
  shapeCasts_S4x64x1_S4x64 : S4x64x1.ShapeCasts S4x64
  slices_S4x64x3_o0_0_0_S4x64x1 : S4x64x3.Slices ![0, 0, 0] S4x64x1
  slices_S4x64x3_o0_0_1_S4x64x1 : S4x64x3.Slices ![0, 0, 1] S4x64x1
  slices_S4x64x3_o0_0_2_S4x64x1 : S4x64x3.Slices ![0, 0, 2] S4x64x1
  shapeCasts_S4x64_S4x64x1 : S4x64.ShapeCasts S4x64x1
  broadcasts_S4x64x1_S4x64x1024 : S4x64x1.Broadcasts S4x64x1024
  reduces_S4x64x4_S4x64 : S4x64x4.Reduces [2] S4x64
  broadcasts_S4x64x1_S4x64x4 : S4x64x1.Broadcasts S4x64x4
  slices_S4x64x4_o0_0_0_S4x64x1 : S4x64x4.Slices ![0, 0, 0] S4x64x1
  slices_S4x64x4_o0_0_1_S4x64x1 : S4x64x4.Slices ![0, 0, 1] S4x64x1
  slices_S4x64x4_o0_0_2_S4x64x1 : S4x64x4.Slices ![0, 0, 2] S4x64x1
  slices_S4x64x4_o0_0_3_S4x64x1 : S4x64x4.Slices ![0, 0, 3] S4x64x1
  reduces_S4x64_S4 : S4x64.Reduces [1] S4
  shapeCasts_S4_S4x1 : S4.ShapeCasts S4x1
  broadcasts_S4x1_S4x64 : S4x1.Broadcasts S4x64
  natLt_1_32 : 1 < 32
  bcast_S64x64x1024_S64x64x1024x1_0_1_2 : S64x64x1024.BroadcastsInDim S64x64x1024x1 (![0, 1, 2] : Fin 3 → Fin S64x64x1024x1.rank)
  concatenates_S64x64x1024x1_S64x64x1024x1_S64x64x1024x1_S64x64x1024x3_d3 : Shape.Concatenates [S64x64x1024x1, S64x64x1024x1, S64x64x1024x1] S64x64x1024x3 3
  bcast_S_S64x64x1024x3 : S_.BroadcastsInDim S64x64x1024x3 (![] : Fin 0 → Fin S64x64x1024x3.rank)
  bcast_S_S64x64x1024 : S_.BroadcastsInDim S64x64x1024 (![] : Fin 0 → Fin S64x64x1024.rank)
  shapeCasts_S64x32x32x32x3_S64x32768x3 : S64x32x32x32x3.ShapeCasts S64x32768x3
  shapeCasts_S64x64x1024_S64x65536x1 : S64x64x1024.ShapeCasts S64x65536x1
  bcast_S_S64x65536x1 : S_.BroadcastsInDim S64x65536x1 (![] : Fin 0 → Fin S64x65536x1.rank)
  bcast_S1_S1x1x1_2 : S1.BroadcastsInDim S1x1x1 (![2] : Fin 1 → Fin S1x1x1.rank)
  bcast_S1x1x1_S64x65536x1_0_1_2 : S1x1x1.BroadcastsInDim S64x65536x1 (![0, 1, 2] : Fin 3 → Fin S64x65536x1.rank)
  reducesTo_S64x65536x1_S64x65536_d2 : S64x65536x1.ReducesTo [2] S64x65536
  h_S_ : 0 < S_.numel
  bcast_S64x65536_S64x65536x3_0_1 : S64x65536.BroadcastsInDim S64x65536x3 (![0, 1] : Fin 2 → Fin S64x65536x3.rank)
  bcast_S_S64x65536x3 : S_.BroadcastsInDim S64x65536x3 (![] : Fin 0 → Fin S64x65536x3.rank)
  shapeCasts_S64x65536x3_S64x64x1024x3 : S64x65536x3.ShapeCasts S64x64x1024x3
  bcast_S_S64x64 : S_.BroadcastsInDim S64x64 (![] : Fin 0 → Fin S64x64.rank)
  bcast_S64x64_S64x64x1x1_0_1 : S64x64.BroadcastsInDim S64x64x1x1 (![0, 1] : Fin 2 → Fin S64x64x1x1.rank)
  bcast_S64x64x1x1_S64x64x1024x3_0_1_2_3 : S64x64x1x1.BroadcastsInDim S64x64x1024x3 (![0, 1, 2, 3] : Fin 4 → Fin S64x64x1024x3.rank)
  gather_S64x32768x3_S64x65536x1_S64x65536x3_2_1_0_0_1_2_113_wf : GatherDims.WF S64x32768x3 S64x65536x1 S64x65536x3 [2] [1] [0] [1] [0] 2 ![1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x3.size a ≤ S64x64x3.size a
  hwx0_0 : ∀ i : grid0.Coords, EltTy.bits .f32 = 32 ∨ (Rect.block (s := S64x64x3) S4x64x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x3.size a ≤ S64x64x3.size a
  hwx0_1 : ∀ i : grid0.Coords, EltTy.bits .f32 = 32 ∨ (Rect.block (s := S64x64x3) S4x64x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x4.size a ≤ S64x64x4.size a
  hwx0_2 : ∀ i : grid0.Coords, EltTy.bits .f32 = 32 ∨ (Rect.block (s := S64x64x4) S4x64x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x1.size a ≤ S64x64x1.size a
  hwx0_3 : ∀ i : grid0.Coords, EltTy.bits .i32 = 32 ∨ (Rect.block (s := S64x64x1) S4x64x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x64x1024.size a ≤ S64x64x1024.size a
  hwx0_4 : ∀ i : grid0.Coords, EltTy.bits .f32 = 32 ∨ (Rect.block (s := S64x64x1024) S4x64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x64x1024.size a ≤ S64x64x1024.size a
  hwx0_5 : ∀ i : grid0.Coords, EltTy.bits .f32 = 32 ∨ (Rect.block (s := S64x64x1024) S4x64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x64x1024.size a ≤ S64x64x1024.size a
  hwx0_6 : ∀ i : grid0.Coords, EltTy.bits .f32 = 32 ∨ (Rect.block (s := S64x64x1024) S4x64x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x64x1024.size a ≤ S64x64x1024.size a
  hwx0_7 : ∀ i : grid0.Coords, EltTy.bits .f32 = 32 ∨ (Rect.block (s := S64x64x1024) S4x64x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x64x1024.size a ≤ S64x64x1024.size a
  hwx0_8 : ∀ i : grid0.Coords, EltTy.bits .f32 = 32 ∨ (Rect.block (s := S64x64x1024) S4x64x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x64x1024.size a ≤ S64x64x1024.size a
  hwx0_9 : ∀ i : grid0.Coords, EltTy.bits .f32 = 32 ∨ (Rect.block (s := S64x64x1024) S4x64x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x64x1024.size a ≤ S64x64x1024.size a
  hwx0_10 : ∀ i : grid0.Coords, EltTy.bits .f32 = 32 ∨ (Rect.block (s := S64x64x1024) S4x64x1024.size (cc0_transform_10 i) (hinb0_10 i)).WholeWords (EltTy.packing .f32)

variable [Facts₀]

def gather_S64x32768x3_S64x65536x1_S64x65536x3_2_1_0_0_1_2_113 : GatherDims S64x32768x3 S64x65536x1 S64x65536x3 where
  offsetDims := [2]
  collapsedSliceDims := [1]
  operandBatchingDims := [0]
  startIndicesBatchingDims := [0]
  startIndexMap := [1]
  indexVectorDim := 2
  sliceSizes := ![1, 1, 3]
  wf := gather_S64x32768x3_S64x65536x1_S64x65536x3_2_1_0_0_1_2_113_wf

abbrev win0_0 : Pipeline.Window sig grid0 :=
  Pipeline.Window.ofSpec (Memref.whole main_arg0) S4x64x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x64x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4x64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S4x64x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S4x64x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S4x64x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S4x64x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_3) S4x64x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x64x3 : Shape := ⟨3, ![64, 64, 3]⟩
abbrev S64x64x4 : Shape := ⟨3, ![64, 64, 4]⟩
abbrev S64x32x32x32x3 : Shape := ⟨5, ![64, 32, 32, 32, 3]⟩
abbrev S64x64 : Shape := ⟨2, ![64, 64]⟩
abbrev S64x64x1024x3 : Shape := ⟨4, ![64, 64, 1024, 3]⟩
abbrev S_ : Shape := ⟨0, ![]⟩
abbrev S64x64x1024 : Shape := ⟨3, ![64, 64, 1024]⟩
abbrev S64x64x1024x1 : Shape := ⟨4, ![64, 64, 1024, 1]⟩
abbrev S64x64x1x3 : Shape := ⟨4, ![64, 64, 1, 3]⟩
abbrev S64x64x1 : Shape := ⟨3, ![64, 64, 1]⟩
abbrev S64x64x9 : Shape := ⟨3, ![64, 64, 9]⟩
abbrev S64x64x3x3 : Shape := ⟨4, ![64, 64, 3, 3]⟩
abbrev S64 : Shape := ⟨1, ![64]⟩
abbrev S64x1 : Shape := ⟨2, ![64, 1]⟩
abbrev S1x1x1024 : Shape := ⟨3, ![1, 1, 1024]⟩
abbrev S64x32768x3 : Shape := ⟨3, ![64, 32768, 3]⟩
abbrev S64x65536x1 : Shape := ⟨3, ![64, 65536, 1]⟩
abbrev S1 : Shape := ⟨1, ![1]⟩
abbrev S1x1x1 : Shape := ⟨3, ![1, 1, 1]⟩
abbrev S64x65536 : Shape := ⟨2, ![64, 65536]⟩
abbrev S64x65536x3 : Shape := ⟨3, ![64, 65536, 3]⟩
abbrev S64x64x1x1 : Shape := ⟨4, ![64, 64, 1, 1]⟩

abbrev nBuf : Space → Nat
  | .hbm => 213
  | .vmem => 0
  | .smem => 0
  | _ => 0

abbrev hbmTy0_0 (i : Nat) : BufTy := match i % 128 with
  | 0 => ⟨S64x64x3, .f32⟩
  | 1 => ⟨S64x64x3, .f32⟩
  | 2 => ⟨S64x64x4, .f32⟩
  | 3 => ⟨S64x32x32x32x3, .f32⟩
  | 4 => ⟨S64x64, .i32⟩
  | 5 => ⟨S64x64x1024x3, .f32⟩
  | 6 => ⟨S_, .f32⟩
  | 7 => ⟨S64x64x1024x3, .f32⟩
  | 8 => ⟨S64x64x1024x3, .f32⟩
  | 9 => ⟨S64x64x1024x3, .f32⟩
  | 10 => ⟨S_, .f32⟩
  | 11 => ⟨S64x64x1024, .f32⟩
  | 12 => ⟨S64x64x1024x1, .f32⟩
  | 13 => ⟨S_, .f32⟩
  | 14 => ⟨S64x64x1024x1, .f32⟩
  | 15 => ⟨S64x64x1024x1, .f32⟩
  | 16 => ⟨S_, .f32⟩
  | 17 => ⟨S64x64x1024x1, .f32⟩
  | 18 => ⟨S64x64x1024x1, .f32⟩
  | 19 => ⟨S64x64x1024x3, .f32⟩
  | 20 => ⟨S64x64x1024x3, .f32⟩
  | 21 => ⟨S64x64x1x3, .f32⟩
  | 22 => ⟨S64x64x1024x3, .f32⟩
  | 23 => ⟨S64x64x1024x3, .f32⟩
  | 24 => ⟨S64x64x4, .f32⟩
  | 25 => ⟨S_, .f32⟩
  | 26 => ⟨S64x64, .f32⟩
  | 27 => ⟨S64x64x1, .f32⟩
  | 28 => ⟨S64x64x1, .f32⟩
  | 29 => ⟨S64x64x4, .f32⟩
  | 30 => ⟨S64x64x4, .f32⟩
  | 31 => ⟨S64x64x1, .f32⟩
  | 32 => ⟨S64x64, .f32⟩
  | 33 => ⟨S64x64x1, .f32⟩
  | 34 => ⟨S64x64, .f32⟩
  | 35 => ⟨S64x64x1, .f32⟩
  | 36 => ⟨S64x64, .f32⟩
  | 37 => ⟨S64x64x1, .f32⟩
  | 38 => ⟨S64x64, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S_, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S_, .f32⟩
  | 52 => ⟨S64x64, .f32⟩
  | 53 => ⟨S64x64, .f32⟩
  | 54 => ⟨S64x64, .f32⟩
  | 55 => ⟨S64x64, .f32⟩
  | 56 => ⟨S64x64, .f32⟩
  | 57 => ⟨S_, .f32⟩
  | 58 => ⟨S64x64, .f32⟩
  | 59 => ⟨S64x64, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S64x64, .f32⟩
  | 68 => ⟨S64x64, .f32⟩
  | 69 => ⟨S_, .f32⟩
  | 70 => ⟨S64x64, .f32⟩
  | 71 => ⟨S64x64, .f32⟩
  | 72 => ⟨S_, .f32⟩
  | 73 => ⟨S64x64, .f32⟩
  | 74 => ⟨S64x64, .f32⟩
  | 75 => ⟨S64x64, .f32⟩
  | 76 => ⟨S64x64, .f32⟩
  | 77 => ⟨S64x64, .f32⟩
  | 78 => ⟨S_, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S_, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S_, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S64x64x1, .f32⟩
  | 103 => ⟨S64x64x1, .f32⟩
  | 104 => ⟨S64x64x1, .f32⟩
  | 105 => ⟨S64x64x1, .f32⟩
  | 106 => ⟨S64x64x1, .f32⟩
  | 107 => ⟨S64x64x1, .f32⟩
  | 108 => ⟨S64x64x1, .f32⟩
  | 109 => ⟨S64x64x1, .f32⟩
  | 110 => ⟨S64x64x1, .f32⟩
  | 111 => ⟨S64x64x9, .f32⟩
  | 112 => ⟨S64x64x3x3, .f32⟩
  | 113 => ⟨S64x64x1024x3, .f32⟩
  | 114 => ⟨S64x64x1x3, .f32⟩
  | 115 => ⟨S64x64x1024x3, .f32⟩
  | 116 => ⟨S64x64x1024x3, .f32⟩
  | 117 => ⟨S64x64x1, .f32⟩
  | 118 => ⟨S64x64, .f32⟩
  | 119 => ⟨S64x64x1, .f32⟩
  | 120 => ⟨S64x64, .f32⟩
  | 121 => ⟨S64x64x1, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64x3, .f32⟩

abbrev hbmTy0_1 (i : Nat) : BufTy := match i % 128 with
  | 0 => ⟨S_, .f32⟩
  | 1 => ⟨S64x64, .f32⟩
  | 2 => ⟨S64x64, .f32⟩
  | 3 => ⟨S_, .f32⟩
  | 4 => ⟨S64, .f32⟩
  | 5 => ⟨S64x1, .f32⟩
  | 6 => ⟨S_, .f32⟩
  | 7 => ⟨S64x1, .f32⟩
  | 8 => ⟨S64x1, .f32⟩
  | 9 => ⟨S64x64, .f32⟩
  | 10 => ⟨S64x64, .f32⟩
  | 11 => ⟨S_, .i32⟩
  | 12 => ⟨S64x64, .i32⟩
  | 13 => ⟨S64x64, .i1⟩
  | 14 => ⟨S64x64, .f32⟩
  | 15 => ⟨S64x64, .f32⟩
  | 16 => ⟨S64x64x1, .f32⟩
  | 17 => ⟨S_, .f32⟩
  | 18 => ⟨S1x1x1024, .f32⟩
  | 19 => ⟨S64x64x1024, .f32⟩
  | 20 => ⟨S64x64x1024, .f32⟩
  | 21 => ⟨S64x64x1024, .f32⟩
  | 22 => ⟨S_, .f32⟩
  | 23 => ⟨S64x64x1024, .f32⟩
  | 24 => ⟨S64x64x1024, .f32⟩
  | 25 => ⟨S_, .f32⟩
  | 26 => ⟨S64x64x1024x3, .f32⟩
  | 27 => ⟨S64x64x1024x3, .f32⟩
  | 28 => ⟨S_, .f32⟩
  | 29 => ⟨S64x64x1024x3, .f32⟩
  | 30 => ⟨S64x64x1024x3, .f32⟩
  | 31 => ⟨S64x64x1024x3, .i32⟩
  | 32 => ⟨S_, .i32⟩
  | 33 => ⟨S_, .i32⟩
  | 34 => ⟨S_, .i32⟩
  | 35 => ⟨S64x64x1024x3, .i32⟩
  | 36 => ⟨S64x64x1024x3, .i32⟩
  | 37 => ⟨S_, .i32⟩
  | 38 => ⟨S64x64x1024x3, .i32⟩
  | 39 => ⟨S64x64x1024x3, .i32⟩
  | 40 => ⟨S64x64x1024x1, .i32⟩
  | 41 => ⟨S64x64x1024, .i32⟩
  | 42 => ⟨S_, .i32⟩
  | 43 => ⟨S64x64x1024, .i32⟩
  | 44 => ⟨S64x64x1024, .i32⟩
  | 45 => ⟨S64x64x1024x1, .i32⟩
  | 46 => ⟨S64x64x1024, .i32⟩
  | 47 => ⟨S64x64x1024, .i32⟩
  | 48 => ⟨S_, .i32⟩
  | 49 => ⟨S64x64x1024, .i32⟩
  | 50 => ⟨S64x64x1024, .i32⟩
  | 51 => ⟨S64x64x1024x1, .i32⟩
  | 52 => ⟨S64x64x1024, .i32⟩
  | 53 => ⟨S64x64x1024, .i32⟩
  | 54 => ⟨S64x32768x3, .f32⟩
  | 55 => ⟨S64x65536x1, .i32⟩
  | 56 => ⟨S_, .i32⟩
  | 57 => ⟨S64x65536x1, .i32⟩
  | 58 => ⟨S64x65536x1, .i1⟩
  | 59 => ⟨S_, .i32⟩
  | 60 => ⟨S64x65536x1, .i32⟩
  | 61 => ⟨S64x65536x1, .i32⟩
  | 62 => ⟨S64x65536x1, .i32⟩
  | 63 => ⟨S1, .i32⟩
  | 64 => ⟨S_, .i32⟩
  | 65 => ⟨S64x65536x1, .i32⟩
  | 66 => ⟨S64x65536x1, .i1⟩
  | 67 => ⟨S1x1x1, .i32⟩
  | 68 => ⟨S64x65536x1, .i32⟩
  | 69 => ⟨S64x65536x1, .i1⟩
  | 70 => ⟨S64x65536x1, .i1⟩
  | 71 => ⟨S_, .i1⟩
  | 72 => ⟨S64x65536, .i1⟩
  | 73 => ⟨S64x65536x3, .f32⟩
  | 74 => ⟨S64x65536x3, .i1⟩
  | 75 => ⟨S_, .f32⟩
  | 76 => ⟨S64x65536x3, .f32⟩
  | 77 => ⟨S64x65536x3, .f32⟩
  | 78 => ⟨S64x64x1024x3, .f32⟩
  | 79 => ⟨S_, .i32⟩
  | 80 => ⟨S64x64, .i32⟩
  | 81 => ⟨S64x64, .i1⟩
  | 82 => ⟨S64x64x1x1, .i1⟩
  | 83 => ⟨S64x64x1024x3, .i1⟩
  | 84 => ⟨S64x64x1024x3, .f32⟩
  | _ => ⟨S64x64x3, .f32⟩

abbrev hbmTy (i : Nat) : BufTy := match i / 128 with
  | 0 => hbmTy0_0 i
  | 1 => hbmTy0_1 i
  | _ => ⟨S64x64x3, .f32⟩

abbrev bufTy : (tb : Table) → Fin (tcTables nBuf tb) → BufTy
  | .hbm, ⟨i, _⟩ => hbmTy i
  | _, _ => ⟨S64x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_15 : Ref sig .tc := ⟨.hbm, 128, rfl⟩
abbrev main_v102 : Ref sig .tc := ⟨.hbm, 129, rfl⟩
abbrev main_v103 : Ref sig .tc := ⟨.hbm, 130, rfl⟩
abbrev main_cst_16 : Ref sig .tc := ⟨.hbm, 131, rfl⟩
abbrev main_v104 : Ref sig .tc := ⟨.hbm, 132, rfl⟩
abbrev main_v105 : Ref sig .tc := ⟨.hbm, 133, rfl⟩
abbrev main_cst_17 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_c : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_18 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_19 : Ref sig .tc := ⟨.hbm, 150, rfl⟩
abbrev main_v119 : Ref sig .tc := ⟨.hbm, 151, rfl⟩
abbrev main_v120 : Ref sig .tc := ⟨.hbm, 152, rfl⟩
abbrev main_cst_20 : Ref sig .tc := ⟨.hbm, 153, rfl⟩
abbrev main_v121 : Ref sig .tc := ⟨.hbm, 154, rfl⟩
abbrev main_v122 : Ref sig .tc := ⟨.hbm, 155, rfl⟩
abbrev main_cst_21 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_c_22 : Ref sig .tc := ⟨.hbm, 160, rfl⟩
abbrev main_c_23 : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_call1_v3 : Ref sig .tc := ⟨.hbm, 165, rfl⟩
abbrev main_call1_v4 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_c_24 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_c_25 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_call2_c : Ref sig .tc := ⟨.hbm, 184, rfl⟩
abbrev main_call2_v0 : Ref sig .tc := ⟨.hbm, 185, rfl⟩
abbrev main_call2_v1 : Ref sig .tc := ⟨.hbm, 186, rfl⟩
abbrev main_call2_c_0 : Ref sig .tc := ⟨.hbm, 187, rfl⟩
abbrev main_call2_v2 : Ref sig .tc := ⟨.hbm, 188, rfl⟩
abbrev main_call2_v3 : Ref sig .tc := ⟨.hbm, 189, rfl⟩
abbrev main_call2_v4 : Ref sig .tc := ⟨.hbm, 190, rfl⟩
abbrev main_call2_c_1 : Ref sig .tc := ⟨.hbm, 191, rfl⟩
abbrev main_call2_c_2 : Ref sig .tc := ⟨.hbm, 192, rfl⟩
abbrev main_call2_v5 : Ref sig .tc := ⟨.hbm, 193, rfl⟩
abbrev main_call2_v6 : Ref sig .tc := ⟨.hbm, 194, rfl⟩
abbrev main_call2_v7 : Ref sig .tc := ⟨.hbm, 195, rfl⟩
abbrev main_call2_v8 : Ref sig .tc := ⟨.hbm, 196, rfl⟩
abbrev main_call2_v9 : Ref sig .tc := ⟨.hbm, 197, rfl⟩
abbrev main_call2_v10 : Ref sig .tc := ⟨.hbm, 198, rfl⟩
abbrev main_call2_c_3 : Ref sig .tc := ⟨.hbm, 199, rfl⟩
abbrev main_call2_v11 : Ref sig .tc := ⟨.hbm, 200, rfl⟩
abbrev main_call2_v12 : Ref sig .tc := ⟨.hbm, 201, rfl⟩
abbrev main_call2_v13 : Ref sig .tc := ⟨.hbm, 202, rfl⟩
abbrev main_call2_cst : Ref sig .tc := ⟨.hbm, 203, rfl⟩
abbrev main_call2_v14 : Ref sig .tc := ⟨.hbm, 204, rfl⟩
abbrev main_v141 : Ref sig .tc := ⟨.hbm, 205, rfl⟩
abbrev main_v142 : Ref sig .tc := ⟨.hbm, 206, rfl⟩
abbrev main_c_26 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_call3_v0 : Ref sig .tc := ⟨.hbm, 211, rfl⟩
abbrev main_v146 : Ref sig .tc := ⟨.hbm, 212, rfl⟩

abbrev nD : Nat := 1
abbrev τ : Topo := Topo.v7x

variable {F : FTy → Type} [FloatOps F]

class Facts₀ : Prop where
  bcast_S_S64x64x1024x3 : S_.BroadcastsInDim S64x64x1024x3 (![] : Fin 0 → Fin S64x64x1024x3.rank)
  reducesTo_S64x64x1024x3_S64x64x1024_d3 : S64x64x1024x3.ReducesTo [3] S64x64x1024
  h_S_ : 0 < S_.numel
  bcast_S64x64x1024_S64x64x1024x1_0_1_2 : S64x64x1024.BroadcastsInDim S64x64x1024x1 (![0, 1, 2] : Fin 3 → Fin S64x64x1024x1.rank)
  bcast_S_S64x64x1024x1 : S_.BroadcastsInDim S64x64x1024x1 (![] : Fin 0 → Fin S64x64x1024x1.rank)
  bcast_S64x64x1024x1_S64x64x1024x3_0_1_2_3 : S64x64x1024x1.BroadcastsInDim S64x64x1024x3 (![0, 1, 2, 3] : Fin 4 → Fin S64x64x1024x3.rank)
  bcast_S64x64x3_S64x64x1x3_0_1_3 : S64x64x3.BroadcastsInDim S64x64x1x3 (![0, 1, 3] : Fin 3 → Fin S64x64x1x3.rank)
  bcast_S64x64x1x3_S64x64x1024x3_0_1_2_3 : S64x64x1x3.BroadcastsInDim S64x64x1024x3 (![0, 1, 2, 3] : Fin 4 → Fin S64x64x1024x3.rank)
  reducesTo_S64x64x4_S64x64_d2 : S64x64x4.ReducesTo [2] S64x64
  bcast_S64x64_S64x64x1_0_1 : S64x64.BroadcastsInDim S64x64x1 (![0, 1] : Fin 2 → Fin S64x64x1.rank)
  bcast_S64x64x1_S64x64x4_0_1_2 : S64x64x1.BroadcastsInDim S64x64x4 (![0, 1, 2] : Fin 3 → Fin S64x64x4.rank)
  slices_S64x64x4_S64x64x1_0_0_0 : S64x64x4.Slices ![0, 0, 0] S64x64x1
  shapeCasts_S64x64x1_S64x64 : S64x64x1.ShapeCasts S64x64
  slices_S64x64x4_S64x64x1_0_0_1 : S64x64x4.Slices ![0, 0, 1] S64x64x1
  slices_S64x64x4_S64x64x1_0_0_2 : S64x64x4.Slices ![0, 0, 2] S64x64x1
  slices_S64x64x4_S64x64x1_0_0_3 : S64x64x4.Slices ![0, 0, 3] S64x64x1
  bcast_S_S64x64 : S_.BroadcastsInDim S64x64 (![] : Fin 0 → Fin S64x64.rank)
  concatenates_S64x64x1_S64x64x1_S64x64x1_S64x64x1_S64x64x1_S64x64x1_S64x64x1_S64x64x1_S64x64x1_S64x64x9_d2 : Shape.Concatenates [S64x64x1, S64x64x1, S64x64x1, S64x64x1, S64x64x1, S64x64x1, S64x64x1, S64x64x1, S64x64x1] S64x64x9 2
  shapeCasts_S64x64x9_S64x64x3x3 : S64x64x9.ShapeCasts S64x64x3x3
  slices_S64x64x3_S64x64x1_0_0_0 : S64x64x3.Slices ![0, 0, 0] S64x64x1
  slices_S64x64x3_S64x64x1_0_0_1 : S64x64x3.Slices ![0, 0, 1] S64x64x1
  slices_S64x64x3_S64x64x1_0_0_2 : S64x64x3.Slices ![0, 0, 2] S64x64x1
  reducesTo_S64x64_S64_d1 : S64x64.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S_S1x1x1024 : S_.BroadcastsInDim S1x1x1024 (![] : Fin 0 → Fin S1x1x1024.rank)
  bcast_S64x64x1_S64x64x1024_0_1_2 : S64x64x1.BroadcastsInDim S64x64x1024 (![0, 1, 2] : Fin 3 → Fin S64x64x1024.rank)
  bcast_S1x1x1024_S64x64x1024_0_1_2 : S1x1x1024.BroadcastsInDim S64x64x1024 (![0, 1, 2] : Fin 3 → Fin S64x64x1024.rank)
  bcast_S_S64x64x1024 : S_.BroadcastsInDim S64x64x1024 (![] : Fin 0 → Fin S64x64x1024.rank)
  slices_S64x64x1024x3_S64x64x1024x1_0_0_0_0 : S64x64x1024x3.Slices ![0, 0, 0, 0] S64x64x1024x1
  shapeCasts_S64x64x1024x1_S64x64x1024 : S64x64x1024x1.ShapeCasts S64x64x1024
  slices_S64x64x1024x3_S64x64x1024x1_0_0_0_1 : S64x64x1024x3.Slices ![0, 0, 0, 1] S64x64x1024x1
  slices_S64x64x1024x3_S64x64x1024x1_0_0_0_2 : S64x64x1024x3.Slices ![0, 0, 0, 2] S64x64x1024x1
  shapeCasts_S64x32x32x32x3_S64x32768x3 : S64x32x32x32x3.ShapeCasts S64x32768x3
  shapeCasts_S64x64x1024_S64x65536x1 : S64x64x1024.ShapeCasts S64x65536x1
  bcast_S_S64x65536x1 : S_.BroadcastsInDim S64x65536x1 (![] : Fin 0 → Fin S64x65536x1.rank)
  bcast_S1_S1x1x1_2 : S1.BroadcastsInDim S1x1x1 (![2] : Fin 1 → Fin S1x1x1.rank)
  bcast_S1x1x1_S64x65536x1_0_1_2 : S1x1x1.BroadcastsInDim S64x65536x1 (![0, 1, 2] : Fin 3 → Fin S64x65536x1.rank)
  reducesTo_S64x65536x1_S64x65536_d2 : S64x65536x1.ReducesTo [2] S64x65536
  bcast_S64x65536_S64x65536x3_0_1 : S64x65536.BroadcastsInDim S64x65536x3 (![0, 1] : Fin 2 → Fin S64x65536x3.rank)
  bcast_S_S64x65536x3 : S_.BroadcastsInDim S64x65536x3 (![] : Fin 0 → Fin S64x65536x3.rank)
  shapeCasts_S64x65536x3_S64x64x1024x3 : S64x65536x3.ShapeCasts S64x64x1024x3
  bcast_S64x64_S64x64x1x1_0_1 : S64x64.BroadcastsInDim S64x64x1x1 (![0, 1] : Fin 2 → Fin S64x64x1x1.rank)
  bcast_S64x64x1x1_S64x64x1024x3_0_1_2_3 : S64x64x1x1.BroadcastsInDim S64x64x1024x3 (![0, 1, 2, 3] : Fin 4 → Fin S64x64x1024x3.rank)
  dot_S64x64x1024x3_S64x64x3x3_S64x64x1024x3_3_3_2_2_01_01_wf : DotDims.WF S64x64x1024x3 S64x64x3x3 S64x64x1024x3 [3] [3] [2] [2] [0, 1] [0, 1]
  gather_S64x32768x3_S64x65536x1_S64x65536x3_2_1_0_0_1_2_113_wf : GatherDims.WF S64x32768x3 S64x65536x1 S64x65536x3 [2] [1] [0] [1] [0] 2 ![1, 1, 3]

variable [Facts₀]

def dot_S64x64x1024x3_S64x64x3x3_S64x64x1024x3_3_3_2_2_01_01 : DotDims S64x64x1024x3 S64x64x3x3 S64x64x1024x3 where
  lhsContracting := [3]
  rhsContracting := [3]
  lhsNonContracting := [2]
  rhsNonContracting := [2]
  lhsBatch := [0, 1]
  rhsBatch := [0, 1]
  wf := dot_S64x64x1024x3_S64x64x3x3_S64x64x1024x3_3_3_2_2_01_01_wf
def gather_S64x32768x3_S64x65536x1_S64x65536x3_2_1_0_0_1_2_113 : GatherDims S64x32768x3 S64x65536x1 S64x65536x3 where
  offsetDims := [2]
  collapsedSliceDims := [1]
  operandBatchingDims := [0]
  startIndicesBatchingDims := [0]
  startIndexMap := [1]
  indexVectorDim := 2
  sliceSizes := ![1, 1, 3]
  wf := gather_S64x32768x3_S64x65536x1_S64x65536x3_2_1_0_0_1_2_113_wf

class Facts : Prop extends Facts₀ where

variable [Facts]
-- ==== Proof.KFrame.lean ====
import proofs.«404468_j32401233281614_3_alg».proof.Proof.Gen.Kernel.Launch
import proofs.«404468_j32401233281614_3_alg».proof.Proof.Gen.Kernel.Skeleton
import proofs.«404468_j32401233281614_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame of the sampling program: host lines, one pipelined region, host lines

The program slices the sample array into its three coordinate planes, runs ONE region over a grid of 16 points
(point `t` owns batches `4t … 4t+3`), and then stacks the three coordinate planes of the result back into points,
looks each point up in the voxel field and selects. At each grid point the region's body loads its seven input
blocks whole, computes, and stores its four output blocks whole; it keeps nothing between points.

So the run is: what the region finds in each array (`V`), what the body leaves in each output block as a function of
the input blocks at the same point (`outX`, `outY`, `outZ`, `outW`), the body's triple, and the library's frame run
around the region. The post names every array of the region after the run and every other buffer as the later host
lines leave it; the frame claim (the six arguments unchanged) is read off it.
-/

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core `c` when the region is entered: the launch contents after the seven host lines that
    cut the sample array into planes and reshape the mask. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines after the region, stretch by stretch. -/
abbrev sfx : List (List (HloOp τ sig (Elt F))) := [hostOps1, hostOps1_1, hostOps1_2, hostOps1_3, hostOps1_4, hostOps1_5]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

set_option maxHeartbeats 4000000 in
/-- The program reduces to its region continued by the later host lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0] [hostOps1, hostOps1_1, hostOps1_2, hostOps1_3, hostOps1_4, hostOps1_5] (by simp only [List.Forall]; exact hostOps0_sub)
    (by simp only [List.Forall]; exact hostOps0_fresh) main_chain

/-- The later lines touch only the region's arrays and the buffers that bypass it. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [sfx, List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (sfx : List (List (HloOp τ sig (Elt F)))), ∀ op ∈ ops, op.fresh = ∅ := by
  intro ops hops op hop
  simp only [sfx, List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- No line of this stretch writes an array of the region: each writes its own fresh result. -/
theorem keeps_hostOps1 : ∀ op ∈ (hostOps1 : List (HloOp τ sig (Elt F))),
    ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_1 : ∀ op ∈ (hostOps1_1 : List (HloOp τ sig (Elt F))),
    ∀ w, Proc.devRef .tc (Pipeline.arrRef spec0 w) ∉ op.writes := by
  intro op hop
  simp only [hostOps1_1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_2 : ∀ op ∈ (hostOps1_2 : List (HloOp τ sig (Elt F))),
    ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_3 : ∀ op ∈ (hostOps1_3 : List (HloOp τ sig (Elt F))),
    ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_4 : ∀ op ∈ (hostOps1_4 : List (HloOp τ sig (Elt F))),
    ∀ w, Proc.devRef .tc (Pipeline.arrRef spec0 w) ∉ op.writes := by
  intro op hop
  simp only [hostOps1_4, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_5 : ∀ op ∈ (hostOps1_5 : List (HloOp τ sig (Elt F))),
    ∀ w, Proc.devRef .tc (Pipeline.arrRef spec0 w) ∉ op.writes := by
  intro op hop
  simp only [hostOps1_5, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- And so no later line writes an array of the region. -/
theorem sfx_keeps : ∀ ops ∈ (sfx : List (List (HloOp τ sig (Elt F)))), ∀ op ∈ ops,
    ∀ w, Proc.devRef .tc (Pipeline.arrRef spec0 w) ∉ op.writes := by
  intro ops hops op hop
  simp only [sfx, List.mem_cons, List.mem_nil_iff, or_false] at hops
  rcases hops with rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes `main_arg3` either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) sfx c main_arg3 = m ((c : Thread nD τ).loc main_arg3) := by
  unfold Pipeline.afterTail₀
  rw [StableHlo.after_of_forall_not_mem (b := Proc.devRef .tc main_arg3) _ _ (List.forall_iff_forall_mem.mp (by
      simp only [sfx, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4` either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) sfx c main_arg4 = m ((c : Thread nD τ).loc main_arg4) := by
  unfold Pipeline.afterTail₀
  rw [StableHlo.after_of_forall_not_mem (b := Proc.devRef .tc main_arg4) _ _ (List.forall_iff_forall_mem.mp (by
      simp only [sfx, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes `main_arg5` either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) sfx c main_arg5 = m ((c : Thread nD τ).loc main_arg5) := by
  unfold Pipeline.afterTail₀
  rw [StableHlo.after_of_forall_not_mem (b := Proc.devRef .tc main_arg5) _ _ (List.forall_iff_forall_mem.mp (by
      simp only [sfx, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The blocks the body is handed -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whichever proof data names the array as `V` does
    and leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whichever proof data names the array as `V` does
    and leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whichever proof data names the array as `V` does
    and leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whichever proof data names the array as `V` does
    and leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whichever proof data names the array as `V` does
    and leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whichever proof data names the array as `V` does
    and leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whichever proof data names the array as `V` does
    and leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- From a run that ends with every array of the region at what the proof data says and every other buffer as the later
    lines leave it: the six arguments end as launched. The three the region stages are inputs, so they end at their entry
    contents; the other three are written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-! ## What the body reads and writes -/

/-- The whole of a 4×64×1024 block. -/
abbrev rA : Rect S4x64x1024 := Rect.unit (s := S4x64x1024) ![0, 0, 0] S4x64x1024.size inb_S4x64x1024_S4x64x1024_0_0_0
/-- The whole of a 4×64×3 block. -/
abbrev rB : Rect S4x64x3 := Rect.unit (s := S4x64x3) ![0, 0, 0] S4x64x3.size inb_S4x64x3_S4x64x3_0_0_0
/-- The whole of a 4×64×4 block. -/
abbrev rC : Rect S4x64x4 := Rect.unit (s := S4x64x4) ![0, 0, 0] S4x64x4.size inb_S4x64x4_S4x64x4_0_0_0
/-- The whole of a 4×64×1 block. -/
abbrev rD : Rect S4x64x1 := Rect.unit (s := S4x64x1) ![0, 0, 0] S4x64x1.size inb_S4x64x1_S4x64x1_0_0_0

/-- The sample's offsets from the cube's centre, projected onto the cube's surface and scaled by the box's half-sizes:
    the first, second and third coordinate, from the box sizes `s` and the three sample planes. -/
def locX (s : Vec F S4x64x3 .f32) (ux uy uz : Vec F S4x64x1024 .f32) : FVec F S4x64x1024 .f32 :=
  k0_pay14 (k0_pay7 ux uy uz) (k0_pay10 s)
def locY (s : Vec F S4x64x3 .f32) (ux uy uz : Vec F S4x64x1024 .f32) : FVec F S4x64x1024 .f32 :=
  k0_pay15 (k0_pay8 ux uy uz) (k0_pay11 s)
def locZ (s : Vec F S4x64x3 .f32) (ux uy uz : Vec F S4x64x1024 .f32) : FVec F S4x64x1024 .f32 :=
  k0_pay16 s (k0_pay9 ux uy uz)

/-- The rotated and translated point's first coordinate: the rotation's first row (from the quaternion `q`) against the
    local point, plus the translation `tr`'s first entry. -/
def valX (s tr : Vec F S4x64x3 .f32) (q : Vec F S4x64x4 .f32) (ux uy uz : Vec F S4x64x1024 .f32) : FVec F S4x64x1024 .f32 :=
  k0_pay28 tr (locX s ux uy uz) (locY s ux uy uz) (locZ s ux uy uz) (k0_pay22 q) (k0_pay23 q) (k0_pay24 q)
/-- Its second coordinate. -/
def valY (s tr : Vec F S4x64x3 .f32) (q : Vec F S4x64x4 .f32) (ux uy uz : Vec F S4x64x1024 .f32) : FVec F S4x64x1024 .f32 :=
  k0_pay29 tr (locX s ux uy uz) (locY s ux uy uz) (locZ s ux uy uz) (k0_pay18 q) (k0_pay19 q) (k0_pay25 q) (k0_pay26 q) (k0_pay27 q)
/-- Its third coordinate. -/
def valZ (s tr : Vec F S4x64x3 .f32) (q : Vec F S4x64x4 .f32) (ux uy uz : Vec F S4x64x1024 .f32) : FVec F S4x64x1024 .f32 :=
  k0_pay30 tr (locX s ux uy uz) (locY s ux uy uz) (locZ s ux uy uz) (k0_pay18 q) (k0_pay19 q) (k0_pay20 q) (k0_pay21 q)
/-- The sample's weight: the box's share of its batch's total surface area, kept where the mask word is one, over the
    number of samples. -/
def valW (s : Vec F S4x64x3 .f32) (k : Vec F S4x64x1 .i32) : FVec F S4x64x1024 .f32 :=
  k0_pay1 (k0_pay2 k) (k0_pay10 s) (k0_pay12 (k0_pay11 s)) (k0_pay13 s)

/-- What the body leaves in the four output blocks, from the seven input blocks: one whole-block store each. -/
def outX (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) : Vec F S4x64x1024 .f32 :=
  View.canon [⟨rA, valX (View.ld x0 rB) (View.ld x1 rB) (View.ld x2 rC) (View.ld x4 rA) (View.ld x5 rA) (View.ld x6 rA)⟩]
def outY (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) : Vec F S4x64x1024 .f32 :=
  View.canon [⟨rA, valY (View.ld x0 rB) (View.ld x1 rB) (View.ld x2 rC) (View.ld x4 rA) (View.ld x5 rA) (View.ld x6 rA)⟩]
def outZ (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) : Vec F S4x64x1024 .f32 :=
  View.canon [⟨rA, valZ (View.ld x0 rB) (View.ld x1 rB) (View.ld x2 rC) (View.ld x4 rA) (View.ld x5 rA) (View.ld x6 rA)⟩]
def outW (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) : Vec F S4x64x1024 .f32 :=
  View.canon [⟨rA, valW (View.ld x0 rB) (View.ld x3 rD)⟩]

/-- One whole-block store covers the block. -/
theorem coverA (p0 : Vec F S4x64x1024 .f32) (y : S4x64x1024.Idx) :
    ∃ pc ∈ ([⟨rA, p0⟩] : List (View.Piece (Elt F) S4x64x1024 .f32)), y ∈ pc.1.set :=
  View.cover_of_tiled [⟨rA, p0⟩] S4x64x1024.size (by rfl) y

/-! ## The body's triple -/

set_option maxHeartbeats 4000000 in
/-- On whole staging buffers, the inputs' at contents `x0 … x6` and the outputs' at anything, the body runs to its end
    holding the inputs' as they were and the outputs' at `outX`, `outY`, `outZ`, `outW` of the inputs'. -/
theorem sound_kernel (c : Dev nD) (E : Set ℕ) (i : grid0.Coords)
    (a0 : Memref sig .tc .vmem S4x64x3 .f32) (ha0 : a0.IsWhole)
    (a1 : Memref sig .tc .vmem S4x64x3 .f32) (ha1 : a1.IsWhole)
    (a2 : Memref sig .tc .vmem S4x64x4 .f32) (ha2 : a2.IsWhole)
    (a3 : Memref sig .tc .vmem S4x64x1 .i32) (ha3 : a3.IsWhole)
    (a4 : Memref sig .tc .vmem S4x64x1024 .f32) (ha4 : a4.IsWhole)
    (a5 : Memref sig .tc .vmem S4x64x1024 .f32) (ha5 : a5.IsWhole)
    (a6 : Memref sig .tc .vmem S4x64x1024 .f32) (ha6 : a6.IsWhole)
    (a7 : Memref sig .tc .vmem S4x64x1024 .f32) (ha7 : a7.IsWhole)
    (a8 : Memref sig .tc .vmem S4x64x1024 .f32) (ha8 : a8.IsWhole)
    (a9 : Memref sig .tc .vmem S4x64x1024 .f32) (ha9 : a9.IsWhole)
    (a10 : Memref sig .tc .vmem S4x64x1024 .f32) (ha10 : a10.IsWhole)
    (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (outX x0 x1 x2 x3 x4 x5 x6) ∗ owns (c : Thread nD τ) a8 fullShare (outY x0 x1 x2 x3 x4 x5 x6)
            ∗ owns (c : Thread nD τ) a9 fullShare (outZ x0 x1 x2 x3 x4 x5 x6) ∗ owns (c : Thread nD τ) a10 fullShare (outW x0 x1 x2 x3 x4 x5 x6)) -∗ K ⟨⟩))
      ⊢ wp frame (wpE (defs₀ (F := F)) Variants.none c none) E (cc0__sample_point_kernel i a0 ha0 a1 ha1 a2 ha2 a3 ha3 a4 ha4 a5 ha5 a6 ha6 a7 ha7 a8 ha8 a9 ha9 a10 ha10) K := by
  simp only [cc0__sample_point_kernel_eq_skeleton]; unfold cc0__sample_point_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverA _)
  isplitl [H8]
  · iexists _; isplitr
    swap; · iexact H8
    ipureintro
    exact View.read_writes_eq_canon _ _ _ (coverA _)
  isplitl [H9]
  · iexists _; isplitr
    swap; · iexact H9
    ipureintro
    exact View.read_writes_eq_canon _ _ _ (coverA _)
  iexists _; isplitr
  swap; · iexact H10
  ipureintro
  exact View.read_writes_eq_canon _ _ _ (coverA _)

/-! ## The proof data of the region -/

/-- On core `c`: the arrays as the region finds them; after the body at point `t` each input's buffer at its block and
    each output's at what the body computes from the input blocks at `t`; the invariant is the part of the core the
    body never touches; nothing is owed and every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outX (iblk m c 0 t) (iblk m c 1 t) (iblk m c 2 t) (iblk m c 3 t) (iblk m c 4 t) (iblk m c 5 t) (iblk m c 6 t)
    | ⟨8, _⟩ => outY (iblk m c 0 t) (iblk m c 1 t) (iblk m c 2 t) (iblk m c 3 t) (iblk m c 4 t) (iblk m c 5 t) (iblk m c 6 t)
    | ⟨9, _⟩ => outZ (iblk m c 0 t) (iblk m c 1 t) (iblk m c 2 t) (iblk m c 3 t) (iblk m c 4 t) (iblk m c 5 t) (iblk m c 6 t)
    | ⟨10, _⟩ => outW (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outX (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t = outY (iblk m c 0 t) (iblk m c 1 t) (iblk m c 2 t) (iblk m c 3 t) (iblk m c 4 t) (iblk m c 5 t) (iblk m c 6 t) := by dsimp only [dats]
theorem after9 (c : Dev nD) (t : Fin cfg0.N) : (dats m 0 c).after 9 t = outZ (iblk m c 0 t) (iblk m c 1 t) (iblk m c 2 t) (iblk m c 3 t) (iblk m c 4 t) (iblk m c 5 t) (iblk m c 6 t) := by dsimp only [dats]
theorem after10 (c : Dev nD) (t : Fin cfg0.N) : (dats m 0 c).after 10 t = outW (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- Every weakly fair execution of the program terminates, and at its end every array of the region holds what the
    library computes from the proof data and every other buffer what the later host lines leave in it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The frame: the program runs to its end without a fault and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frm

end
-- ==== Proof.KIFrame.lean ====
import proofs.«404468_j32401233281614_3_alg».proof.Proof.Gen.KernelIdeal.Launch
import proofs.«404468_j32401233281614_3_alg».proof.Proof.Gen.KernelIdeal.Skeleton
import proofs.«404468_j32401233281614_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame of the sampling program: host lines, one pipelined region, host lines

The program slices the sample array into its three coordinate planes, runs ONE region over a grid of 16 points
(point `t` owns batches `4t … 4t+3`), and then stacks the three coordinate planes of the result back into points,
looks each point up in the voxel field and selects. At each grid point the region's body loads its seven input
blocks whole, computes, and stores its four output blocks whole; it keeps nothing between points.

So the run is: what the region finds in each array (`V`), what the body leaves in each output block as a function of
the input blocks at the same point (`outX`, `outY`, `outZ`, `outW`), the body's triple, and the library's frame run
around the region. The post names every array of the region after the run and every other buffer as the later host
lines leave it; the frame claim (the six arguments unchanged) is read off it.
-/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core `c` when the region is entered: the launch contents after the seven host lines that
    cut the sample array into planes and reshape the mask. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines after the region, stretch by stretch. -/
abbrev sfx : List (List (HloOp τ sig (Elt F))) := [hostOps1, hostOps1_1, hostOps1_2, hostOps1_3, hostOps1_4, hostOps1_5]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

set_option maxHeartbeats 4000000 in
/-- The program reduces to its region continued by the later host lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0] [hostOps1, hostOps1_1, hostOps1_2, hostOps1_3, hostOps1_4, hostOps1_5] (by simp only [List.Forall]; exact hostOps0_sub)
    (by simp only [List.Forall]; exact hostOps0_fresh) main_chain

/-- The later lines touch only the region's arrays and the buffers that bypass it. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [sfx, List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (sfx : List (List (HloOp τ sig (Elt F)))), ∀ op ∈ ops, op.fresh = ∅ := by
  intro ops hops op hop
  simp only [sfx, List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- No line of this stretch writes an array of the region: each writes its own fresh result. -/
theorem keeps_hostOps1 : ∀ op ∈ (hostOps1 : List (HloOp τ sig (Elt F))),
    ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_1 : ∀ op ∈ (hostOps1_1 : List (HloOp τ sig (Elt F))),
    ∀ w, Proc.devRef .tc (Pipeline.arrRef spec0 w) ∉ op.writes := by
  intro op hop
  simp only [hostOps1_1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_2 : ∀ op ∈ (hostOps1_2 : List (HloOp τ sig (Elt F))),
    ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_3 : ∀ op ∈ (hostOps1_3 : List (HloOp τ sig (Elt F))),
    ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_4 : ∀ op ∈ (hostOps1_4 : List (HloOp τ sig (Elt F))),
    ∀ w, Proc.devRef .tc (Pipeline.arrRef spec0 w) ∉ op.writes := by
  intro op hop
  simp only [hostOps1_4, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No line of this stretch writes an array of the region: each writes its own fresh result. -/
theorem keeps_hostOps1_5 : ∀ op ∈ (hostOps1_5 : List (HloOp τ sig (Elt F))),
    ∀ w, Proc.devRef .tc (Pipeline.arrRef spec0 w) ∉ op.writes := by
  intro op hop
  simp only [hostOps1_5, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- And so no later line writes an array of the region. -/
theorem sfx_keeps : ∀ ops ∈ (sfx : List (List (HloOp τ sig (Elt F)))), ∀ op ∈ ops,
    ∀ w, Proc.devRef .tc (Pipeline.arrRef spec0 w) ∉ op.writes := by
  intro ops hops op hop
  simp only [sfx, List.mem_cons, List.mem_nil_iff, or_false] at hops
  rcases hops with rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host line after the region writes `main_arg3` either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) sfx c main_arg3 = m ((c : Thread nD τ).loc main_arg3) := by
  unfold Pipeline.afterTail₀
  rw [StableHlo.after_of_forall_not_mem (b := Proc.devRef .tc main_arg3) _ _ (List.forall_iff_forall_mem.mp (by
      simp only [sfx, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes `main_arg4` either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) sfx c main_arg4 = m ((c : Thread nD τ).loc main_arg4) := by
  unfold Pipeline.afterTail₀
  rw [StableHlo.after_of_forall_not_mem (b := Proc.devRef .tc main_arg4) _ _ (List.forall_iff_forall_mem.mp (by
      simp only [sfx, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes `main_arg5` either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) sfx c main_arg5 = m ((c : Thread nD τ).loc main_arg5) := by
  unfold Pipeline.afterTail₀
  rw [StableHlo.after_of_forall_not_mem (b := Proc.devRef .tc main_arg5) _ _ (List.forall_iff_forall_mem.mp (by
      simp only [sfx, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The blocks the body is handed -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whichever proof data names the array as `V` does
    and leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whichever proof data names the array as `V` does
    and leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whichever proof data names the array as `V` does
    and leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whichever proof data names the array as `V` does
    and leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whichever proof data names the array as `V` does
    and leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whichever proof data names the array as `V` does
    and leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whichever proof data names the array as `V` does
    and leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- From a run that ends with every array of the region at what the proof data says and every other buffer as the later
    lines leave it: the six arguments end as launched. The three the region stages are inputs, so they end at their entry
    contents; the other three are written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-! ## What the body reads and writes -/

/-- The whole of a 4×64×1024 block. -/
abbrev rA : Rect S4x64x1024 := Rect.unit (s := S4x64x1024) ![0, 0, 0] S4x64x1024.size inb_S4x64x1024_S4x64x1024_0_0_0
/-- The whole of a 4×64×3 block. -/
abbrev rB : Rect S4x64x3 := Rect.unit (s := S4x64x3) ![0, 0, 0] S4x64x3.size inb_S4x64x3_S4x64x3_0_0_0
/-- The whole of a 4×64×4 block. -/
abbrev rC : Rect S4x64x4 := Rect.unit (s := S4x64x4) ![0, 0, 0] S4x64x4.size inb_S4x64x4_S4x64x4_0_0_0
/-- The whole of a 4×64×1 block. -/
abbrev rD : Rect S4x64x1 := Rect.unit (s := S4x64x1) ![0, 0, 0] S4x64x1.size inb_S4x64x1_S4x64x1_0_0_0

/-- The sample's offsets from the cube's centre, projected onto the cube's surface and scaled by the box's half-sizes:
    the first, second and third coordinate, from the box sizes `s` and the three sample planes. -/
def locX (s : Vec F S4x64x3 .f32) (ux uy uz : Vec F S4x64x1024 .f32) : FVec F S4x64x1024 .f32 :=
  k0_pay14 (k0_pay7 ux uy uz) (k0_pay10 s)
def locY (s : Vec F S4x64x3 .f32) (ux uy uz : Vec F S4x64x1024 .f32) : FVec F S4x64x1024 .f32 :=
  k0_pay15 (k0_pay8 ux uy uz) (k0_pay11 s)
def locZ (s : Vec F S4x64x3 .f32) (ux uy uz : Vec F S4x64x1024 .f32) : FVec F S4x64x1024 .f32 :=
  k0_pay16 s (k0_pay9 ux uy uz)

/-- The rotated and translated point's first coordinate: the rotation's first row (from the quaternion `q`) against the
    local point, plus the translation `tr`'s first entry. -/
def valX (s tr : Vec F S4x64x3 .f32) (q : Vec F S4x64x4 .f32) (ux uy uz : Vec F S4x64x1024 .f32) : FVec F S4x64x1024 .f32 :=
  k0_pay28 tr (locX s ux uy uz) (locY s ux uy uz) (locZ s ux uy uz) (k0_pay22 q) (k0_pay23 q) (k0_pay24 q)
/-- Its second coordinate. -/
def valY (s tr : Vec F S4x64x3 .f32) (q : Vec F S4x64x4 .f32) (ux uy uz : Vec F S4x64x1024 .f32) : FVec F S4x64x1024 .f32 :=
  k0_pay29 tr (locX s ux uy uz) (locY s ux uy uz) (locZ s ux uy uz) (k0_pay18 q) (k0_pay19 q) (k0_pay25 q) (k0_pay26 q) (k0_pay27 q)
/-- Its third coordinate. -/
def valZ (s tr : Vec F S4x64x3 .f32) (q : Vec F S4x64x4 .f32) (ux uy uz : Vec F S4x64x1024 .f32) : FVec F S4x64x1024 .f32 :=
  k0_pay30 tr (locX s ux uy uz) (locY s ux uy uz) (locZ s ux uy uz) (k0_pay18 q) (k0_pay19 q) (k0_pay20 q) (k0_pay21 q)
/-- The sample's weight: the box's share of its batch's total surface area, kept where the mask word is one, over the
    number of samples. -/
def valW (s : Vec F S4x64x3 .f32) (k : Vec F S4x64x1 .i32) : FVec F S4x64x1024 .f32 :=
  k0_pay1 (k0_pay2 k) (k0_pay10 s) (k0_pay12 (k0_pay11 s)) (k0_pay13 s)

/-- What the body leaves in the four output blocks, from the seven input blocks: one whole-block store each. -/
def outX (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) : Vec F S4x64x1024 .f32 :=
  View.canon [⟨rA, valX (View.ld x0 rB) (View.ld x1 rB) (View.ld x2 rC) (View.ld x4 rA) (View.ld x5 rA) (View.ld x6 rA)⟩]
def outY (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) : Vec F S4x64x1024 .f32 :=
  View.canon [⟨rA, valY (View.ld x0 rB) (View.ld x1 rB) (View.ld x2 rC) (View.ld x4 rA) (View.ld x5 rA) (View.ld x6 rA)⟩]
def outZ (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) : Vec F S4x64x1024 .f32 :=
  View.canon [⟨rA, valZ (View.ld x0 rB) (View.ld x1 rB) (View.ld x2 rC) (View.ld x4 rA) (View.ld x5 rA) (View.ld x6 rA)⟩]
def outW (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) : Vec F S4x64x1024 .f32 :=
  View.canon [⟨rA, valW (View.ld x0 rB) (View.ld x3 rD)⟩]

/-- One whole-block store covers the block. -/
theorem coverA (p0 : Vec F S4x64x1024 .f32) (y : S4x64x1024.Idx) :
    ∃ pc ∈ ([⟨rA, p0⟩] : List (View.Piece (Elt F) S4x64x1024 .f32)), y ∈ pc.1.set :=
  View.cover_of_tiled [⟨rA, p0⟩] S4x64x1024.size (by rfl) y

/-! ## The body's triple -/

set_option maxHeartbeats 4000000 in
/-- On whole staging buffers, the inputs' at contents `x0 … x6` and the outputs' at anything, the body runs to its end
    holding the inputs' as they were and the outputs' at `outX`, `outY`, `outZ`, `outW` of the inputs'. -/
theorem sound_kernel (c : Dev nD) (E : Set ℕ) (i : grid0.Coords)
    (a0 : Memref sig .tc .vmem S4x64x3 .f32) (ha0 : a0.IsWhole)
    (a1 : Memref sig .tc .vmem S4x64x3 .f32) (ha1 : a1.IsWhole)
    (a2 : Memref sig .tc .vmem S4x64x4 .f32) (ha2 : a2.IsWhole)
    (a3 : Memref sig .tc .vmem S4x64x1 .i32) (ha3 : a3.IsWhole)
    (a4 : Memref sig .tc .vmem S4x64x1024 .f32) (ha4 : a4.IsWhole)
    (a5 : Memref sig .tc .vmem S4x64x1024 .f32) (ha5 : a5.IsWhole)
    (a6 : Memref sig .tc .vmem S4x64x1024 .f32) (ha6 : a6.IsWhole)
    (a7 : Memref sig .tc .vmem S4x64x1024 .f32) (ha7 : a7.IsWhole)
    (a8 : Memref sig .tc .vmem S4x64x1024 .f32) (ha8 : a8.IsWhole)
    (a9 : Memref sig .tc .vmem S4x64x1024 .f32) (ha9 : a9.IsWhole)
    (a10 : Memref sig .tc .vmem S4x64x1024 .f32) (ha10 : a10.IsWhole)
    (x0 : Vec F S4x64x3 .f32) (x1 : Vec F S4x64x3 .f32) (x2 : Vec F S4x64x4 .f32) (x3 : Vec F S4x64x1 .i32) (x4 : Vec F S4x64x1024 .f32) (x5 : Vec F S4x64x1024 .f32) (x6 : Vec F S4x64x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (outX x0 x1 x2 x3 x4 x5 x6) ∗ owns (c : Thread nD τ) a8 fullShare (outY x0 x1 x2 x3 x4 x5 x6)
            ∗ owns (c : Thread nD τ) a9 fullShare (outZ x0 x1 x2 x3 x4 x5 x6) ∗ owns (c : Thread nD τ) a10 fullShare (outW x0 x1 x2 x3 x4 x5 x6)) -∗ K ⟨⟩))
      ⊢ wp frame (wpE (defs₀ (F := F)) Variants.none c none) E (cc0__sample_point_kernel i a0 ha0 a1 ha1 a2 ha2 a3 ha3 a4 ha4 a5 ha5 a6 ha6 a7 ha7 a8 ha8 a9 ha9 a10 ha10) K := by
  simp only [cc0__sample_point_kernel_eq_skeleton]; unfold cc0__sample_point_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverA _)
  isplitl [H8]
  · iexists _; isplitr
    swap; · iexact H8
    ipureintro
    exact View.read_writes_eq_canon _ _ _ (coverA _)
  isplitl [H9]
  · iexists _; isplitr
    swap; · iexact H9
    ipureintro
    exact View.read_writes_eq_canon _ _ _ (coverA _)
  iexists _; isplitr
  swap; · iexact H10
  ipureintro
  exact View.read_writes_eq_canon _ _ _ (coverA _)

/-! ## The proof data of the region -/

/-- On core `c`: the arrays as the region finds them; after the body at point `t` each input's buffer at its block and
    each output's at what the body computes from the input blocks at `t`; the invariant is the part of the core the
    body never touches; nothing is owed and every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outX (iblk m c 0 t) (iblk m c 1 t) (iblk m c 2 t) (iblk m c 3 t) (iblk m c 4 t) (iblk m c 5 t) (iblk m c 6 t)
    | ⟨8, _⟩ => outY (iblk m c 0 t) (iblk m c 1 t) (iblk m c 2 t) (iblk m c 3 t) (iblk m c 4 t) (iblk m c 5 t) (iblk m c 6 t)
    | ⟨9, _⟩ => outZ (iblk m c 0 t) (iblk m c 1 t) (iblk m c 2 t) (iblk m c 3 t) (iblk m c 4 t) (iblk m c 5 t) (iblk m c 6 t)
    | ⟨10, _⟩ => outW (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outX (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t = outY (iblk m c 0 t) (iblk m c 1 t) (iblk m c 2 t) (iblk m c 3 t) (iblk m c 4 t) (iblk m c 5 t) (iblk m c 6 t) := by dsimp only [dats]
theorem after9 (c : Dev nD) (t : Fin cfg0.N) : (dats m 0 c).after 9 t = outZ (iblk m c 0 t) (iblk m c 1 t) (iblk m c 2 t) (iblk m c 3 t) (iblk m c 4 t) (iblk m c 5 t) (iblk m c 6 t) := by dsimp only [dats]
theorem after10 (c : Dev nD) (t : Fin cfg0.N) : (dats m 0 c).after 10 t = outW (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- Every weakly fair execution of the program terminates, and at its end every array of the region holds what the
    library computes from the proof data and every other buffer what the later host lines leave in it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The frame: the program runs to its end without a fault and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frm

end
-- ==== Proof.KernelBlocks.lean ====
import proofs.«404468_j32401233281614_3_alg».proof.Proof.KIFrame
import Idealize.ShloMosaic.Lib.Pipeline.Value
import Idealize.ShloMosaic.Lib.ValueIdx
import Idealize.ShloMosaic.Lib.StableHlo.Run

/-!
# The region's blocks as rows of its arrays

Grid point `t` of the sixteen owns batches `4t, …, 4t+3`: every window's block at `t` is those four batches of its array,
whole on the other two axes. Here: that fact for each of the seven input windows, entry by entry; what the seven host
lines before the region left in the arrays they wrote (the three coordinate planes of the samples, and the mask with a
unit axis appended); and that the sixteen blocks of an output window cover its array.
-/

set_option maxRecDepth 16384

noncomputable section

namespace Cert.KernelIdeal.Blk

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

theorem hz3 : (![0, 0, 0] : Fin 3 → Nat) = fun _ => 0 := funext fun a => by fin_cases a <;> rfl

/-- Batch `b` of grid point `t`'s four. -/
def bat (t : Fin cfg0.N) (b : Fin 4) : Fin 64 :=
  ⟨4 * t.val + b.val, by have h := t.isLt; have hN : cfg0.N = 16 := N_0; have := b.isLt; omega⟩

theorem bat_val (t : Fin cfg0.N) (b : Fin 4) : (bat t b).val = 4 * t.val + b.val := rfl

/-- Every window's block index at point `t` is `(t, 0, 0)`. -/
theorem idx_all : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0) :=
  (by decide +kernel : ∀ t : Fin grid0.N, _)

/-- Window 0's block at point `t`, entry `(b, p, k)`, is its array at batch `4t + b`. -/
theorem iblk0_apply (c : Dev nD) (t : Fin cfg0.N) (b : Fin 4) (p : Fin 64) (k : Fin 3) :
    (iblk m c 0 t : Vec F S4x64x3 .f32) (ix3 b p k) = (V m c main_arg0 : S64x64x3.Idx → Elt F .f32) (ix3 (bat t b) p k) := by
  obtain ⟨⟨e0, e1, e2⟩, -, -, -, -, -, -, -, -, -, -⟩ := idx_all t
  unfold iblk
  rw [View.read_apply]
  show V m c main_arg0 _ = V m c main_arg0 _
  congr 1
  funext a
  apply Fin.ext
  match a with
  | ⟨0, _⟩ => show win0_0.index t (0 : Fin 3) * 4 + 1 * b.val = 4 * t.val + b.val; rw [e0]; omega
  | ⟨1, _⟩ => show win0_0.index t (1 : Fin 3) * 64 + 1 * p.val = p.val; rw [e1]; omega
  | ⟨2, _⟩ => show win0_0.index t (2 : Fin 3) * 3 + 1 * k.val = k.val; rw [e2]; omega

/-- Window 1's block at point `t`, entry `(b, p, k)`, is its array at batch `4t + b`. -/
theorem iblk1_apply (c : Dev nD) (t : Fin cfg0.N) (b : Fin 4) (p : Fin 64) (k : Fin 3) :
    (iblk m c 1 t : Vec F S4x64x3 .f32) (ix3 b p k) = (V m c main_arg1 : S64x64x3.Idx → Elt F .f32) (ix3 (bat t b) p k) := by
  obtain ⟨-, ⟨e0, e1, e2⟩, -, -, -, -, -, -, -, -, -⟩ := idx_all t
  unfold iblk
  rw [View.read_apply]
  show V m c main_arg1 _ = V m c main_arg1 _
  congr 1
  funext a
  apply Fin.ext
  match a with
  | ⟨0, _⟩ => show win0_1.index t (0 : Fin 3) * 4 + 1 * b.val = 4 * t.val + b.val; rw [e0]; omega
  | ⟨1, _⟩ => show win0_1.index t (1 : Fin 3) * 64 + 1 * p.val = p.val; rw [e1]; omega
  | ⟨2, _⟩ => show win0_1.index t (2 : Fin 3) * 3 + 1 * k.val = k.val; rw [e2]; omega

/-- Window 2's block at point `t`, entry `(b, p, k)`, is its array at batch `4t + b`. -/
theorem iblk2_apply (c : Dev nD) (t : Fin cfg0.N) (b : Fin 4) (p : Fin 64) (k : Fin 4) :
    (iblk m c 2 t : Vec F S4x64x4 .f32) (ix3 b p k) = (V m c main_arg2 : S64x64x4.Idx → Elt F .f32) (ix3 (bat t b) p k) := by
  obtain ⟨-, -, ⟨e0, e1, e2⟩, -, -, -, -, -, -, -, -⟩ := idx_all t
  unfold iblk
  rw [View.read_apply]
  show V m c main_arg2 _ = V m c main_arg2 _
  congr 1
  funext a
  apply Fin.ext
  match a with
  | ⟨0, _⟩ => show win0_2.index t (0 : Fin 3) * 4 + 1 * b.val = 4 * t.val + b.val; rw [e0]; omega
  | ⟨1, _⟩ => show win0_2.index t (1 : Fin 3) * 64 + 1 * p.val = p.val; rw [e1]; omega
  | ⟨2, _⟩ => show win0_2.index t (2 : Fin 3) * 4 + 1 * k.val = k.val; rw [e2]; omega

/-- Window 3's block at point `t`, entry `(b, p, k)`, is its array at batch `4t + b`. -/
theorem iblk3_apply (c : Dev nD) (t : Fin cfg0.N) (b : Fin 4) (p : Fin 64) (k : Fin 1) :
    (iblk m c 3 t : Vec F S4x64x1 .i32) (ix3 b p k) = (V m c main_v0 : S64x64x1.Idx → Elt F .i32) (ix3 (bat t b) p k) := by
  obtain ⟨-, -, -, ⟨e0, e1, e2⟩, -, -, -, -, -, -, -⟩ := idx_all t
  unfold iblk
  rw [View.read_apply]
  show V m c main_v0 _ = V m c main_v0 _
  congr 1
  funext a
  apply Fin.ext
  match a with
  | ⟨0, _⟩ => show win0_3.index t (0 : Fin 3) * 4 + 1 * b.val = 4 * t.val + b.val; rw [e0]; omega
  | ⟨1, _⟩ => show win0_3.index t (1 : Fin 3) * 64 + 1 * p.val = p.val; rw [e1]; omega
  | ⟨2, _⟩ => show win0_3.index t (2 : Fin 3) * 1 + 1 * k.val = k.val; rw [e2]; omega

/-- Window 4's block at point `t`, entry `(b, p, k)`, is its array at batch `4t + b`. -/
theorem iblk4_apply (c : Dev nD) (t : Fin cfg0.N) (b : Fin 4) (p : Fin 64) (k : Fin 1024) :
    (iblk m c 4 t : Vec F S4x64x1024 .f32) (ix3 b p k) = (V m c main_v2 : S64x64x1024.Idx → Elt F .f32) (ix3 (bat t b) p k) := by
  obtain ⟨-, -, -, -, ⟨e0, e1, e2⟩, -, -, -, -, -, -⟩ := idx_all t
  unfold iblk
  rw [View.read_apply]
  show V m c main_v2 _ = V m c main_v2 _
  congr 1
  funext a
  apply Fin.ext
  match a with
  | ⟨0, _⟩ => show win0_4.index t (0 : Fin 3) * 4 + 1 * b.val = 4 * t.val + b.val; rw [e0]; omega
  | ⟨1, _⟩ => show win0_4.index t (1 : Fin 3) * 64 + 1 * p.val = p.val; rw [e1]; omega
  | ⟨2, _⟩ => show win0_4.index t (2 : Fin 3) * 1024 + 1 * k.val = k.val; rw [e2]; omega

/-- Window 5's block at point `t`, entry `(b, p, k)`, is its array at batch `4t + b`. -/
theorem iblk5_apply (c : Dev nD) (t : Fin cfg0.N) (b : Fin 4) (p : Fin 64) (k : Fin 1024) :
    (iblk m c 5 t : Vec F S4x64x1024 .f32) (ix3 b p k) = (V m c main_v4 : S64x64x1024.Idx → Elt F .f32) (ix3 (bat t b) p k) := by
  obtain ⟨-, -, -, -, -, ⟨e0, e1, e2⟩, -, -, -, -, -⟩ := idx_all t
  unfold iblk
  rw [View.read_apply]
  show V m c main_v4 _ = V m c main_v4 _
  congr 1
  funext a
  apply Fin.ext
  match a with
  | ⟨0, _⟩ => show win0_5.index t (0 : Fin 3) * 4 + 1 * b.val = 4 * t.val + b.val; rw [e0]; omega
  | ⟨1, _⟩ => show win0_5.index t (1 : Fin 3) * 64 + 1 * p.val = p.val; rw [e1]; omega
  | ⟨2, _⟩ => show win0_5.index t (2 : Fin 3) * 1024 + 1 * k.val = k.val; rw [e2]; omega

/-- Window 6's block at point `t`, entry `(b, p, k)`, is its array at batch `4t + b`. -/
theorem iblk6_apply (c : Dev nD) (t : Fin cfg0.N) (b : Fin 4) (p : Fin 64) (k : Fin 1024) :
    (iblk m c 6 t : Vec F S4x64x1024 .f32) (ix3 b p k) = (V m c main_v6 : S64x64x1024.Idx → Elt F .f32) (ix3 (bat t b) p k) := by
  obtain ⟨-, -, -, -, -, -, ⟨e0, e1, e2⟩, -, -, -, -⟩ := idx_all t
  unfold iblk
  rw [View.read_apply]
  show V m c main_v6 _ = V m c main_v6 _
  congr 1
  funext a
  apply Fin.ext
  match a with
  | ⟨0, _⟩ => show win0_6.index t (0 : Fin 3) * 4 + 1 * b.val = 4 * t.val + b.val; rw [e0]; omega
  | ⟨1, _⟩ => show win0_6.index t (1 : Fin 3) * 64 + 1 * p.val = p.val; rw [e1]; omega
  | ⟨2, _⟩ => show win0_6.index t (2 : Fin 3) * 1024 + 1 * k.val = k.val; rw [e2]; omega

/-! ## What the host lines before the region left -/

/-- The mask array the region stages is the mask argument with a unit axis appended. -/
theorem V_v0 (c : Dev nD) : (V m c main_v0 : S64x64x1.Idx → Elt F .i32)
    = shapeCast S64x64x1 (m ((c : Thread nD τ).loc main_arg4)) shapeCasts_S64x64_S64x64x1 := by
  show StableHlo.after hostOps0 (fun b => m (c, b)) (Proc.devRef .tc main_v0) = _
  after_results; rfl

/-- Coordinate plane 0 of the samples: the sample argument sliced at its last axis and the unit axis dropped. -/
theorem V_v2 (c : Dev nD) : (V m c main_v2 : S64x64x1024.Idx → Elt F .f32)
    = shapeCast S64x64x1024 (extractStridedSlice S64x64x1024x1 ![0, 0, 0, 0] (m ((c : Thread nD τ).loc main_arg5)) slices_S64x64x1024x3_S64x64x1024x1_0_0_0_0) shapeCasts_S64x64x1024x1_S64x64x1024 := by
  show StableHlo.after hostOps0 (fun b => m (c, b)) (Proc.devRef .tc main_v2) = _
  after_results; rfl

/-- Coordinate plane 1 of the samples: the sample argument sliced at its last axis and the unit axis dropped. -/
theorem V_v4 (c : Dev nD) : (V m c main_v4 : S64x64x1024.Idx → Elt F .f32)
    = shapeCast S64x64x1024 (extractStridedSlice S64x64x1024x1 ![0, 0, 0, 1] (m ((c : Thread nD τ).loc main_arg5)) slices_S64x64x1024x3_S64x64x1024x1_0_0_0_1) shapeCasts_S64x64x1024x1_S64x64x1024 := by
  show StableHlo.after hostOps0 (fun b => m (c, b)) (Proc.devRef .tc main_v4) = _
  after_results; rfl

/-- Coordinate plane 2 of the samples: the sample argument sliced at its last axis and the unit axis dropped. -/
theorem V_v6 (c : Dev nD) : (V m c main_v6 : S64x64x1024.Idx → Elt F .f32)
    = shapeCast S64x64x1024 (extractStridedSlice S64x64x1024x1 ![0, 0, 0, 2] (m ((c : Thread nD τ).loc main_arg5)) slices_S64x64x1024x3_S64x64x1024x1_0_0_0_2) shapeCasts_S64x64x1024x1_S64x64x1024 := by
  show StableHlo.after hostOps0 (fun b => m (c, b)) (Proc.devRef .tc main_v6) = _
  after_results; rfl

/-- The staged mask at `(b, p, 0)` is the mask argument at `(b, p)`. -/
theorem V_v0_apply (c : Dev nD) (b p : Fin 64) (k : Fin 1) :
    (V m c main_v0 : S64x64x1.Idx → Elt F .i32) (ix3 b p k) = (m ((c : Thread nD τ).loc main_arg4) : S64x64.Idx → Elt F .i32) (ix2 b p) := by
  rw [V_v0]
  refine shapeCast_apply _ _ (ix3 b p k) (ix2 b p) ?_
  rw [Shape.rowMajor_val_two, Shape.rowMajor_val_three]
  have hk : k.val = 0 := by omega
  show b.val * 64 + p.val = (b.val * 64 + p.val) * 1 + k.val
  omega

/-- Plane 0 at `(b, p, n)` is the sample argument at `(b, p, n, 0)`. -/
theorem V_v2_apply (c : Dev nD) (b p : Fin 64) (n : Fin 1024) :
    (V m c main_v2 : S64x64x1024.Idx → Elt F .f32) (ix3 b p n) = (m ((c : Thread nD τ).loc main_arg5) : S64x64x1024x3.Idx → Elt F .f32) (ix4 b p n (0 : Fin 3)) := by
  rw [V_v2]
  refine (shapeCast_apply _ _ (ix3 b p n) (ix4 b p n (0 : Fin 1)) ?_).trans ?_
  · rw [Shape.rowMajor_val_three, Shape.rowMajor_val_four]
    show ((b.val * 64 + p.val) * 1024 + n.val) * 1 + 0 = (b.val * 64 + p.val) * 1024 + n.val
    omega
  · refine extractStridedSlice_apply _ _ _ (ix4 b p n (0 : Fin 1)) (ix4 b p n (0 : Fin 3)) (fun a => ?_)
    match a with
    | ⟨0, _⟩ => show b.val = 0 + b.val; omega
    | ⟨1, _⟩ => show p.val = 0 + p.val; omega
    | ⟨2, _⟩ => show n.val = 0 + n.val; omega
    | ⟨3, _⟩ => show 0 = 0 + 0; omega

/-- Plane 1 at `(b, p, n)` is the sample argument at `(b, p, n, 1)`. -/
theorem V_v4_apply (c : Dev nD) (b p : Fin 64) (n : Fin 1024) :
    (V m c main_v4 : S64x64x1024.Idx → Elt F .f32) (ix3 b p n) = (m ((c : Thread nD τ).loc main_arg5) : S64x64x1024x3.Idx → Elt F .f32) (ix4 b p n (1 : Fin 3)) := by
  rw [V_v4]
  refine (shapeCast_apply _ _ (ix3 b p n) (ix4 b p n (0 : Fin 1)) ?_).trans ?_
  · rw [Shape.rowMajor_val_three, Shape.rowMajor_val_four]
    show ((b.val * 64 + p.val) * 1024 + n.val) * 1 + 0 = (b.val * 64 + p.val) * 1024 + n.val
    omega
  · refine extractStridedSlice_apply _ _ _ (ix4 b p n (0 : Fin 1)) (ix4 b p n (1 : Fin 3)) (fun a => ?_)
    match a with
    | ⟨0, _⟩ => show b.val = 0 + b.val; omega
    | ⟨1, _⟩ => show p.val = 0 + p.val; omega
    | ⟨2, _⟩ => show n.val = 0 + n.val; omega
    | ⟨3, _⟩ => show 1 = 1 + 0; omega

/-- Plane 2 at `(b, p, n)` is the sample argument at `(b, p, n, 2)`. -/
theorem V_v6_apply (c : Dev nD) (b p : Fin 64) (n : Fin 1024) :
    (V m c main_v6 : S64x64x1024.Idx → Elt F .f32) (ix3 b p n) = (m ((c : Thread nD τ).loc main_arg5) : S64x64x1024x3.Idx → Elt F .f32) (ix4 b p n (2 : Fin 3)) := by
  rw [V_v6]
  refine (shapeCast_apply _ _ (ix3 b p n) (ix4 b p n (0 : Fin 1)) ?_).trans ?_
  · rw [Shape.rowMajor_val_three, Shape.rowMajor_val_four]
    show ((b.val * 64 + p.val) * 1024 + n.val) * 1 + 0 = (b.val * 64 + p.val) * 1024 + n.val
    omega
  · refine extractStridedSlice_apply _ _ _ (ix4 b p n (0 : Fin 1)) (ix4 b p n (2 : Fin 3)) (fun a => ?_)
    match a with
    | ⟨0, _⟩ => show b.val = 0 + b.val; omega
    | ⟨1, _⟩ => show p.val = 0 + p.val; omega
    | ⟨2, _⟩ => show n.val = 0 + n.val; omega
    | ⟨3, _⟩ => show 2 = 2 + 0; omega

/-! ## The output blocks: where block `t` sits, and that the blocks cover the array -/

/-- Entry `(b, p, n)` of output window 7's block at `t` sits at `(4t + b, p, n)` of its array. -/
theorem emb7 (t : Fin cfg0.N) (b : Fin 4) (p : Fin 64) (n : Fin 1024) :
    ((cfg0.win 7).blk t).view.emb (ix3 b p n) = (ix3 (bat t b) p n : S64x64x1024.Idx) := by
  obtain ⟨-, -, -, -, -, -, -, ⟨e0, e1, e2⟩, -, -, -⟩ := idx_all t
  funext a
  apply Fin.ext
  match a with
  | ⟨0, _⟩ => show win0_7.index t (0 : Fin 3) * 4 + 1 * b.val = 4 * t.val + b.val; rw [e0]; omega
  | ⟨1, _⟩ => show win0_7.index t (1 : Fin 3) * 64 + 1 * p.val = p.val; rw [e1]; omega
  | ⟨2, _⟩ => show win0_7.index t (2 : Fin 3) * 1024 + 1 * n.val = n.val; rw [e2]; omega

/-- An index is in point `t`'s block of output window 7 iff each coordinate is in the block's range on its axis. -/
theorem mem_blk7 (t : Fin cfg0.N) (i : S64x64x1024.Idx) :
    i ∈ ((cfg0.win 7).blk t).view.set ↔ ∀ a : Fin 3, win0_7.index t a * S4x64x1024.size a ≤ (i a).val ∧ (i a).val < win0_7.index t a * S4x64x1024.size a + S4x64x1024.size a := by
  show i ∈ ((View.whole main_v7_0).slice (win0_7.rect t)).set ↔ _
  rw [View.set_slice_whole, Rect.mem_set_unit]
  exact Iff.rfl

/-- Every index of output window 7's array lies in the block of the point that owns its batch. -/
theorem cover7 (i : S64x64x1024.Idx) : ∃ t : Fin cfg0.N, (cfg0.win 7).flush t = true ∧ i ∈ ((cfg0.win 7).blk t).view.set := by
  have hN : cfg0.N = 16 := N_0
  have h0 : (i 0).val < 64 := (i 0).isLt
  have h1 : (i 1).val < 64 := (i 1).isLt
  have h2 : (i 2).val < 1024 := (i 2).isLt
  obtain ⟨t, ht⟩ : ∃ t : Fin cfg0.N, t.val = (i 0).val / 4 := ⟨⟨(i 0).val / 4, by omega⟩, rfl⟩
  obtain ⟨-, -, -, -, -, -, -, ⟨e0, e1, e2⟩, -, -, -⟩ := idx_all t
  refine ⟨t, flush0_7 t, ?_⟩
  rw [mem_blk7]
  intro a
  match a with
  | ⟨0, _⟩ => show win0_7.index t (0 : Fin 3) * 4 ≤ (i 0).val ∧ (i 0).val < win0_7.index t (0 : Fin 3) * 4 + 4; rw [e0, ht]; omega
  | ⟨1, _⟩ => show win0_7.index t (1 : Fin 3) * 64 ≤ (i 1).val ∧ (i 1).val < win0_7.index t (1 : Fin 3) * 64 + 64; rw [e1]; omega
  | ⟨2, _⟩ => show win0_7.index t (2 : Fin 3) * 1024 ≤ (i 2).val ∧ (i 2).val < win0_7.index t (2 : Fin 3) * 1024 + 1024; rw [e2]; omega

/-- Entry `(b, p, n)` of output window 8's block at `t` sits at `(4t + b, p, n)` of its array. -/
theorem emb8 (t : Fin cfg0.N) (b : Fin 4) (p : Fin 64) (n : Fin 1024) :
    ((cfg0.win 8).blk t).view.emb (ix3 b p n) = (ix3 (bat t b) p n : S64x64x1024.Idx) := by
  obtain ⟨-, -, -, -, -, -, -, -, ⟨e0, e1, e2⟩, -, -⟩ := idx_all t
  funext a
  apply Fin.ext
  match a with
  | ⟨0, _⟩ => show win0_8.index t (0 : Fin 3) * 4 + 1 * b.val = 4 * t.val + b.val; rw [e0]; omega
  | ⟨1, _⟩ => show win0_8.index t (1 : Fin 3) * 64 + 1 * p.val = p.val; rw [e1]; omega
  | ⟨2, _⟩ => show win0_8.index t (2 : Fin 3) * 1024 + 1 * n.val = n.val; rw [e2]; omega

/-- An index is in point `t`'s block of output window 8 iff each coordinate is in the block's range on its axis. -/
theorem mem_blk8 (t : Fin cfg0.N) (i : S64x64x1024.Idx) :
    i ∈ ((cfg0.win 8).blk t).view.set ↔ ∀ a : Fin 3, win0_8.index t a * S4x64x1024.size a ≤ (i a).val ∧ (i a).val < win0_8.index t a * S4x64x1024.size a + S4x64x1024.size a := by
  show i ∈ ((View.whole main_v7_1).slice (win0_8.rect t)).set ↔ _
  rw [View.set_slice_whole, Rect.mem_set_unit]
  exact Iff.rfl

/-- Every index of output window 8's array lies in the block of the point that owns its batch. -/
theorem cover8 (i : S64x64x1024.Idx) : ∃ t : Fin cfg0.N, (cfg0.win 8).flush t = true ∧ i ∈ ((cfg0.win 8).blk t).view.set := by
  have hN : cfg0.N = 16 := N_0
  have h0 : (i 0).val < 64 := (i 0).isLt
  have h1 : (i 1).val < 64 := (i 1).isLt
  have h2 : (i 2).val < 1024 := (i 2).isLt
  obtain ⟨t, ht⟩ : ∃ t : Fin cfg0.N, t.val = (i 0).val / 4 := ⟨⟨(i 0).val / 4, by omega⟩, rfl⟩
  obtain ⟨-, -, -, -, -, -, -, -, ⟨e0, e1, e2⟩, -, -⟩ := idx_all t
  refine ⟨t, flush0_8 t, ?_⟩
  rw [mem_blk8]
  intro a
  match a with
  | ⟨0, _⟩ => show win0_8.index t (0 : Fin 3) * 4 ≤ (i 0).val ∧ (i 0).val < win0_8.index t (0 : Fin 3) * 4 + 4; rw [e0, ht]; omega
  | ⟨1, _⟩ => show win0_8.index t (1 : Fin 3) * 64 ≤ (i 1).val ∧ (i 1).val < win0_8.index t (1 : Fin 3) * 64 + 64; rw [e1]; omega
  | ⟨2, _⟩ => show win0_8.index t (2 : Fin 3) * 1024 ≤ (i 2).val ∧ (i 2).val < win0_8.index t (2 : Fin 3) * 1024 + 1024; rw [e2]; omega

/-- Entry `(b, p, n)` of output window 9's block at `t` sits at `(4t + b, p, n)` of its array. -/
theorem emb9 (t : Fin cfg0.N) (b : Fin 4) (p : Fin 64) (n : Fin 1024) :
    ((cfg0.win 9).blk t).view.emb (ix3 b p n) = (ix3 (bat t b) p n : S64x64x1024.Idx) := by
  obtain ⟨-, -, -, -, -, -, -, -, -, ⟨e0, e1, e2⟩, -⟩ := idx_all t
  funext a
  apply Fin.ext
  match a with
  | ⟨0, _⟩ => show win0_9.index t (0 : Fin 3) * 4 + 1 * b.val = 4 * t.val + b.val; rw [e0]; omega
  | ⟨1, _⟩ => show win0_9.index t (1 : Fin 3) * 64 + 1 * p.val = p.val; rw [e1]; omega
  | ⟨2, _⟩ => show win0_9.index t (2 : Fin 3) * 1024 + 1 * n.val = n.val; rw [e2]; omega

/-- An index is in point `t`'s block of output window 9 iff each coordinate is in the block's range on its axis. -/
theorem mem_blk9 (t : Fin cfg0.N) (i : S64x64x1024.Idx) :
    i ∈ ((cfg0.win 9).blk t).view.set ↔ ∀ a : Fin 3, win0_9.index t a * S4x64x1024.size a ≤ (i a).val ∧ (i a).val < win0_9.index t a * S4x64x1024.size a + S4x64x1024.size a := by
  show i ∈ ((View.whole main_v7_2).slice (win0_9.rect t)).set ↔ _
  rw [View.set_slice_whole, Rect.mem_set_unit]
  exact Iff.rfl

/-- Every index of output window 9's array lies in the block of the point that owns its batch. -/
theorem cover9 (i : S64x64x1024.Idx) : ∃ t : Fin cfg0.N, (cfg0.win 9).flush t = true ∧ i ∈ ((cfg0.win 9).blk t).view.set := by
  have hN : cfg0.N = 16 := N_0
  have h0 : (i 0).val < 64 := (i 0).isLt
  have h1 : (i 1).val < 64 := (i 1).isLt
  have h2 : (i 2).val < 1024 := (i 2).isLt
  obtain ⟨t, ht⟩ : ∃ t : Fin cfg0.N, t.val = (i 0).val / 4 := ⟨⟨(i 0).val / 4, by omega⟩, rfl⟩
  obtain ⟨-, -, -, -, -, -, -, -, -, ⟨e0, e1, e2⟩, -⟩ := idx_all t
  refine ⟨t, flush0_9 t, ?_⟩
  rw [mem_blk9]
  intro a
  match a with
  | ⟨0, _⟩ => show win0_9.index t (0 : Fin 3) * 4 ≤ (i 0).val ∧ (i 0).val < win0_9.index t (0 : Fin 3) * 4 + 4; rw [e0, ht]; omega
  | ⟨1, _⟩ => show win0_9.index t (1 : Fin 3) * 64 ≤ (i 1).val ∧ (i 1).val < win0_9.index t (1 : Fin 3) * 64 + 64; rw [e1]; omega
  | ⟨2, _⟩ => show win0_9.index t (2 : Fin 3) * 1024 ≤ (i 2).val ∧ (i 2).val < win0_9.index t (2 : Fin 3) * 1024 + 1024; rw [e2]; omega

/-- Entry `(b, p, n)` of output window 10's block at `t` sits at `(4t + b, p, n)` of its array. -/
theorem emb10 (t : Fin cfg0.N) (b : Fin 4) (p : Fin 64) (n : Fin 1024) :
    ((cfg0.win 10).blk t).view.emb (ix3 b p n) = (ix3 (bat t b) p n : S64x64x1024.Idx) := by
  obtain ⟨-, -, -, -, -, -, -, -, -, -, ⟨e0, e1, e2⟩⟩ := idx_all t
  funext a
  apply Fin.ext
  match a with
  | ⟨0, _⟩ => show win0_10.index t (0 : Fin 3) * 4 + 1 * b.val = 4 * t.val + b.val; rw [e0]; omega
  | ⟨1, _⟩ => show win0_10.index t (1 : Fin 3) * 64 + 1 * p.val = p.val; rw [e1]; omega
  | ⟨2, _⟩ => show win0_10.index t (2 : Fin 3) * 1024 + 1 * n.val = n.val; rw [e2]; omega

/-- An index is in point `t`'s block of output window 10 iff each coordinate is in the block's range on its axis. -/
theorem mem_blk10 (t : Fin cfg0.N) (i : S64x64x1024.Idx) :
    i ∈ ((cfg0.win 10).blk t).view.set ↔ ∀ a : Fin 3, win0_10.index t a * S4x64x1024.size a ≤ (i a).val ∧ (i a).val < win0_10.index t a * S4x64x1024.size a + S4x64x1024.size a := by
  show i ∈ ((View.whole main_v7_3).slice (win0_10.rect t)).set ↔ _
  rw [View.set_slice_whole, Rect.mem_set_unit]
  exact Iff.rfl

/-- Every index of output window 10's array lies in the block of the point that owns its batch. -/
theorem cover10 (i : S64x64x1024.Idx) : ∃ t : Fin cfg0.N, (cfg0.win 10).flush t = true ∧ i ∈ ((cfg0.win 10).blk t).view.set := by
  have hN : cfg0.N = 16 := N_0
  have h0 : (i 0).val < 64 := (i 0).isLt
  have h1 : (i 1).val < 64 := (i 1).isLt
  have h2 : (i 2).val < 1024 := (i 2).isLt
  obtain ⟨t, ht⟩ : ∃ t : Fin cfg0.N, t.val = (i 0).val / 4 := ⟨⟨(i 0).val / 4, by omega⟩, rfl⟩
  obtain ⟨-, -, -, -, -, -, -, -, -, -, ⟨e0, e1, e2⟩⟩ := idx_all t
  refine ⟨t, flush0_10 t, ?_⟩
  rw [mem_blk10]
  intro a
  match a with
  | ⟨0, _⟩ => show win0_10.index t (0 : Fin 3) * 4 ≤ (i 0).val ∧ (i 0).val < win0_10.index t (0 : Fin 3) * 4 + 4; rw [e0, ht]; omega
  | ⟨1, _⟩ => show win0_10.index t (1 : Fin 3) * 64 ≤ (i 1).val ∧ (i 1).val < win0_10.index t (1 : Fin 3) * 64 + 64; rw [e1]; omega
  | ⟨2, _⟩ => show win0_10.index t (2 : Fin 3) * 1024 ≤ (i 2).val ∧ (i 2).val < win0_10.index t (2 : Fin 3) * 1024 + 1024; rw [e2]; omega

end Cert.KernelIdeal.Blk

end
-- ==== Proof.Spec.lean ====
import Idealize.ShloMosaic.PureOps.Ideal
import Idealize.ShloMosaic.PureOps.Ideal.Laws
import Idealize.ShloMosaic.Lib.ValueIdx

/-!
# What the sampling program computes, entry by entry

For one box (half-sizes `s`, translation `t`, quaternion `q`) and one sample `u` of the unit cube: the sample's offset
from the cube's centre is pushed onto the cube's surface (divided by its largest absolute coordinate, floored, and
halved), scaled by the half-sizes, rotated by the normalized quaternion's rotation matrix and translated. A box's
weight is its share of its batch's total surface area, kept where its mask word is one, over the number of samples.
Everything is over the extended reals; the float words stay words.
-/

noncomputable section

namespace Cert.Spec

open Idealize.ShloMosaic

/-- The words the program spells: 0.5, the floor of the largest coordinate, 2, 1, 8, the floor of the total area, and the
    sample count 1024. -/
abbrev cHalf : EReal := Ideal.ofBits .f32 0x3F000000#32
abbrev cFloor : EReal := Ideal.ofBits .f32 0x358637BD#32
abbrev cTwo : EReal := Ideal.ofBits .f32 0x40000000#32
abbrev cOne : EReal := Ideal.ofBits .f32 0x3F800000#32
abbrev cEight : EReal := Ideal.ofBits .f32 0x41000000#32
abbrev cAreaFloor : EReal := Ideal.ofBits .f32 0x322BCC77#32
abbrev cCount : EReal := Ideal.ofBits .f32 0x44800000#32

/-- Absolute value on the extended reals. -/
def absE (x : EReal) : EReal := max x (-x)

/-- The sample's offset from the cube's centre, coordinate `k`. -/
def off (u : Fin 3 → EReal) (k : Fin 3) : EReal := u k - cHalf

/-- The factor that pushes the offset onto the cube's surface. -/
def scl (u : Fin 3 → EReal) : EReal :=
  Ideal.div cHalf (max (max (max (absE (off u 0)) (absE (off u 1))) (absE (off u 2))) cFloor)

/-- The point in the box's own frame, coordinate `k`. -/
def loc (s u : Fin 3 → EReal) (k : Fin 3) : EReal := off u k * scl u * s k

/-- The quaternion's length. -/
def nrm (q : Fin 4 → EReal) : EReal := Ideal.sqrt (∑ j : Fin 4, q j * q j)

/-- The normalized quaternion, entry `j` (0 the scalar part). -/
def qn (q : Fin 4 → EReal) (j : Fin 4) : EReal := Ideal.div (q j) (nrm q)

/-- The rotation matrix of the normalized quaternion, row by row. -/
def rot (q : Fin 4 → EReal) : Fin 3 → Fin 3 → EReal :=
  ![![cOne - cTwo * (qn q 2 * qn q 2 + qn q 3 * qn q 3), cTwo * (qn q 1 * qn q 2 - qn q 0 * qn q 3), cTwo * (qn q 1 * qn q 3 + qn q 0 * qn q 2)],
    ![cTwo * (qn q 1 * qn q 2 + qn q 0 * qn q 3), cOne - cTwo * (qn q 1 * qn q 1 + qn q 3 * qn q 3), cTwo * (qn q 2 * qn q 3 - qn q 0 * qn q 1)],
    ![cTwo * (qn q 1 * qn q 3 - qn q 0 * qn q 2), cTwo * (qn q 2 * qn q 3 + qn q 0 * qn q 1), cOne - cTwo * (qn q 1 * qn q 1 + qn q 2 * qn q 2)]]

/-- The sampled point, coordinate `i`: row `i` of the rotation against the local point, plus the translation. -/
def ptsS (s t : Fin 3 → EReal) (q : Fin 4 → EReal) (u : Fin 3 → EReal) (i : Fin 3) : EReal :=
  rot q i 0 * loc s u 0 + rot q i 1 * loc s u 1 + rot q i 2 * loc s u 2 + t i

/-- A box's surface area, up to the factor the program uses. -/
def area (s : Fin 3 → EReal) : EReal := cEight * (s 0 * s 1 + s 1 * s 2 + s 2 * s 0)

/-- One where the mask word is one, zero elsewhere. -/
def maskE (k : BitVec 32) : EReal := if k = 1#32 then 1 else 0

/-- The weight of every sample of box `p` among the 64 boxes `a` of its batch, with mask word `k`. -/
def wS (a : Fin 64 → Fin 3 → EReal) (p : Fin 64) (k : BitVec 32) : EReal :=
  Ideal.div (Ideal.div (area (a p)) (max (∑ p' : Fin 64, area (a p')) cAreaFloor) * maskE k) cCount

end Cert.Spec

end
-- ==== Proof.KernelAtIndex.lean ====
import proofs.«404468_j32401233281614_3_alg».proof.Proof.KIFrame
import proofs.«404468_j32401233281614_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
# The body's four stored values, entry by entry

The body of the sampling region computes on blocks of four batches. Read at one entry (batch b of the block, box p,
sample n), each of the four vectors it stores is the scalar specification of Spec.lean at that box's sizes,
translation, quaternion and mask word and at that sample's three coordinates.

Every arithmetic operation of the body acts entry by entry, so only the operations that move entries need a lemma:
a column cut out of the last axis, a unit last axis dropped or added, a unit last axis repeated along samples or along
the quaternion's four entries, a batch's total repeated over its boxes, and the two sums (over the quaternion's four
entries, over a batch's 64 boxes). They come first, at explicit coordinates; then the quaternion column and the
rotation's entries; then the local point; then the three coordinates; then the weight.
-/

noncomputable section

namespace Cert.KernelIdeal.AtIdx

open Cert.KernelIdeal Cert.KernelIdeal.Gen Cert.KernelIdeal.Frm Cert.Spec
open Idealize.ShloMosaic Idealize.ShloMosaic.ValueIdx

/-! ## Operations that move entries, at explicit coordinates -/

section Layout
variable {α : Type}

/-- A rank-3 array cut along its last axis to the one column o reads, at (a, b, 0), the source at (a, b, o). -/
theorem slice3_col_apply {n0 n1 n2 : Nat} (o : Nat) (X : (⟨3, ![n0, n1, n2]⟩ : Shape).Idx → α)
    (h : (⟨3, ![n0, n1, n2]⟩ : Shape).Slices ![0, 0, o] ⟨3, ![n0, n1, 1]⟩)
    (a : Fin n0) (b : Fin n1) (u : Fin 1) (k : Fin n2) (hk : k.val = o) :
    extractStridedSlice ⟨3, ![n0, n1, 1]⟩ ![0, 0, o] X h (ix3 a b u) = X (ix3 a b k) :=
  extractStridedSlice_apply _ _ _ _ _ (fun ax => by
    match ax with
    | ⟨0, _⟩ => exact (Nat.zero_add _).symm
    | ⟨1, _⟩ => exact (Nat.zero_add _).symm
    | ⟨2, _⟩ =>
      show k.val = o + u.val
      have hu := u.isLt
      omega)

/-- An [a, b, 1] array cast to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An [a, b, 1] array repeated along a last axis of any length reads, at (i, j, n), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (n : Fin c) :
    broadcastTo ⟨3, ![a, b, c]⟩ v h (ix3 i j n) = v (ix3 i j (0 : Fin 1)) := by
  refine broadcastTo_apply v h (ix3 i j n) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1] array repeated along a last axis of any length reads, at (i, p), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (p : Fin b) :
    broadcastTo ⟨2, ![a, b]⟩ v h (ix2 i p) = v (ix2 i (0 : Fin 1)) := by
  refine broadcastTo_apply v h (ix2 i p) (ix2 i (0 : Fin 1)) fun ax => ?_
  match ax with
  | ⟨0, _⟩ =>
    show i.val = if a = 1 then 0 else i.val
    split
    · have := i.isLt; omega
    · rfl
  | ⟨1, _⟩ => rfl

end Layout

/-- A square root of a vector reads entry by entry. -/
theorem sqrt_apply {s : Shape} {φ : FTy} (v : FVec Ideal s φ) (i : s.Idx) : sqrt v i = Ideal.sqrt (v i) := rfl

/-- An absolute value of a vector reads entry by entry. -/
theorem absf_apply {s : Shape} {φ : FTy} (v : FVec Ideal s φ) (i : s.Idx) : absf v i = absE (v i) := rfl

/-- The sum over the last axis of a [4, 64, 4] vector, read at (b, p): the sum of its four entries there. -/
theorem sumLast_apply (x : FVec Ideal S4x64x4 .f32) (h : S4x64x4.Reduces [2] S4x64) (hφ : FKind.Formats .f32)
    (hacc : (0x00000000#32 : BitVec 32) = FKind.add.neutral .f32 hφ) (b : Fin 4) (p : Fin 64) :
    multiReduction (F := Ideal) .add [2] S4x64 x 0x00000000#32 h hφ hacc (ix2 b p) = ∑ j : Fin 4, x (ix3 b p j) := by
  refine (Ideal.multiReduction_add_single x _ h hφ hacc (ix2 b p)).trans ?_
  refine Finset.sum_congr rfl fun j _ => congrArg x ?_
  funext c
  refine Fin.ext ?_
  match c with
  | ⟨0, _⟩ => rfl
  | ⟨1, _⟩ => rfl
  | ⟨2, _⟩ => rfl

/-- The sum over the boxes of a [4, 64] vector, read at batch b: the sum of its 64 entries there. -/
theorem sumBoxes_apply (x : FVec Ideal S4x64 .f32) (h : S4x64.Reduces [1] S4) (hφ : FKind.Formats .f32)
    (hacc : (0x00000000#32 : BitVec 32) = FKind.add.neutral .f32 hφ) (b : Fin 4) :
    multiReduction (F := Ideal) .add [1] S4 x 0x00000000#32 h hφ hacc (ix1 b) = ∑ p : Fin 64, x (ix2 b p) := by
  refine (Ideal.multiReduction_add_single x _ h hφ hacc (ix1 b)).trans ?_
  refine Finset.sum_congr rfl fun p _ => congrArg x ?_
  funext c
  refine Fin.ext ?_
  match c with
  | ⟨0, _⟩ => rfl
  | ⟨1, _⟩ => rfl

/-- The comparison of a word with one, widened and read as a signed integer, is the mask: one where the word is one,
    zero elsewhere. -/
theorem mask_word (k : BitVec 32) :
    (FloatOps.sitofp (F := Ideal) .f32 ((IntOp.cmpi .eq k 1#32).setWidth 32) : EReal) = maskE k := by
  unfold maskE
  by_cases hk : k = 1#32
  · have h1 : IntOp.cmpi .eq k 1#32 = 1#1 := by simp [IntOp.cmpi, hk]
    rw [h1, if_pos hk]
    show (((BitVec.setWidth 32 1#1).toInt : ℝ) : EReal) = 1
    have h2 : (BitVec.setWidth 32 1#1).toInt = 1 := by decide
    rw [h2]; simp
  · have hb : (k == 1#32) = false := beq_eq_false_iff_ne.mpr hk
    have h0 : IntOp.cmpi .eq k 1#32 = 0#1 := by
      show BitVec.ofBool (k == 1#32) = 0#1
      exact congrArg BitVec.ofBool hb
    rw [h0, if_neg hk]
    show (((BitVec.setWidth 32 0#1).toInt : ℝ) : EReal) = 0
    have h2 : (BitVec.setWidth 32 0#1).toInt = 0 := by decide
    rw [h2]; simp

/-! ## The columns of the box sizes and of the mask -/

/-- The first box size, as a [4, 64] vector. -/
theorem pay10_apply (s : Vec Ideal S4x64x3 .f32) (b : Fin 4) (p : Fin 64) :
    k0_pay10 (F := Ideal) s (ix2 b p) = s (ix3 b p 0) := by
  unfold k0_pay10
  exact (shapeCast_ab1_ab_apply _ _ b p).trans (slice3_col_apply 0 s _ b p 0 0 rfl)

/-- The second box size, as a [4, 64, 1] column. -/
theorem pay11_apply (s : Vec Ideal S4x64x3 .f32) (b : Fin 4) (p : Fin 64) (u : Fin 1) :
    k0_pay11 (F := Ideal) s (ix3 b p u) = s (ix3 b p 1) := by
  unfold k0_pay11
  exact slice3_col_apply 1 s _ b p u 1 rfl

/-- A column with its unit axis dropped. -/
theorem pay12_apply (v : FVec Ideal S4x64x1 .f32) (b : Fin 4) (p : Fin 64) :
    k0_pay12 (F := Ideal) v (ix2 b p) = v (ix3 b p 0) := by
  unfold k0_pay12
  exact shapeCast_ab1_ab_apply _ _ b p

/-- The third box size, as a [4, 64] vector. -/
theorem pay13_apply (s : Vec Ideal S4x64x3 .f32) (b : Fin 4) (p : Fin 64) :
    k0_pay13 (F := Ideal) s (ix2 b p) = s (ix3 b p 2) := by
  unfold k0_pay13
  exact (shapeCast_ab1_ab_apply _ _ b p).trans (slice3_col_apply 2 s _ b p 0 2 rfl)

/-- The mask words, as a [4, 64] vector. -/
theorem pay2_apply (k : Vec Ideal S4x64x1 .i32) (b : Fin 4) (p : Fin 64) :
    k0_pay2 (F := Ideal) k (ix2 b p) = k (ix3 b p 0) := by
  unfold k0_pay2
  exact (shapeCast_ab1_ab_apply _ _ b p).trans (congrFun (shapeCast_self k _) _)

/-! ## The quaternion column and the rotation's entries -/

/-- The normalized quaternion: each entry over the square root of the sum of the four squares. -/
theorem pay17_apply (q : Vec Ideal S4x64x4 .f32) (b : Fin 4) (p : Fin 64) (j : Fin 4) :
    k0_pay17 (F := Ideal) q (ix3 b p j) = qn (fun j => q (ix3 b p j)) j := by
  unfold k0_pay17
  refine (divf_apply _ _ _).trans ?_
  refine congrArg (Ideal.div (q (ix3 b p j))) ?_
  refine (broadcastTo_ab1_abc_apply _ _ b p j).trans ?_
  refine (sqrt_apply _ _).trans ?_
  refine congrArg Ideal.sqrt ?_
  refine (shapeCast_ab_ab1_apply _ _ b p 0).trans ?_
  exact sumLast_apply (mulf q q) _ _ _ b p

/-- Its scalar part, as a column. -/
theorem pay18_apply (q : Vec Ideal S4x64x4 .f32) (b : Fin 4) (p : Fin 64) (u : Fin 1) :
    k0_pay18 (F := Ideal) q (ix3 b p u) = qn (fun j => q (ix3 b p j)) 0 := by
  unfold k0_pay18
  exact (slice3_col_apply 0 _ _ b p u 0 rfl).trans (pay17_apply q b p 0)

/-- Its first vector entry, as a column. -/
theorem pay19_apply (q : Vec Ideal S4x64x4 .f32) (b : Fin 4) (p : Fin 64) (u : Fin 1) :
    k0_pay19 (F := Ideal) q (ix3 b p u) = qn (fun j => q (ix3 b p j)) 1 := by
  unfold k0_pay19
  exact (slice3_col_apply 1 _ _ b p u 1 rfl).trans (pay17_apply q b p 1)

/-- Its second vector entry, as a column. -/
theorem pay20_apply (q : Vec Ideal S4x64x4 .f32) (b : Fin 4) (p : Fin 64) (u : Fin 1) :
    k0_pay20 (F := Ideal) q (ix3 b p u) = qn (fun j => q (ix3 b p j)) 2 := by
  unfold k0_pay20
  exact (slice3_col_apply 2 _ _ b p u 2 rfl).trans (pay17_apply q b p 2)

/-- Its third vector entry, as a column. -/
theorem pay21_apply (q : Vec Ideal S4x64x4 .f32) (b : Fin 4) (p : Fin 64) (u : Fin 1) :
    k0_pay21 (F := Ideal) q (ix3 b p u) = qn (fun j => q (ix3 b p j)) 3 := by
  unfold k0_pay21
  exact (slice3_col_apply 3 _ _ b p u 3 rfl).trans (pay17_apply q b p 3)

/-- The rotation's entry (0, 0). -/
theorem pay22_apply (q : Vec Ideal S4x64x4 .f32) (b : Fin 4) (p : Fin 64) (u : Fin 1) :
    k0_pay22 (F := Ideal) q (ix3 b p u) = rot (fun j => q (ix3 b p j)) 0 0 := by
  show cOne - cTwo * (k0_pay20 (F := Ideal) q (ix3 b p u) * k0_pay20 (F := Ideal) q (ix3 b p u)
    + k0_pay21 (F := Ideal) q (ix3 b p u) * k0_pay21 (F := Ideal) q (ix3 b p u)) = _
  rw [pay20_apply, pay21_apply]
  rfl

/-- The rotation's entry (0, 1). -/
theorem pay23_apply (q : Vec Ideal S4x64x4 .f32) (b : Fin 4) (p : Fin 64) (u : Fin 1) :
    k0_pay23 (F := Ideal) q (ix3 b p u) = rot (fun j => q (ix3 b p j)) 0 1 := by
  show cTwo * (k0_pay19 (F := Ideal) q (ix3 b p u) * k0_pay20 (F := Ideal) q (ix3 b p u)
    - k0_pay18 (F := Ideal) q (ix3 b p u) * k0_pay21 (F := Ideal) q (ix3 b p u)) = _
  rw [pay18_apply, pay19_apply, pay20_apply, pay21_apply]
  rfl

/-- The rotation's entry (0, 2). -/
theorem pay24_apply (q : Vec Ideal S4x64x4 .f32) (b : Fin 4) (p : Fin 64) (u : Fin 1) :
    k0_pay24 (F := Ideal) q (ix3 b p u) = rot (fun j => q (ix3 b p j)) 0 2 := by
  show cTwo * (k0_pay19 (F := Ideal) q (ix3 b p u) * k0_pay21 (F := Ideal) q (ix3 b p u)
    + k0_pay18 (F := Ideal) q (ix3 b p u) * k0_pay20 (F := Ideal) q (ix3 b p u)) = _
  rw [pay18_apply, pay19_apply, pay20_apply, pay21_apply]
  rfl

/-- The rotation's entry (1, 0). -/
theorem pay25_apply (q : Vec Ideal S4x64x4 .f32) (b : Fin 4) (p : Fin 64) (u : Fin 1) :
    k0_pay25 (F := Ideal) q (ix3 b p u) = rot (fun j => q (ix3 b p j)) 1 0 := by
  show cTwo * (k0_pay19 (F := Ideal) q (ix3 b p u) * k0_pay20 (F := Ideal) q (ix3 b p u)
    + k0_pay18 (F := Ideal) q (ix3 b p u) * k0_pay21 (F := Ideal) q (ix3 b p u)) = _
  rw [pay18_apply, pay19_apply, pay20_apply, pay21_apply]
  rfl

/-- The rotation's entry (1, 1). -/
theorem pay26_apply (q : Vec Ideal S4x64x4 .f32) (b : Fin 4) (p : Fin 64) (u : Fin 1) :
    k0_pay26 (F := Ideal) q (ix3 b p u) = rot (fun j => q (ix3 b p j)) 1 1 := by
  show cOne - cTwo * (k0_pay19 (F := Ideal) q (ix3 b p u) * k0_pay19 (F := Ideal) q (ix3 b p u)
    + k0_pay21 (F := Ideal) q (ix3 b p u) * k0_pay21 (F := Ideal) q (ix3 b p u)) = _
  rw [pay19_apply, pay21_apply]
  rfl

/-- The product of the second and third vector entries, which the entries (1, 2) and (2, 1) share. -/
theorem pay27_apply (q : Vec Ideal S4x64x4 .f32) (b : Fin 4) (p : Fin 64) (u : Fin 1) :
    k0_pay27 (F := Ideal) q (ix3 b p u)
      = qn (fun j => q (ix3 b p j)) 2 * qn (fun j => q (ix3 b p j)) 3 := by
  show k0_pay20 (F := Ideal) q (ix3 b p u) * k0_pay21 (F := Ideal) q (ix3 b p u) = _
  rw [pay20_apply, pay21_apply]

/-! ## The local point -/

/-- The first sample plane's offset from the cube's centre. -/
theorem pay3_apply (ux : Vec Ideal S4x64x1024 .f32) (i : S4x64x1024.Idx) :
    k0_pay3 (F := Ideal) ux i = ux i - cHalf := by
  unfold k0_pay3
  exact congrArg (fun x : EReal => x - cHalf) (congrFun (shapeCast_self ux _) i)

/-- The second sample plane's offset. -/
theorem pay4_apply (uy : Vec Ideal S4x64x1024 .f32) (i : S4x64x1024.Idx) :
    k0_pay4 (F := Ideal) uy i = uy i - cHalf := by
  unfold k0_pay4
  exact congrArg (fun x : EReal => x - cHalf) (congrFun (shapeCast_self uy _) i)

/-- The third sample plane's offset. -/
theorem pay5_apply (uz : Vec Ideal S4x64x1024 .f32) (i : S4x64x1024.Idx) :
    k0_pay5 (F := Ideal) uz i = uz i - cHalf := by
  unfold k0_pay5
  exact congrArg (fun x : EReal => x - cHalf) (congrFun (shapeCast_self uz _) i)

/-- The factor that pushes the offset onto the cube's surface. -/
theorem pay6_apply (ux uy uz : Vec Ideal S4x64x1024 .f32) (i : S4x64x1024.Idx) :
    k0_pay6 (F := Ideal) ux uy uz i = scl ![ux i, uy i, uz i] := by
  show Ideal.div cHalf (max (max (max (absE (k0_pay3 (F := Ideal) ux i)) (absE (k0_pay4 (F := Ideal) uy i)))
    (absE (k0_pay5 (F := Ideal) uz i))) cFloor) = _
  rw [pay3_apply, pay4_apply, pay5_apply]
  rfl

/-- The offset on the surface, first coordinate. -/
theorem pay7_apply (ux uy uz : Vec Ideal S4x64x1024 .f32) (i : S4x64x1024.Idx) :
    k0_pay7 (F := Ideal) ux uy uz i = off ![ux i, uy i, uz i] 0 * scl ![ux i, uy i, uz i] := by
  show k0_pay3 (F := Ideal) ux i * k0_pay6 (F := Ideal) ux uy uz i = _
  rw [pay3_apply, pay6_apply]
  rfl

/-- The offset on the surface, second coordinate. -/
theorem pay8_apply (ux uy uz : Vec Ideal S4x64x1024 .f32) (i : S4x64x1024.Idx) :
    k0_pay8 (F := Ideal) ux uy uz i = off ![ux i, uy i, uz i] 1 * scl ![ux i, uy i, uz i] := by
  show k0_pay4 (F := Ideal) uy i * k0_pay6 (F := Ideal) ux uy uz i = _
  rw [pay4_apply, pay6_apply]
  rfl

/-- The offset on the surface, third coordinate. -/
theorem pay9_apply (ux uy uz : Vec Ideal S4x64x1024 .f32) (i : S4x64x1024.Idx) :
    k0_pay9 (F := Ideal) ux uy uz i = off ![ux i, uy i, uz i] 2 * scl ![ux i, uy i, uz i] := by
  show k0_pay5 (F := Ideal) uz i * k0_pay6 (F := Ideal) ux uy uz i = _
  rw [pay5_apply, pay6_apply]
  rfl

/-- A [4, 64, 1024] vector times a [4, 64] vector repeated along the samples. -/
theorem pay14_apply (v : FVec Ideal S4x64x1024 .f32) (w : FVec Ideal S4x64 .f32) (b : Fin 4) (p : Fin 64) (n : Fin 1024) :
    k0_pay14 (F := Ideal) v w (ix3 b p n) = v (ix3 b p n) * w (ix2 b p) := by
  unfold k0_pay14
  refine (mulf_apply _ _ _).trans ?_
  refine congrArg (fun x : EReal => v (ix3 b p n) * x) ?_
  exact (broadcastTo_ab1_abc_apply _ _ b p n).trans (shapeCast_ab_ab1_apply _ _ b p 0)

/-- A [4, 64, 1024] vector times a [4, 64, 1] column repeated along the samples. -/
theorem pay15_apply (v : FVec Ideal S4x64x1024 .f32) (w : FVec Ideal S4x64x1 .f32) (b : Fin 4) (p : Fin 64) (n : Fin 1024) :
    k0_pay15 (F := Ideal) v w (ix3 b p n) = v (ix3 b p n) * w (ix3 b p 0) := by
  unfold k0_pay15
  refine (mulf_apply _ _ _).trans ?_
  refine congrArg (fun x : EReal => v (ix3 b p n) * x) ?_
  exact ((broadcastTo_ab1_abc_apply _ _ b p n).trans (shapeCast_ab_ab1_apply _ _ b p 0)).trans (pay12_apply w b p)

/-- A [4, 64, 1024] vector times the third box size repeated along the samples. -/
theorem pay16_apply (s : Vec Ideal S4x64x3 .f32) (v : FVec Ideal S4x64x1024 .f32) (b : Fin 4) (p : Fin 64) (n : Fin 1024) :
    k0_pay16 (F := Ideal) s v (ix3 b p n) = v (ix3 b p n) * s (ix3 b p 2) := by
  unfold k0_pay16
  refine (mulf_apply _ _ _).trans ?_
  refine congrArg (fun x : EReal => v (ix3 b p n) * x) ?_
  exact ((broadcastTo_ab1_abc_apply _ _ b p n).trans (shapeCast_ab_ab1_apply _ _ b p 0)).trans (pay13_apply s b p)

/-- The local point's first coordinate. -/
theorem locX_apply (s : Vec Ideal S4x64x3 .f32) (ux uy uz : Vec Ideal S4x64x1024 .f32) (b : Fin 4) (p : Fin 64) (n : Fin 1024) :
    locX (F := Ideal) s ux uy uz (ix3 b p n)
      = loc (fun k => s (ix3 b p k)) ![ux (ix3 b p n), uy (ix3 b p n), uz (ix3 b p n)] 0 := by
  unfold locX
  rw [pay14_apply, pay7_apply, pay10_apply]
  rfl

/-- The local point's second coordinate. -/
theorem locY_apply (s : Vec Ideal S4x64x3 .f32) (ux uy uz : Vec Ideal S4x64x1024 .f32) (b : Fin 4) (p : Fin 64) (n : Fin 1024) :
    locY (F := Ideal) s ux uy uz (ix3 b p n)
      = loc (fun k => s (ix3 b p k)) ![ux (ix3 b p n), uy (ix3 b p n), uz (ix3 b p n)] 1 := by
  unfold locY
  rw [pay15_apply, pay8_apply, pay11_apply]
  rfl

/-- The local point's third coordinate. -/
theorem locZ_apply (s : Vec Ideal S4x64x3 .f32) (ux uy uz : Vec Ideal S4x64x1024 .f32) (b : Fin 4) (p : Fin 64) (n : Fin 1024) :
    locZ (F := Ideal) s ux uy uz (ix3 b p n)
      = loc (fun k => s (ix3 b p k)) ![ux (ix3 b p n), uy (ix3 b p n), uz (ix3 b p n)] 2 := by
  unfold locZ
  rw [pay16_apply, pay9_apply]
  rfl

/-! ## The three coordinates of the sampled point -/

/-- A row of three columns against three [4, 64, 1024] vectors, plus the translation's first entry. -/
theorem pay28_apply (tr : Vec Ideal S4x64x3 .f32) (lx ly lz : FVec Ideal S4x64x1024 .f32) (r0 r1 r2 : FVec Ideal S4x64x1 .f32)
    (b : Fin 4) (p : Fin 64) (n : Fin 1024) :
    k0_pay28 (F := Ideal) tr lx ly lz r0 r1 r2 (ix3 b p n)
      = r0 (ix3 b p 0) * lx (ix3 b p n) + r1 (ix3 b p 0) * ly (ix3 b p n) + r2 (ix3 b p 0) * lz (ix3 b p n) + tr (ix3 b p 0) := by
  unfold k0_pay28
  show broadcastTo S4x64x1024 r0 _ (ix3 b p n) * lx (ix3 b p n) + broadcastTo S4x64x1024 r1 _ (ix3 b p n) * ly (ix3 b p n)
    + broadcastTo S4x64x1024 r2 _ (ix3 b p n) * lz (ix3 b p n)
    + broadcastTo S4x64x1024 (extractStridedSlice S4x64x1 ![0, 0, 0] tr slices_S4x64x3_o0_0_0_S4x64x1) _ (ix3 b p n) = _
  rw [broadcastTo_ab1_abc_apply, broadcastTo_ab1_abc_apply, broadcastTo_ab1_abc_apply, broadcastTo_ab1_abc_apply,
    slice3_col_apply 0 tr _ b p 0 0 rfl]

/-- The same for the second row, whose third entry is formed here from the shared products. -/
theorem pay29_apply (tr : Vec Ideal S4x64x3 .f32) (lx ly lz : FVec Ideal S4x64x1024 .f32) (v51 v52 v76 v83 v84 : FVec Ideal S4x64x1 .f32)
    (b : Fin 4) (p : Fin 64) (n : Fin 1024) :
    k0_pay29 (F := Ideal) tr lx ly lz v51 v52 v76 v83 v84 (ix3 b p n)
      = v76 (ix3 b p 0) * lx (ix3 b p n) + v83 (ix3 b p 0) * ly (ix3 b p n)
        + cTwo * (v84 (ix3 b p 0) - v51 (ix3 b p 0) * v52 (ix3 b p 0)) * lz (ix3 b p n) + tr (ix3 b p 1) := by
  unfold k0_pay29
  show broadcastTo S4x64x1024 v76 _ (ix3 b p n) * lx (ix3 b p n) + broadcastTo S4x64x1024 v83 _ (ix3 b p n) * ly (ix3 b p n)
    + broadcastTo S4x64x1024 (mulf (broadcast S4x64x1 cTwo) (subf v84 (mulf v51 v52))) _ (ix3 b p n) * lz (ix3 b p n)
    + broadcastTo S4x64x1024 (extractStridedSlice S4x64x1 ![0, 0, 1] tr slices_S4x64x3_o0_0_1_S4x64x1) _ (ix3 b p n) = _
  rw [broadcastTo_ab1_abc_apply, broadcastTo_ab1_abc_apply, broadcastTo_ab1_abc_apply, broadcastTo_ab1_abc_apply,
    slice3_col_apply 1 tr _ b p 0 1 rfl]
  rfl

/-- The same for the third row, whose three entries are formed here. -/
theorem pay30_apply (tr : Vec Ideal S4x64x3 .f32) (lx ly lz : FVec Ideal S4x64x1024 .f32) (v51 v52 v53 v54 : FVec Ideal S4x64x1 .f32)
    (b : Fin 4) (p : Fin 64) (n : Fin 1024) :
    k0_pay30 (F := Ideal) tr lx ly lz v51 v52 v53 v54 (ix3 b p n)
      = cTwo * (v52 (ix3 b p 0) * v54 (ix3 b p 0) - v51 (ix3 b p 0) * v53 (ix3 b p 0)) * lx (ix3 b p n)
        + cTwo * (v53 (ix3 b p 0) * v54 (ix3 b p 0) + v51 (ix3 b p 0) * v52 (ix3 b p 0)) * ly (ix3 b p n)
        + (cOne - cTwo * (v52 (ix3 b p 0) * v52 (ix3 b p 0) + v53 (ix3 b p 0) * v53 (ix3 b p 0))) * lz (ix3 b p n)
        + tr (ix3 b p 2) := by
  unfold k0_pay30
  show broadcastTo S4x64x1024 (mulf (broadcast S4x64x1 cTwo) (subf (mulf v52 v54) (mulf v51 v53))) _ (ix3 b p n) * lx (ix3 b p n)
    + broadcastTo S4x64x1024 (mulf (broadcast S4x64x1 cTwo) (addf (mulf v53 v54) (mulf v51 v52))) _ (ix3 b p n) * ly (ix3 b p n)
    + broadcastTo S4x64x1024 (subf (broadcast S4x64x1 cOne) (mulf (broadcast S4x64x1 cTwo) (addf (mulf v52 v52) (mulf v53 v53)))) _ (ix3 b p n)
        * lz (ix3 b p n)
    + broadcastTo S4x64x1024 (extractStridedSlice S4x64x1 ![0, 0, 2] tr slices_S4x64x3_o0_0_2_S4x64x1) _ (ix3 b p n) = _
  rw [broadcastTo_ab1_abc_apply, broadcastTo_ab1_abc_apply, broadcastTo_ab1_abc_apply, broadcastTo_ab1_abc_apply,
    slice3_col_apply 2 tr _ b p 0 2 rfl]
  rfl

/-- The first coordinate the body stores is the specification's. -/
theorem valX_apply (s tr : Vec Ideal S4x64x3 .f32) (q : Vec Ideal S4x64x4 .f32) (ux uy uz : Vec Ideal S4x64x1024 .f32)
    (b : Fin 4) (p : Fin 64) (n : Fin 1024) :
    valX (F := Ideal) s tr q ux uy uz (ix3 b p n)
      = ptsS (fun k => s (ix3 b p k)) (fun k => tr (ix3 b p k)) (fun j => q (ix3 b p j))
          ![ux (ix3 b p n), uy (ix3 b p n), uz (ix3 b p n)] 0 := by
  unfold valX
  rw [pay28_apply, locX_apply, locY_apply, locZ_apply, pay22_apply, pay23_apply, pay24_apply]
  rfl

/-- The second coordinate the body stores is the specification's. -/
theorem valY_apply (s tr : Vec Ideal S4x64x3 .f32) (q : Vec Ideal S4x64x4 .f32) (ux uy uz : Vec Ideal S4x64x1024 .f32)
    (b : Fin 4) (p : Fin 64) (n : Fin 1024) :
    valY (F := Ideal) s tr q ux uy uz (ix3 b p n)
      = ptsS (fun k => s (ix3 b p k)) (fun k => tr (ix3 b p k)) (fun j => q (ix3 b p j))
          ![ux (ix3 b p n), uy (ix3 b p n), uz (ix3 b p n)] 1 := by
  unfold valY
  rw [pay29_apply, locX_apply, locY_apply, locZ_apply, pay18_apply, pay19_apply, pay25_apply, pay26_apply, pay27_apply]
  rfl

/-- The third coordinate the body stores is the specification's. -/
theorem valZ_apply (s tr : Vec Ideal S4x64x3 .f32) (q : Vec Ideal S4x64x4 .f32) (ux uy uz : Vec Ideal S4x64x1024 .f32)
    (b : Fin 4) (p : Fin 64) (n : Fin 1024) :
    valZ (F := Ideal) s tr q ux uy uz (ix3 b p n)
      = ptsS (fun k => s (ix3 b p k)) (fun k => tr (ix3 b p k)) (fun j => q (ix3 b p j))
          ![ux (ix3 b p n), uy (ix3 b p n), uz (ix3 b p n)] 2 := by
  unfold valZ
  rw [pay30_apply, locX_apply, locY_apply, locZ_apply, pay18_apply, pay19_apply, pay20_apply, pay21_apply]
  rfl

/-! ## The weight -/

/-- The weight vector from the mask words and the three box sizes as [4, 64] vectors: the box's area over its batch's
    total area, floored, times the mask, over the sample count; the same at every sample. -/
theorem pay1_apply (v11 : IVec S4x64 32) (v31 v33 v35 : FVec Ideal S4x64 .f32) (b : Fin 4) (p : Fin 64) (n : Fin 1024) :
    k0_pay1 (F := Ideal) v11 v31 v33 v35 (ix3 b p n)
      = Ideal.div (Ideal.div (cEight * (v31 (ix2 b p) * v33 (ix2 b p) + v33 (ix2 b p) * v35 (ix2 b p) + v35 (ix2 b p) * v31 (ix2 b p)))
            (max (∑ p' : Fin 64, cEight * (v31 (ix2 b p') * v33 (ix2 b p') + v33 (ix2 b p') * v35 (ix2 b p')
              + v35 (ix2 b p') * v31 (ix2 b p'))) cAreaFloor)
          * maskE (v11 (ix2 b p))) cCount := by
  unfold k0_pay1
  refine (broadcastTo_ab1_abc_apply _ _ b p n).trans ?_
  refine (congrFun (shapeCast_self _ _) _).trans ?_
  refine (shapeCast_ab_ab1_apply _ _ b p 0).trans ?_
  refine (divf_apply _ _ _).trans ?_
  refine congrArg (fun x : EReal => Ideal.div x cCount) ?_
  refine (mulf_apply _ _ _).trans ?_
  refine congrArg₂ (fun x y : EReal => x * y) ?_ (mask_word _)
  refine (divf_apply _ _ _).trans ?_
  refine congrArg (Ideal.div _) ?_
  refine (broadcastTo_a1_ab_apply _ _ b p).trans ?_
  refine (maximumf_apply _ _ _).trans ?_
  refine congrArg (fun x : EReal => max x cAreaFloor) ?_
  refine (shapeCast_a_a1_apply _ _ b 0).trans ?_
  exact sumBoxes_apply _ _ _ _ b

/-- The weight the body stores is the specification's. -/
theorem valW_apply (s : Vec Ideal S4x64x3 .f32) (k : Vec Ideal S4x64x1 .i32) (b : Fin 4) (p : Fin 64) (n : Fin 1024) :
    valW (F := Ideal) s k (ix3 b p n) = wS (fun p' j => s (ix3 b p' j)) p (k (ix3 b p 0)) := by
  unfold valW
  rw [pay1_apply]
  simp only [pay10_apply, pay12_apply, pay11_apply, pay13_apply, pay2_apply]
  rfl

end Cert.KernelIdeal.AtIdx

end
-- ==== Proof.SpecArrays.lean ====
import proofs.«404468_j32401233281614_3_alg».proof.Proof.Spec

/-!
# The results as whole arrays

The point array `[64, 64, 1024, 3]` and the weight array `[64, 64, 1024]` as functions of the argument arrays: entry
`(b, p, n, i)` of the points is coordinate `i` of sample `n` of box `p` of batch `b`, rotated and translated; entry
`(b, p, n)` of the weights does not depend on `n`.
-/

noncomputable section

namespace Cert.Spec

open Idealize.ShloMosaic Idealize.ShloMosaic.ValueIdx

/-- The point array, from the half-sizes `a0`, the translations `a1`, the quaternions `a2` and the samples `a5`. -/
def Gpts (a0 a1 : (⟨3, ![64, 64, 3]⟩ : Shape).Idx → EReal) (a2 : (⟨3, ![64, 64, 4]⟩ : Shape).Idx → EReal)
    (a5 : (⟨4, ![64, 64, 1024, 3]⟩ : Shape).Idx → EReal) : (⟨4, ![64, 64, 1024, 3]⟩ : Shape).Idx → EReal := fun j =>
  ptsS (fun k => a0 (ix3 (j 0) (j 1) k)) (fun k => a1 (ix3 (j 0) (j 1) k)) (fun q => a2 (ix3 (j 0) (j 1) q))
    (fun k => a5 (ix4 (j 0) (j 1) (j 2) k)) (j 3)

theorem Gpts_ix (a0 a1 : (⟨3, ![64, 64, 3]⟩ : Shape).Idx → EReal) (a2 : (⟨3, ![64, 64, 4]⟩ : Shape).Idx → EReal)
    (a5 : (⟨4, ![64, 64, 1024, 3]⟩ : Shape).Idx → EReal) (b p : Fin 64) (n : Fin 1024) (i : Fin 3) :
    Gpts a0 a1 a2 a5 (ix4 b p n i)
      = ptsS (fun k => a0 (ix3 b p k)) (fun k => a1 (ix3 b p k)) (fun q => a2 (ix3 b p q)) (fun k => a5 (ix4 b p n k)) i := rfl

/-- The weight array, from the half-sizes `a0` and the mask words `a4`. -/
def Gw (a0 : (⟨3, ![64, 64, 3]⟩ : Shape).Idx → EReal) (a4 : (⟨2, ![64, 64]⟩ : Shape).Idx → BitVec 32) :
    (⟨3, ![64, 64, 1024]⟩ : Shape).Idx → EReal := fun j =>
  wS (fun p' k => a0 (ix3 (j 0) p' k)) (j 1) (a4 (ix2 (j 0) (j 1)))

theorem Gw_ix (a0 : (⟨3, ![64, 64, 3]⟩ : Shape).Idx → EReal) (a4 : (⟨2, ![64, 64]⟩ : Shape).Idx → BitVec 32)
    (b p : Fin 64) (n : Fin 1024) :
    Gw a0 a4 (ix3 b p n) = wS (fun p' k => a0 (ix3 b p' k)) p (a4 (ix2 b p)) := rfl

/-- One coordinate plane of the point array. -/
def Gplane (a0 a1 : (⟨3, ![64, 64, 3]⟩ : Shape).Idx → EReal) (a2 : (⟨3, ![64, 64, 4]⟩ : Shape).Idx → EReal)
    (a5 : (⟨4, ![64, 64, 1024, 3]⟩ : Shape).Idx → EReal) (i : Fin 3) : (⟨3, ![64, 64, 1024]⟩ : Shape).Idx → EReal := fun j =>
  Gpts a0 a1 a2 a5 (ix4 (j 0) (j 1) (j 2) i)

theorem Gplane_ix (a0 a1 : (⟨3, ![64, 64, 3]⟩ : Shape).Idx → EReal) (a2 : (⟨3, ![64, 64, 4]⟩ : Shape).Idx → EReal)
    (a5 : (⟨4, ![64, 64, 1024, 3]⟩ : Shape).Idx → EReal) (i : Fin 3) (b p : Fin 64) (n : Fin 1024) :
    Gplane a0 a1 a2 a5 i (ix3 b p n)
      = ptsS (fun k => a0 (ix3 b p k)) (fun k => a1 (ix3 b p k)) (fun q => a2 (ix3 b p q)) (fun k => a5 (ix4 b p n k)) i := rfl

end Cert.Spec

end
-- ==== Proof.KernelValue.lean ====
import proofs.«404468_j32401233281614_3_alg».proof.Proof.KernelBlocks
import proofs.«404468_j32401233281614_3_alg».proof.Proof.KernelAtIndex
import proofs.«404468_j32401233281614_3_alg».proof.Proof.SpecArrays

/-!
# The region's four output arrays after the run

Point `t` writes back, into batches `4t … 4t+3` of each output array, what the body computed from the same batches of
the inputs; the sixteen blocks cover the array. So each coordinate plane ends holding the sampled points' coordinate,
and the weight array the weights, as functions of the program's arguments.
-/

set_option maxRecDepth 16384

noncomputable section

namespace Cert.KernelIdeal.KVal

open Cert.KernelIdeal Cert.KernelIdeal.Gen Cert.KernelIdeal.Frm Cert.KernelIdeal.Blk Cert.KernelIdeal.AtIdx Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The arguments as launched: half-sizes, translations, quaternions, mask words, samples. -/
abbrev a0 (c : Dev nD) : S64x64x3.Idx → EReal := m ((c : Thread nD τ).loc main_arg0)
abbrev a1 (c : Dev nD) : S64x64x3.Idx → EReal := m ((c : Thread nD τ).loc main_arg1)
abbrev a2 (c : Dev nD) : S64x64x4.Idx → EReal := m ((c : Thread nD τ).loc main_arg2)
abbrev a4 (c : Dev nD) : S64x64.Idx → BitVec 32 := m ((c : Thread nD τ).loc main_arg4)
abbrev a5 (c : Dev nD) : S64x64x1024x3.Idx → EReal := m ((c : Thread nD τ).loc main_arg5)

/-! ## The input blocks at point `t`, as the arguments at batch `4t + b` -/

theorem in_s (c : Dev nD) (t : Fin cfg0.N) (b : Fin 4) (p : Fin 64) :
    (fun k : Fin 3 => (iblk m c 0 t : Vec Ideal S4x64x3 .f32) (ix3 b p k)) = fun k => a0 m c (ix3 (bat t b) p k) :=
  funext fun k => by rw [iblk0_apply, V_main_arg0]

theorem in_t (c : Dev nD) (t : Fin cfg0.N) (b : Fin 4) (p : Fin 64) :
    (fun k : Fin 3 => (iblk m c 1 t : Vec Ideal S4x64x3 .f32) (ix3 b p k)) = fun k => a1 m c (ix3 (bat t b) p k) :=
  funext fun k => by rw [iblk1_apply, V_main_arg1]

theorem in_q (c : Dev nD) (t : Fin cfg0.N) (b : Fin 4) (p : Fin 64) :
    (fun j : Fin 4 => (iblk m c 2 t : Vec Ideal S4x64x4 .f32) (ix3 b p j)) = fun j => a2 m c (ix3 (bat t b) p j) :=
  funext fun j => by rw [iblk2_apply, V_main_arg2]

theorem in_u (c : Dev nD) (t : Fin cfg0.N) (b : Fin 4) (p : Fin 64) (n : Fin 1024) :
    (![(iblk m c 4 t : Vec Ideal S4x64x1024 .f32) (ix3 b p n), (iblk m c 5 t : Vec Ideal S4x64x1024 .f32) (ix3 b p n),
        (iblk m c 6 t : Vec Ideal S4x64x1024 .f32) (ix3 b p n)] : Fin 3 → EReal) = fun k => a5 m c (ix4 (bat t b) p n k) :=
  funext fun k => by
    match k with
    | ⟨0, _⟩ => show (iblk m c 4 t : Vec Ideal S4x64x1024 .f32) (ix3 b p n) = _; rw [iblk4_apply, V_v2_apply]; rfl
    | ⟨1, _⟩ => show (iblk m c 5 t : Vec Ideal S4x64x1024 .f32) (ix3 b p n) = _; rw [iblk5_apply, V_v4_apply]; rfl
    | ⟨2, _⟩ => show (iblk m c 6 t : Vec Ideal S4x64x1024 .f32) (ix3 b p n) = _; rw [iblk6_apply, V_v6_apply]; rfl

theorem in_batch (c : Dev nD) (t : Fin cfg0.N) (b : Fin 4) :
    (fun (p' : Fin 64) (j : Fin 3) => (iblk m c 0 t : Vec Ideal S4x64x3 .f32) (ix3 b p' j)) = fun p' j => a0 m c (ix3 (bat t b) p' j) :=
  funext fun p' => funext fun j => by rw [iblk0_apply, V_main_arg0]

theorem in_k (c : Dev nD) (t : Fin cfg0.N) (b : Fin 4) (p : Fin 64) :
    (iblk m c 3 t : Vec Ideal S4x64x1 .i32) (ix3 b p (0 : Fin 1)) = a4 m c (ix2 (bat t b) p) := by
  rw [iblk3_apply, V_v0_apply]

/-! ## What each point writes back -/

/-- Point `t` writes back block `t` of coordinate plane 0 of the point array. -/
theorem flushed7_eq (c : Dev nD) (t : Fin cfg0.N) :
    (dats m 0 c).flushed 7 t = ((cfg0.win 7).blk t).view.read (Elt Ideal) (Gplane (a0 m c) (a1 m c) (a2 m c) (a5 m c) 0) := by
  show (cfg0.win 7).cut (grid0.coords t) ((dats m 0 c).after 7 t) = _
  rw [after7]
  unfold outX
  rw [View.canon_unit_zero hz3]
  simp only [View.ld_unit_zero (S := S4x64x3) hz3, View.ld_unit_zero (S := S4x64x4) hz3, View.ld_unit_zero (S := S4x64x1024) hz3]
  funext j
  obtain ⟨b, p, n, rfl⟩ : ∃ (b : Fin 4) (p : Fin 64) (n : Fin 1024), j = ix3 b p n := ⟨j 0, j 1, j 2, eq_ix3 j⟩
  rw [View.read_apply, emb7, Gplane_ix]
  refine (valX_apply _ _ _ _ _ _ b p n).trans ?_
  rw [in_s, in_t, in_q, in_u]
  rfl

/-- So plane 0 ends holding the sampled points' coordinate 0. -/
theorem final7 (c : Dev nD) : (dats m 0 c).arrAt 7 cfg0.N = Gplane (a0 m c) (a1 m c) (a2 m c) (a5 m c) 0 :=
  (dats m 0 c).arrAt_eq_of_cover 7 _ (fun t _ => flushed7_eq m c t) cover7

/-- Point `t` writes back block `t` of coordinate plane 1 of the point array. -/
theorem flushed8_eq (c : Dev nD) (t : Fin cfg0.N) :
    (dats m 0 c).flushed 8 t = ((cfg0.win 8).blk t).view.read (Elt Ideal) (Gplane (a0 m c) (a1 m c) (a2 m c) (a5 m c) 1) := by
  show (cfg0.win 8).cut (grid0.coords t) ((dats m 0 c).after 8 t) = _
  rw [after8]
  unfold outY
  rw [View.canon_unit_zero hz3]
  simp only [View.ld_unit_zero (S := S4x64x3) hz3, View.ld_unit_zero (S := S4x64x4) hz3, View.ld_unit_zero (S := S4x64x1024) hz3]
  funext j
  obtain ⟨b, p, n, rfl⟩ : ∃ (b : Fin 4) (p : Fin 64) (n : Fin 1024), j = ix3 b p n := ⟨j 0, j 1, j 2, eq_ix3 j⟩
  rw [View.read_apply, emb8, Gplane_ix]
  refine (valY_apply _ _ _ _ _ _ b p n).trans ?_
  rw [in_s, in_t, in_q, in_u]
  rfl

/-- So plane 1 ends holding the sampled points' coordinate 1. -/
theorem final8 (c : Dev nD) : (dats m 0 c).arrAt 8 cfg0.N = Gplane (a0 m c) (a1 m c) (a2 m c) (a5 m c) 1 :=
  (dats m 0 c).arrAt_eq_of_cover 8 _ (fun t _ => flushed8_eq m c t) cover8

/-- Point `t` writes back block `t` of coordinate plane 2 of the point array. -/
theorem flushed9_eq (c : Dev nD) (t : Fin cfg0.N) :
    (dats m 0 c).flushed 9 t = ((cfg0.win 9).blk t).view.read (Elt Ideal) (Gplane (a0 m c) (a1 m c) (a2 m c) (a5 m c) 2) := by
  show (cfg0.win 9).cut (grid0.coords t) ((dats m 0 c).after 9 t) = _
  rw [after9]
  unfold outZ
  rw [View.canon_unit_zero hz3]
  simp only [View.ld_unit_zero (S := S4x64x3) hz3, View.ld_unit_zero (S := S4x64x4) hz3, View.ld_unit_zero (S := S4x64x1024) hz3]
  funext j
  obtain ⟨b, p, n, rfl⟩ : ∃ (b : Fin 4) (p : Fin 64) (n : Fin 1024), j = ix3 b p n := ⟨j 0, j 1, j 2, eq_ix3 j⟩
  rw [View.read_apply, emb9, Gplane_ix]
  refine (valZ_apply _ _ _ _ _ _ b p n).trans ?_
  rw [in_s, in_t, in_q, in_u]
  rfl

/-- So plane 2 ends holding the sampled points' coordinate 2. -/
theorem final9 (c : Dev nD) : (dats m 0 c).arrAt 9 cfg0.N = Gplane (a0 m c) (a1 m c) (a2 m c) (a5 m c) 2 :=
  (dats m 0 c).arrAt_eq_of_cover 9 _ (fun t _ => flushed9_eq m c t) cover9

/-- Point `t` writes back block `t` of the weight array. -/
theorem flushed10_eq (c : Dev nD) (t : Fin cfg0.N) :
    (dats m 0 c).flushed 10 t = ((cfg0.win 10).blk t).view.read (Elt Ideal) (Gw (a0 m c) (a4 m c)) := by
  show (cfg0.win 10).cut (grid0.coords t) ((dats m 0 c).after 10 t) = _
  rw [after10]
  unfold outW
  rw [View.canon_unit_zero hz3]
  simp only [View.ld_unit_zero (S := S4x64x3) hz3, View.ld_unit_zero (S := S4x64x1) hz3]
  funext j
  obtain ⟨b, p, n, rfl⟩ : ∃ (b : Fin 4) (p : Fin 64) (n : Fin 1024), j = ix3 b p n := ⟨j 0, j 1, j 2, eq_ix3 j⟩
  rw [View.read_apply, emb10, Gw_ix]
  refine (valW_apply _ _ b p n).trans ?_
  rw [in_batch, in_k]
  rfl

/-- So the weight array ends holding the weights. -/
theorem final10 (c : Dev nD) : (dats m 0 c).arrAt 10 cfg0.N = Gw (a0 m c) (a4 m c) :=
  (dats m 0 c).arrAt_eq_of_cover 10 _ (fun t _ => flushed10_eq m c t) cover10

end Cert.KernelIdeal.KVal

end
-- ==== Proof.LibNary3.lean ====
import Idealize.ShloMosaic.Lib.StableHlo.Run

/-!
# An operation over a literal family of three references

`StableHlo.nary` over a literal family `![x, a, b]` — a concatenate of three operands — leaves in its result buffer its
function applied to the three operands' contents, each read at its own reference: the family of contents is
`Fin.cons (F ↑x) (Fin.cons (F ↑a) (Fin.cons (F ↑b) _))`, which is `fun k => F ↑(![x, a, b] k)` entry by entry. The library
states this for four references (`StableHlo.nary4_result`); this is the same statement for three.
-/

noncomputable section

namespace Idealize.ShloMosaic.StableHlo

variable {τ : Topo} {sig : RefSig} {Val : EltTy → Type}
variable {x a b y : Ref sig .tc}

/-- The result of an operation over three literal references, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same equation, its left side not keyed on the result reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.Tail.lean ====
import proofs.«404468_j32401233281614_3_alg».proof.Proof.KIFrame
import proofs.«404468_j32401233281614_3_alg».proof.Proof.LibNary3
import Idealize.ShloMosaic.Lib.StableHlo.Run
import Idealize.ShloMosaic.Lib.Pipeline.FrameSuffix

/-!
# The host lines after the region, read as values

After the region the program stacks the three coordinate planes into the point array, and then looks every point up
in the voxel field: a point is shifted by one half and scaled by 32, truncated to an integer cell and clamped to
`[0, 31]` per coordinate; the three cell coordinates are linearized (`(x * 32 + y) * 32 + z`), the voxel field
`[64, 32, 32, 32, 3]` is read as `[64, 32768, 3]` and gathered along its second axis at the linear cell (a negative
index wrapped once, an index still out of range answered by the not-a-number word), and where a box's mask word is
one the looked-up vector replaces the point.

`stack3` is the stacking and `tailF` the lookup, as functions of the arrays they read; `tailF` is the composition of
the stages `cellOf`, `linearOf`, `lookupOf`, each a function of the value the stage before it leaves. The lines are cut
where one stage ends, each cut is read as its stage applied to the buffers it finds, and the two theorems at the end
say that the program's buffers `main_v11` and `main_v37` end at `stack3` and `tailF` of the region's three coordinate
arrays, the voxel field and the mask. `tailF` is the same sixty operations the reference program ends with.
-/

set_option maxRecDepth 16384

noncomputable section

namespace Cert.KernelIdeal.Tail

open Cert.KernelIdeal Cert.KernelIdeal.Gen Cert.KernelIdeal.Frm
open Idealize.ShloMosaic Idealize.ShloMosaic.TcCoe Idealize.ShloMosaic.StableHlo
open Idealize.SL.Sem
open Idealize.ShloMosaic.Pipeline (Dat)

variable {F : FTy → Type} [FloatOps F]

/-! ## The stages -/

/-- The three coordinate planes stacked along a new last axis: each plane read as `[64, 64, 1024, 1]`, the three
    concatenated along axis 3. -/
def stack3 (X Y Z : (⟨S64x64x1024, .f32⟩ : BufTy).Contents (Elt F)) : (⟨S64x64x1024x3, .f32⟩ : BufTy).Contents (Elt F) :=
  concatenate S64x64x1024x3 3
    [⟨S64x64x1024x1, (broadcastInDim S64x64x1024x1 ![0, 1, 2] bcast_S64x64x1024_S64x64x1024x1_0_1_2 X : (⟨S64x64x1024x1, .f32⟩ : BufTy).Contents (Elt F))⟩,
     ⟨S64x64x1024x1, (broadcastInDim S64x64x1024x1 ![0, 1, 2] bcast_S64x64x1024_S64x64x1024x1_0_1_2 Y : (⟨S64x64x1024x1, .f32⟩ : BufTy).Contents (Elt F))⟩,
     ⟨S64x64x1024x1, (broadcastInDim S64x64x1024x1 ![0, 1, 2] bcast_S64x64x1024_S64x64x1024x1_0_1_2 Z : (⟨S64x64x1024x1, .f32⟩ : BufTy).Contents (Elt F))⟩]
    concatenates_S64x64x1024x1_S64x64x1024x1_S64x64x1024x1_S64x64x1024x3_d3

/-- The voxel cell of every point, per coordinate: the point shifted by one half and scaled by 32, truncated to an
    integer and clamped to `[0, 31]`. -/
def cellOf (P : (⟨S64x64x1024x3, .f32⟩ : BufTy).Contents (Elt F)) : (⟨S64x64x1024x3, .i32⟩ : BufTy).Contents (Elt F) :=
  minsi (broadcastInDim S64x64x1024x3 ![] bcast_S_S64x64x1024x3 (id (constantI S_ 32 31#32 : (⟨S_, .i32⟩ : BufTy).Contents (Elt F))))
    (maxsi (broadcastInDim S64x64x1024x3 ![] bcast_S_S64x64x1024x3 (id (constantI S_ 32 0#32 : (⟨S_, .i32⟩ : BufTy).Contents (Elt F))))
      (fptosi 32
        (mulf (addf P (broadcastInDim S64x64x1024x3 ![] bcast_S_S64x64x1024x3 (constant S_ .f32 0x3F000000#32 : (⟨S_, .f32⟩ : BufTy).Contents (Elt F))))
          (broadcastInDim S64x64x1024x3 ![] bcast_S_S64x64x1024x3 (constant S_ .f32 0x42000000#32 : (⟨S_, .f32⟩ : BufTy).Contents (Elt F))))))

/-- Coordinate 0 of a cell array, as `[64, 64, 1024]`. -/
def coordX (K : (⟨S64x64x1024x3, .i32⟩ : BufTy).Contents (Elt F)) : (⟨S64x64x1024, .i32⟩ : BufTy).Contents (Elt F) :=
  shapeCast _ (extractStridedSlice S64x64x1024x1 ![0, 0, 0, 0] K slices_S64x64x1024x3_S64x64x1024x1_0_0_0_0 : (⟨S64x64x1024x1, .i32⟩ : BufTy).Contents (Elt F)) shapeCasts_S64x64x1024x1_S64x64x1024
/-- Coordinate 1 of a cell array. -/
def coordY (K : (⟨S64x64x1024x3, .i32⟩ : BufTy).Contents (Elt F)) : (⟨S64x64x1024, .i32⟩ : BufTy).Contents (Elt F) :=
  shapeCast _ (extractStridedSlice S64x64x1024x1 ![0, 0, 0, 1] K slices_S64x64x1024x3_S64x64x1024x1_0_0_0_1 : (⟨S64x64x1024x1, .i32⟩ : BufTy).Contents (Elt F)) shapeCasts_S64x64x1024x1_S64x64x1024
/-- Coordinate 2 of a cell array. -/
def coordZ (K : (⟨S64x64x1024x3, .i32⟩ : BufTy).Contents (Elt F)) : (⟨S64x64x1024, .i32⟩ : BufTy).Contents (Elt F) :=
  shapeCast _ (extractStridedSlice S64x64x1024x1 ![0, 0, 0, 2] K slices_S64x64x1024x3_S64x64x1024x1_0_0_0_2 : (⟨S64x64x1024x1, .i32⟩ : BufTy).Contents (Elt F)) shapeCasts_S64x64x1024x1_S64x64x1024

/-- The linear cell `(x * 32 + y) * 32 + z` of a cell array, as `[64, 65536, 1]`. -/
def linearOf (K : (⟨S64x64x1024x3, .i32⟩ : BufTy).Contents (Elt F)) : (⟨S64x65536x1, .i32⟩ : BufTy).Contents (Elt F) :=
  shapeCast _
    (addi
      (muli
        (addi (muli (coordX K) (broadcastInDim S64x64x1024 ![] bcast_S_S64x64x1024 (constantI S_ 32 32#32 : (⟨S_, .i32⟩ : BufTy).Contents (Elt F))))
          (coordY K))
        (broadcastInDim S64x64x1024 ![] bcast_S_S64x64x1024 (constantI S_ 32 32#32 : (⟨S_, .i32⟩ : BufTy).Contents (Elt F))))
      (coordZ K) : (⟨S64x64x1024, .i32⟩ : BufTy).Contents (Elt F))
    shapeCasts_S64x64x1024_S64x65536x1

/-- A linear cell with a negative value wrapped once around the axis of 32768 cells. -/
def wrapOf (L : (⟨S64x65536x1, .i32⟩ : BufTy).Contents (Elt F)) : (⟨S64x65536x1, .i32⟩ : BufTy).Contents (Elt F) :=
  select
    (cmpi .slt L (broadcastInDim S64x65536x1 ![] bcast_S_S64x65536x1 (constantI S_ 32 0#32 : (⟨S_, .i32⟩ : BufTy).Contents (Elt F))))
    (addi L (broadcastInDim S64x65536x1 ![] bcast_S_S64x65536x1 (constantI S_ 32 32768#32 : (⟨S_, .i32⟩ : BufTy).Contents (Elt F))))
    L

/-- Whether a wrapped cell lies in `[0, 32767]`. -/
def inRangeOf (Wd : (⟨S64x65536x1, .i32⟩ : BufTy).Contents (Elt F)) : (⟨S64x65536, .i1⟩ : BufTy).Contents (Elt F) :=
  Host.reduce IntOp.andi
    (andi
      (cmpi .sge Wd (broadcastInDim S64x65536x1 ![] bcast_S_S64x65536x1 (constantI S_ 32 0#32 : (⟨S_, .i32⟩ : BufTy).Contents (Elt F))))
      (cmpi .sle Wd
        (broadcastInDim S64x65536x1 ![0, 1, 2] bcast_S1x1x1_S64x65536x1_0_1_2
          (broadcastInDim S1x1x1 ![2] bcast_S1_S1x1x1_2 (constantI S1 32 32767#32 : (⟨S1, .i32⟩ : BufTy).Contents (Elt F)) : (⟨S1x1x1, .i32⟩ : BufTy).Contents (Elt F)))))
    (constantI S_ 1 1#1 : (⟨S_, .i1⟩ : BufTy).Contents (Elt F)) reducesTo_S64x65536x1_S64x65536_d2 h_S_

/-- The voxel field `vox` (as `[64, 32768, 3]`) gathered along its second axis at the linear cells `L`: its vector at the
    wrapped cell, the not-a-number word where the wrapped cell is out of range. -/
def lookupOf (vox : (⟨S64x32768x3, .f32⟩ : BufTy).Contents (Elt F)) (L : (⟨S64x65536x1, .i32⟩ : BufTy).Contents (Elt F)) : (⟨S64x65536x3, .f32⟩ : BufTy).Contents (Elt F) :=
  select (broadcastInDim S64x65536x3 ![0, 1] bcast_S64x65536_S64x65536x3_0_1 (inRangeOf (wrapOf L)))
    (Host.gather gather_S64x32768x3_S64x65536x1_S64x65536x3_2_1_0_0_1_2_113 vox (wrapOf L))
    (broadcastInDim S64x65536x3 ![] bcast_S_S64x65536x3 (constant S_ .f32 0x7FC00000#32 : (⟨S_, .f32⟩ : BufTy).Contents (Elt F)))

/-- Where the mask word is one, as `[64, 64, 1, 1]`. -/
def maskOf (io : (⟨S64x64, .i32⟩ : BufTy).Contents (Elt F)) : (⟨S64x64x1x1, .i1⟩ : BufTy).Contents (Elt F) :=
  broadcastInDim S64x64x1x1 ![0, 1] bcast_S64x64_S64x64x1x1_0_1
    (cmpi .eq io (broadcastInDim S64x64 ![] bcast_S_S64x64 (constantI S_ 32 1#32 : (⟨S_, .i32⟩ : BufTy).Contents (Elt F))) : (⟨S64x64, .i1⟩ : BufTy).Contents (Elt F))

/-- The choice the last line makes: where the mask is set the looked-up vectors `Lk`, elsewhere the points `P`. -/
def chooseOf (Mk : (⟨S64x64x1x1, .i1⟩ : BufTy).Contents (Elt F)) (Lk : (⟨S64x64x1024x3, .f32⟩ : BufTy).Contents (Elt F)) (P : (⟨S64x64x1024x3, .f32⟩ : BufTy).Contents (Elt F)) : (⟨S64x64x1024x3, .f32⟩ : BufTy).Contents (Elt F) :=
  select (broadcastInDim S64x64x1024x3 ![0, 1, 2, 3] bcast_S64x64x1x1_S64x64x1024x3_0_1_2_3 Mk) Lk P

/-- The sixty host operations both programs end with, as one function of the point array `P`, the voxel field `cp` and
    the mask `io`: where the mask word is one the voxel field's vector at the point's cell, elsewhere the point. -/
def tailF (P : (⟨S64x64x1024x3, .f32⟩ : BufTy).Contents (Elt F)) (cp : (⟨S64x32x32x32x3, .f32⟩ : BufTy).Contents (Elt F)) (io : (⟨S64x64, .i32⟩ : BufTy).Contents (Elt F)) : (⟨S64x64x1024x3, .f32⟩ : BufTy).Contents (Elt F) :=
  chooseOf (maskOf io)
    (shapeCast _ (lookupOf (shapeCast _ cp shapeCasts_S64x32x32x32x3_S64x32768x3) (linearOf (cellOf P))) shapeCasts_S64x65536x3_S64x64x1024x3)
    P

/-! ## The lines, cut stage by stage -/

/-- The lines after the region in five cuts: the stacking, the cells, the linear cells, the lookup, the choice. -/
theorem sfx_cut : (sfx (F := F)).flatten
    = List.take 4 hostOps1 ++ ((List.drop 4 hostOps1 ++ hostOps1_1) ++ (hostOps1_2 ++ (hostOps1_3 ++ (hostOps1_4 ++ hostOps1_5)))) := rfl

/-- The stacking writes the point array from the three coordinate arrays. -/
theorem stack_v11 (W : Valuation τ sig (Elt F)) :
    StableHlo.after (List.take 4 (hostOps1 (F := F))) W (Proc.devRef .tc main_v11)
      = stack3 (W (Proc.devRef .tc main_v7_0)) (W (Proc.devRef .tc main_v7_1)) (W (Proc.devRef .tc main_v7_2)) := by
  simp only [hostOps1, List.take_succ_cons, List.take_zero]
  simp only [after_cons, after_nil]
  rw [nary3_result]
  repeat (first | rw [unary_result] | (rw [unary_result_ne]; rotate_left; decide))
  rfl

/-- The stacking writes its own four results only. -/
theorem stack_keeps (W : Valuation τ sig (Elt F)) (b : Ref sig .tc)
    (h8 : b ≠ main_v8) (h9 : b ≠ main_v9) (h10 : b ≠ main_v10) (h11 : b ≠ main_v11) :
    StableHlo.after (List.take 4 (hostOps1 (F := F))) W (Proc.devRef .tc b) = W (Proc.devRef .tc b) := by
  simp only [hostOps1, List.take_succ_cons, List.take_zero]
  simp only [after_cons, after_nil]
  rw [nary_result_ne _ _ _ _ _ _ h11, unary_result_ne _ _ _ _ _ _ h10, unary_result_ne _ _ _ _ _ _ h9, unary_result_ne _ _ _ _ _ _ h8]

/-- The next fifteen lines leave the cells of the points they find in `main_v11`. -/
theorem cell_v17 (W : Valuation τ sig (Elt F)) :
    StableHlo.after (List.drop 4 (hostOps1 (F := F)) ++ hostOps1_1) W (Proc.devRef .tc main_v17) = cellOf (W (Proc.devRef .tc main_v11)) := by
  simp only [hostOps1, hostOps1_1, List.drop_succ_cons, List.drop_zero, List.cons_append, List.nil_append]
  after_results_simp
  simp only [TRef.ofBuf, TRef.toBuf, cast_eq]
  rfl

/-- Those fifteen lines write neither the point array, nor the voxel field, nor the mask. -/
theorem cell_keeps_v11 (W : Valuation τ sig (Elt F)) :
    StableHlo.after (List.drop 4 (hostOps1 (F := F)) ++ hostOps1_1) W (Proc.devRef .tc main_v11) = W (Proc.devRef .tc main_v11) := by
  simp only [hostOps1, hostOps1_1, List.drop_succ_cons, List.drop_zero, List.cons_append, List.nil_append]
  after_results_simp
theorem cell_keeps_arg3 (W : Valuation τ sig (Elt F)) :
    StableHlo.after (List.drop 4 (hostOps1 (F := F)) ++ hostOps1_1) W (Proc.devRef .tc main_arg3) = W (Proc.devRef .tc main_arg3) := by
  simp only [hostOps1, hostOps1_1, List.drop_succ_cons, List.drop_zero, List.cons_append, List.nil_append]
  after_results_simp
theorem cell_keeps_arg4 (W : Valuation τ sig (Elt F)) :
    StableHlo.after (List.drop 4 (hostOps1 (F := F)) ++ hostOps1_1) W (Proc.devRef .tc main_arg4) = W (Proc.devRef .tc main_arg4) := by
  simp only [hostOps1, hostOps1_1, List.drop_succ_cons, List.drop_zero, List.cons_append, List.nil_append]
  after_results_simp

/-- The next sixteen lines leave the linear cells of the cells they find in `main_v17`, and the voxel field reshaped. -/
theorem linear_v31 (W : Valuation τ sig (Elt F)) :
    StableHlo.after (hostOps1_2 (F := F)) W (Proc.devRef .tc main_v31) = linearOf (W (Proc.devRef .tc main_v17)) := by
  simp only [hostOps1_2]
  after_results_simp
  rfl
theorem linear_v30 (W : Valuation τ sig (Elt F)) :
    StableHlo.after (hostOps1_2 (F := F)) W (Proc.devRef .tc main_v30)
      = shapeCast _ (W (Proc.devRef .tc main_arg3)) shapeCasts_S64x32x32x32x3_S64x32768x3 := by
  simp only [hostOps1_2]
  after_results_simp
  rfl
theorem linear_keeps_v11 (W : Valuation τ sig (Elt F)) :
    StableHlo.after (hostOps1_2 (F := F)) W (Proc.devRef .tc main_v11) = W (Proc.devRef .tc main_v11) := by
  simp only [hostOps1_2]
  after_results_simp
theorem linear_keeps_arg4 (W : Valuation τ sig (Elt F)) :
    StableHlo.after (hostOps1_2 (F := F)) W (Proc.devRef .tc main_arg4) = W (Proc.devRef .tc main_arg4) := by
  simp only [hostOps1_2]
  after_results_simp

/-- The lookup's twenty-two lines in three cuts: the wrapped cell, the range test, the gather and its choice. -/
theorem lookup_cut : (hostOps1_3 (F := F))
    = List.take 7 hostOps1_3 ++ (List.take 10 (List.drop 7 hostOps1_3) ++ List.drop 17 hostOps1_3) := rfl

/-- Seven lines wrap the linear cell they find in `main_v31`. -/
theorem wrap_v4 (W : Valuation τ sig (Elt F)) :
    StableHlo.after (List.take 7 (hostOps1_3 (F := F))) W (Proc.devRef .tc main_call1_v4) = wrapOf (W (Proc.devRef .tc main_v31)) := by
  simp only [hostOps1_3, List.take_succ_cons, List.take_zero]
  after_results_simp
  rfl
theorem wrap_keeps_v30 (W : Valuation τ sig (Elt F)) :
    StableHlo.after (List.take 7 (hostOps1_3 (F := F))) W (Proc.devRef .tc main_v30) = W (Proc.devRef .tc main_v30) := by
  simp only [hostOps1_3, List.take_succ_cons, List.take_zero]
  after_results_simp

/-- Ten lines test the wrapped cell they find in `main_call1_v4` against `[0, 32767]`. -/
theorem range_v11 (W : Valuation τ sig (Elt F)) :
    StableHlo.after (List.take 10 (List.drop 7 (hostOps1_3 (F := F)))) W (Proc.devRef .tc main_call1_v11) = inRangeOf (W (Proc.devRef .tc main_call1_v4)) := by
  simp only [hostOps1_3, List.take_succ_cons, List.take_zero, List.drop_succ_cons, List.drop_zero]
  after_results_simp
  refine (cast_eq _ _).trans ?_
  rfl
theorem range_keeps_v30 (W : Valuation τ sig (Elt F)) :
    StableHlo.after (List.take 10 (List.drop 7 (hostOps1_3 (F := F)))) W (Proc.devRef .tc main_v30) = W (Proc.devRef .tc main_v30) := by
  simp only [hostOps1_3, List.take_succ_cons, List.take_zero, List.drop_succ_cons, List.drop_zero]
  after_results_simp
theorem range_keeps_v4 (W : Valuation τ sig (Elt F)) :
    StableHlo.after (List.take 10 (List.drop 7 (hostOps1_3 (F := F)))) W (Proc.devRef .tc main_call1_v4) = W (Proc.devRef .tc main_call1_v4) := by
  simp only [hostOps1_3, List.take_succ_cons, List.take_zero, List.drop_succ_cons, List.drop_zero]
  after_results_simp

/-- Five lines gather the voxel field at the wrapped cell and answer the not-a-number word where the test failed. -/
theorem gather_v32 (W : Valuation τ sig (Elt F)) :
    StableHlo.after (List.drop 17 (hostOps1_3 (F := F))) W (Proc.devRef .tc main_v32)
      = select (broadcastInDim S64x65536x3 ![0, 1] bcast_S64x65536_S64x65536x3_0_1 (W (Proc.devRef .tc main_call1_v11)))
          (Host.gather gather_S64x32768x3_S64x65536x1_S64x65536x3_2_1_0_0_1_2_113 (W (Proc.devRef .tc main_v30)) (W (Proc.devRef .tc main_call1_v4)))
          (broadcastInDim S64x65536x3 ![] bcast_S_S64x65536x3 (constant S_ .f32 0x7FC00000#32 : (⟨S_, .f32⟩ : BufTy).Contents (Elt F))) := by
  simp only [hostOps1_3, List.drop_succ_cons, List.drop_zero]
  after_results_simp
  rfl

/-- The next twenty-two lines leave the lookup of the reshaped voxel field at the linear cells. -/
theorem lookup_v32 (W : Valuation τ sig (Elt F)) :
    StableHlo.after (hostOps1_3 (F := F)) W (Proc.devRef .tc main_v32)
      = lookupOf (W (Proc.devRef .tc main_v30)) (W (Proc.devRef .tc main_v31)) := by
  rw [lookup_cut, StableHlo.after_append, StableHlo.after_append, gather_v32, range_v11, range_keeps_v30, range_keeps_v4, wrap_v4, wrap_keeps_v30]
  rfl
theorem lookup_keeps_v11 (W : Valuation τ sig (Elt F)) :
    StableHlo.after (hostOps1_3 (F := F)) W (Proc.devRef .tc main_v11) = W (Proc.devRef .tc main_v11) := by
  simp only [hostOps1_3]
  after_results_simp
theorem lookup_keeps_arg4 (W : Valuation τ sig (Elt F)) :
    StableHlo.after (hostOps1_3 (F := F)) W (Proc.devRef .tc main_arg4) = W (Proc.devRef .tc main_arg4) := by
  simp only [hostOps1_3]
  after_results_simp

/-- The last seven lines choose, by the mask, between the lookup reshaped to the points' shape and the points. -/
theorem choose_v37 (W : Valuation τ sig (Elt F)) :
    StableHlo.after (hostOps1_4 (F := F) ++ hostOps1_5) W (Proc.devRef .tc main_v37)
      = chooseOf (maskOf (W (Proc.devRef .tc main_arg4)))
          (shapeCast _ (W (Proc.devRef .tc main_v32)) shapeCasts_S64x65536x3_S64x64x1024x3) (W (Proc.devRef .tc main_v11)) := by
  simp only [hostOps1_4, hostOps1_5, List.cons_append, List.nil_append]
  after_results_simp
  refine (cast_eq _ _).trans ?_
  rfl

/-- No line after the stacking writes the point array. -/
theorem after_stack_v11 (W : Valuation τ sig (Elt F)) :
    StableHlo.after ((List.drop 4 (hostOps1 (F := F)) ++ hostOps1_1) ++ (hostOps1_2 ++ (hostOps1_3 ++ (hostOps1_4 ++ hostOps1_5)))) W (Proc.devRef .tc main_v11)
      = W (Proc.devRef .tc main_v11) := by
  simp only [hostOps1, hostOps1_1, hostOps1_2, hostOps1_3, hostOps1_4, hostOps1_5, List.drop_succ_cons, List.drop_zero, List.cons_append, List.nil_append]
  after_results_simp

/-- The sixty lines after the stacking leave in `main_v37` the lookup of the point array they find in `main_v11`. -/
theorem after_stack_v37 (W : Valuation τ sig (Elt F)) :
    StableHlo.after ((List.drop 4 (hostOps1 (F := F)) ++ hostOps1_1) ++ (hostOps1_2 ++ (hostOps1_3 ++ (hostOps1_4 ++ hostOps1_5)))) W (Proc.devRef .tc main_v37)
      = tailF (W (Proc.devRef .tc main_v11)) (W (Proc.devRef .tc main_arg3)) (W (Proc.devRef .tc main_arg4)) := by
  rw [StableHlo.after_append, StableHlo.after_append, StableHlo.after_append, choose_v37, lookup_v32, lookup_keeps_v11, lookup_keeps_arg4,
    linear_v31, linear_v30, linear_keeps_v11, linear_keeps_arg4, cell_v17, cell_keeps_v11, cell_keeps_arg3, cell_keeps_arg4]
  rfl

/-! ## The two results -/

section Results

variable (m : (ℓ : Loc nD τ sig) → Buf (Elt F) ℓ)
  (dats : (p : Fin 1) → (c : Dev nD) → Pipeline.Dat τ (Elt F) Unit ℕ (UR sig nD τ) ℕ (cfgs p) c) (c : Dev nD)

/-- What the later lines find in the region's first coordinate array: what the region left there. -/
theorem found_v7_0 :
    Pipeline.withArrays (cfgs 0).spec c (V0 m c) (fun w => (dats 0 c).arrAt w (cfgs 0).N) (Proc.devRef .tc main_v7_0) = (dats 0 c).arrAt 7 cfg0.N :=
  Pipeline.withArrays_arr spec0 launch0.win.arr_inj c (V0 m c) (fun w => (dats 0 c).arrAt w cfg0.N) 7
/-- The same for the second coordinate array. -/
theorem found_v7_1 :
    Pipeline.withArrays (cfgs 0).spec c (V0 m c) (fun w => (dats 0 c).arrAt w (cfgs 0).N) (Proc.devRef .tc main_v7_1) = (dats 0 c).arrAt 8 cfg0.N :=
  Pipeline.withArrays_arr spec0 launch0.win.arr_inj c (V0 m c) (fun w => (dats 0 c).arrAt w cfg0.N) 8
/-- The same for the third coordinate array. -/
theorem found_v7_2 :
    Pipeline.withArrays (cfgs 0).spec c (V0 m c) (fun w => (dats 0 c).arrAt w (cfgs 0).N) (Proc.devRef .tc main_v7_2) = (dats 0 c).arrAt 9 cfg0.N :=
  Pipeline.withArrays_arr spec0 launch0.win.arr_inj c (V0 m c) (fun w => (dats 0 c).arrAt w cfg0.N) 9
/-- The voxel field is no array of the region and no line before the region writes it: the later lines find it as launched. -/
theorem found_arg3 :
    Pipeline.withArrays (cfgs 0).spec c (V0 m c) (fun w => (dats 0 c).arrAt w (cfgs 0).N) (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
/-- The same for the mask. -/
theorem found_arg4 :
    Pipeline.withArrays (cfgs 0).spec c (V0 m c) (fun w => (dats 0 c).arrAt w (cfgs 0).N) (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

/-- After the run `main_v11` holds the region's three coordinate arrays stacked. -/
theorem tail_v11 :
    Pipeline.afterTail₀ cfgs dats 0 (Frm.V0 m) Frm.sfx c main_v11
      = stack3 ((dats 0 c).arrAt 7 cfg0.N) ((dats 0 c).arrAt 8 cfg0.N) ((dats 0 c).arrAt 9 cfg0.N) := by
  unfold Pipeline.afterTail₀
  rw [sfx_cut, StableHlo.after_append, after_stack_v11, stack_v11, found_v7_0, found_v7_1, found_v7_2]

/-- After the run `main_v37` holds the lookup of those stacked points in the voxel field, chosen by the mask. -/
theorem tail_v37 :
    Pipeline.afterTail₀ cfgs dats 0 (Frm.V0 m) Frm.sfx c main_v37
      = tailF (stack3 ((dats 0 c).arrAt 7 cfg0.N) ((dats 0 c).arrAt 8 cfg0.N) ((dats 0 c).arrAt 9 cfg0.N))
          (m ((c : Thread nD τ).loc main_arg3)) (m ((c : Thread nD τ).loc main_arg4)) := by
  unfold Pipeline.afterTail₀
  rw [sfx_cut, StableHlo.after_append, after_stack_v37, stack_v11,
    stack_keeps _ main_arg3 (by decide) (by decide) (by decide) (by decide),
    stack_keeps _ main_arg4 (by decide) (by decide) (by decide) (by decide),
    found_v7_0, found_v7_1, found_v7_2, found_arg3, found_arg4]

end Results

end Cert.KernelIdeal.Tail

end
-- ==== Proof.KernelResult.lean ====
import proofs.«404468_j32401233281614_3_alg».proof.Proof.KernelValue
import proofs.«404468_j32401233281614_3_alg».proof.Proof.Tail
import proofs.«404468_j32401233281614_3_alg».proof.Proof.SpecArrays

/-!
# The kernel program's run, read as values

After the region the three coordinate planes are stacked into the point array, and the later host lines look the points
up in the voxel field. With each plane and the weight array known as functions of the arguments, the program's three
results are: the point array `Gpts`, the weight array `Gw`, and the shared later lines applied to `Gpts`.
-/

set_option maxRecDepth 16384

noncomputable section

namespace Cert.KernelIdeal.Result

open Cert.KernelIdeal Cert.KernelIdeal.Gen Cert.KernelIdeal.Frm Cert.KernelIdeal.KVal Cert.Spec
open Idealize.ShloMosaic Idealize.ShloMosaic.TcCoe Idealize.SL.Sem Idealize.ShloMosaic.ValueIdx
open Idealize.ShloMosaic.Pipeline (Dat)

/-- The stack of three planes at `(b, p, n, i)` is plane `i` at `(b, p, n)`: the concatenate reads the piece its last coordinate
    names, and each piece is a plane with a unit axis appended. -/
theorem stack3_apply (X Y Z : (⟨S64x64x1024, .f32⟩ : BufTy).Contents (Elt Ideal)) (b p : Fin 64) (n : Fin 1024) (i : Fin 3) :
    Tail.stack3 X Y Z (ix4 b p n i) = (![X, Y, Z] i) (ix3 b p n) := by
  have hb : ∀ (P : (⟨S64x64x1024, .f32⟩ : BufTy).Contents (Elt Ideal)),
      (broadcastInDim S64x64x1024x1 ![0, 1, 2] bcast_S64x64x1024_S64x64x1024x1_0_1_2 P : (⟨S64x64x1024x1, .f32⟩ : BufTy).Contents (Elt Ideal)) (ix4 b p n (0 : Fin 1)) = P (ix3 b p n) := fun P =>
    broadcastInDim_apply _ bcast_S64x64x1024_S64x64x1024x1_0_1_2 P (ix4 b p n (0 : Fin 1)) (ix3 b p n) (fun a => match a with
      | ⟨0, _⟩ => by show b.val = if (64 : Nat) = 1 then 0 else b.val; rw [if_neg (by decide)]
      | ⟨1, _⟩ => by show p.val = if (64 : Nat) = 1 then 0 else p.val; rw [if_neg (by decide)]
      | ⟨2, _⟩ => by show n.val = if (1024 : Nat) = 1 then 0 else n.val; rw [if_neg (by decide)])
  have hi : ∀ (j : S64x64x1024x3.Idx) (e : ∀ a : Fin 3, (j (a.castSucc)).val = (ix4 b p n (0 : Fin 1) (a.castSucc)).val),
      ∀ a : Fin S64x64x1024x1.rank, a.cast (rfl : S64x64x1024x1.rank = S64x64x1024x3.rank) ≠ (3 : Fin 4) → (ix4 b p n (0 : Fin 1) a).val = (j (a.cast rfl)).val := fun j e a ha => by
    match a with
    | ⟨0, _⟩ => exact (e 0).symm
    | ⟨1, _⟩ => exact (e 1).symm
    | ⟨2, _⟩ => exact (e 2).symm
    | ⟨3, _⟩ => exact absurd rfl ha
  unfold Tail.stack3
  match i with
  | ⟨0, _⟩ =>
    refine (concatenate_apply_piece (t := S64x64x1024x3) (3 : Fin 4) _ _ (ix4 b p n (0 : Fin 3)) 0 (by show (0 : Nat) < 3; omega) S64x64x1024x1 _ rfl rfl 0 rfl
      (ix4 b p n (0 : Fin 1)) (hi _ (fun a => by fin_cases a <;> rfl)) rfl).trans (hb X)
  | ⟨1, _⟩ =>
    refine (concatenate_apply_piece (t := S64x64x1024x3) (3 : Fin 4) _ _ (ix4 b p n (1 : Fin 3)) 1 (by show (1 : Nat) < 3; omega) S64x64x1024x1 _ rfl rfl 1 rfl
      (ix4 b p n (0 : Fin 1)) (hi _ (fun a => by fin_cases a <;> rfl)) rfl).trans (hb Y)
  | ⟨2, _⟩ =>
    refine (concatenate_apply_piece (t := S64x64x1024x3) (3 : Fin 4) _ _ (ix4 b p n (2 : Fin 3)) 2 (by show (2 : Nat) < 3; omega) S64x64x1024x1 _ rfl rfl 2 rfl
      (ix4 b p n (0 : Fin 1)) (hi _ (fun a => by fin_cases a <;> rfl)) rfl).trans (hb Z)

/-- The three coordinate planes stacked are the point array. -/
theorem stack_planes (x0 x1 : S64x64x3.Idx → EReal) (x2 : S64x64x4.Idx → EReal) (x5 : S64x64x1024x3.Idx → EReal) :
    Tail.stack3 (F := Ideal) (Gplane x0 x1 x2 x5 0) (Gplane x0 x1 x2 x5 1) (Gplane x0 x1 x2 x5 2) = Gpts x0 x1 x2 x5 := by
  funext j
  obtain ⟨b, p, n, i, rfl⟩ : ∃ (b p : Fin 64) (n : Fin 1024) (i : Fin 3), j = ix4 b p n i := ⟨j 0, j 1, j 2, j 3, eq_ix4 j⟩
  rw [stack3_apply, Gpts_ix]
  match i with
  | ⟨0, _⟩ => exact Gplane_ix x0 x1 x2 x5 0 b p n
  | ⟨1, _⟩ => exact Gplane_ix x0 x1 x2 x5 1 b p n
  | ⟨2, _⟩ => exact Gplane_ix x0 x1 x2 x5 2 b p n

variable (m : (ℓ : Loc nD τ sig) → Buf (Elt Ideal) ℓ) (ρ : Dev nD → PrngReg)

/-- Every weakly fair execution of the kernel program ends with the point array, the weights and the looked-up points at
    these functions of the arguments, and the arguments as launched. -/
theorem kernel_run : θ_run defs (onTc (τ := τ) (main (F := Ideal))) ⟨m, fun _ => 0, ρ⟩ fun r => ∀ c : Dev nD,
      r.2.mem ((c.tc : Thread nD τ).loc main_v11) = Gpts (a0 m c) (a1 m c) (a2 m c) (a5 m c)
      ∧ r.2.mem ((c.tc : Thread nD τ).loc main_v7_3) = Gw (a0 m c) (a4 m c)
      ∧ r.2.mem ((c.tc : Thread nD τ).loc main_v37) = Tail.tailF (F := Ideal) (Gpts (a0 m c) (a1 m c) (a2 m c) (a5 m c)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_main (F := Ideal) m ρ)
  have hp : Tail.stack3 ((dats m 0 c).arrAt 7 cfg0.N) ((dats m 0 c).arrAt 8 cfg0.N) ((dats m 0 c).arrAt 9 cfg0.N)
      = Gpts (a0 m c) (a1 m c) (a2 m c) (a5 m c) := by
    rw [final7, final8, final9]
    exact stack_planes _ _ _ _
  exact ⟨((h c).2 main_v11 (Pipeline.mem_restRefs_of main_v11 (by decide) (by decide))).trans ((Tail.tail_v11 m (dats m) c).trans hp),
    ((h c).1 10).trans (final10 m c),
    ((h c).2 main_v37 (Pipeline.mem_restRefs_of main_v37 (by decide) (by decide))).trans ((Tail.tail_v37 m (dats m) c).trans (by rw [hp])),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩

end Cert.KernelIdeal.Result

end
-- ==== Proof.RefHead.lean ====
import proofs.«404468_j32401233281614_3_alg».proof.Proof.RefRunP
import proofs.«404468_j32401233281614_3_alg».proof.Proof.RefReadP
import Idealize.ShloMosaic.Lib.Pipeline.Frame

/-!
# The reference's run, first stretch

The reference program is 207 host operations: the first 147 compute the point array and the weight array from the
arguments; the last 60 look the points up in the voxel field and write neither of those two arrays nor any argument.
Here: what the first stretch leaves in the two arrays (the stages of the program read one operation at a time) and in
the arguments (nothing: no operation writes them), and that the second stretch keeps all eight buffers.
-/

noncomputable section

namespace Cert.ReferenceIdeal.RefHead

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 4000000 in
/-- No operation of the second stretch writes `main_v90`. -/
theorem keep_main_v90 (W : Valuation τ sig (Elt F)) : after (opsB (F := F)) W (Proc.devRef .tc main_v90) = W (Proc.devRef .tc main_v90) :=
  after_of_forall_not_mem (b := Proc.devRef .tc main_v90) _ _ (List.forall_iff_forall_mem.mp (by
    simp only [opsB, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 4000000 in
/-- No operation of the second stretch writes `main_v120`. -/
theorem keep_main_v120 (W : Valuation τ sig (Elt F)) : after (opsB (F := F)) W (Proc.devRef .tc main_v120) = W (Proc.devRef .tc main_v120) :=
  after_of_forall_not_mem (b := Proc.devRef .tc main_v120) _ _ (List.forall_iff_forall_mem.mp (by
    simp only [opsB, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 4000000 in
/-- No operation of the second stretch writes `main_arg0`. -/
theorem keep_main_arg0 (W : Valuation τ sig (Elt F)) : after (opsB (F := F)) W (Proc.devRef .tc main_arg0) = W (Proc.devRef .tc main_arg0) :=
  after_of_forall_not_mem (b := Proc.devRef .tc main_arg0) _ _ (List.forall_iff_forall_mem.mp (by
    simp only [opsB, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 4000000 in
/-- No operation of the second stretch writes `main_arg1`. -/
theorem keep_main_arg1 (W : Valuation τ sig (Elt F)) : after (opsB (F := F)) W (Proc.devRef .tc main_arg1) = W (Proc.devRef .tc main_arg1) :=
  after_of_forall_not_mem (b := Proc.devRef .tc main_arg1) _ _ (List.forall_iff_forall_mem.mp (by
    simp only [opsB, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 4000000 in
/-- No operation of the second stretch writes `main_arg2`. -/
theorem keep_main_arg2 (W : Valuation τ sig (Elt F)) : after (opsB (F := F)) W (Proc.devRef .tc main_arg2) = W (Proc.devRef .tc main_arg2) :=
  after_of_forall_not_mem (b := Proc.devRef .tc main_arg2) _ _ (List.forall_iff_forall_mem.mp (by
    simp only [opsB, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 4000000 in
/-- No operation of the second stretch writes `main_arg3`. -/
theorem keep_main_arg3 (W : Valuation τ sig (Elt F)) : after (opsB (F := F)) W (Proc.devRef .tc main_arg3) = W (Proc.devRef .tc main_arg3) :=
  after_of_forall_not_mem (b := Proc.devRef .tc main_arg3) _ _ (List.forall_iff_forall_mem.mp (by
    simp only [opsB, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 4000000 in
/-- No operation of the second stretch writes `main_arg4`. -/
theorem keep_main_arg4 (W : Valuation τ sig (Elt F)) : after (opsB (F := F)) W (Proc.devRef .tc main_arg4) = W (Proc.devRef .tc main_arg4) :=
  after_of_forall_not_mem (b := Proc.devRef .tc main_arg4) _ _ (List.forall_iff_forall_mem.mp (by
    simp only [opsB, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 4000000 in
/-- No operation of the second stretch writes `main_arg5`. -/
theorem keep_main_arg5 (W : Valuation τ sig (Elt F)) : after (opsB (F := F)) W (Proc.devRef .tc main_arg5) = W (Proc.devRef .tc main_arg5) :=
  after_of_forall_not_mem (b := Proc.devRef .tc main_arg5) _ _ (List.forall_iff_forall_mem.mp (by
    simp only [opsB, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 8000000 in
/-- No operation of the first stretch writes `main_arg0` either: it is as launched. -/
theorem head_main_arg0 (c : Dev nD) : after (opsA (F := F)) (launchContents m c) (Proc.devRef .tc main_arg0) = m ((c.tc : Thread nD τ).loc main_arg0) :=
  after_of_forall_not_mem (b := Proc.devRef .tc main_arg0) _ _ (List.forall_iff_forall_mem.mp (by
    simp only [opsA, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 8000000 in
/-- No operation of the first stretch writes `main_arg1` either: it is as launched. -/
theorem head_main_arg1 (c : Dev nD) : after (opsA (F := F)) (launchContents m c) (Proc.devRef .tc main_arg1) = m ((c.tc : Thread nD τ).loc main_arg1) :=
  after_of_forall_not_mem (b := Proc.devRef .tc main_arg1) _ _ (List.forall_iff_forall_mem.mp (by
    simp only [opsA, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 8000000 in
/-- No operation of the first stretch writes `main_arg2` either: it is as launched. -/
theorem head_main_arg2 (c : Dev nD) : after (opsA (F := F)) (launchContents m c) (Proc.devRef .tc main_arg2) = m ((c.tc : Thread nD τ).loc main_arg2) :=
  after_of_forall_not_mem (b := Proc.devRef .tc main_arg2) _ _ (List.forall_iff_forall_mem.mp (by
    simp only [opsA, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 8000000 in
/-- No operation of the first stretch writes `main_arg3` either: it is as launched. -/
theorem head_main_arg3 (c : Dev nD) : after (opsA (F := F)) (launchContents m c) (Proc.devRef .tc main_arg3) = m ((c.tc : Thread nD τ).loc main_arg3) :=
  after_of_forall_not_mem (b := Proc.devRef .tc main_arg3) _ _ (List.forall_iff_forall_mem.mp (by
    simp only [opsA, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 8000000 in
/-- No operation of the first stretch writes `main_arg4` either: it is as launched. -/
theorem head_main_arg4 (c : Dev nD) : after (opsA (F := F)) (launchContents m c) (Proc.devRef .tc main_arg4) = m ((c.tc : Thread nD τ).loc main_arg4) :=
  after_of_forall_not_mem (b := Proc.devRef .tc main_arg4) _ _ (List.forall_iff_forall_mem.mp (by
    simp only [opsA, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 8000000 in
/-- No operation of the first stretch writes `main_arg5` either: it is as launched. -/
theorem head_main_arg5 (c : Dev nD) : after (opsA (F := F)) (launchContents m c) (Proc.devRef .tc main_arg5) = m ((c.tc : Thread nD τ).loc main_arg5) :=
  after_of_forall_not_mem (b := Proc.devRef .tc main_arg5) _ _ (List.forall_iff_forall_mem.mp (by
    simp only [opsA, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact devRef_ne_of_ne (by decide)))

set_option maxRecDepth 8192 in
set_option maxHeartbeats 82800000 in
/-- After the first stretch the point array holds the program's point stage of the arguments. -/
theorem head_main_v90 (c : Dev nD) : after (opsA (F := F)) (launchContents m c) (Proc.devRef .tc main_v90)
    = val_main_v90 (F := F) (m ((c.tc : Thread nD τ).loc main_arg0)) (m ((c.tc : Thread nD τ).loc main_arg1)) (m ((c.tc : Thread nD τ).loc main_arg2)) (m ((c.tc : Thread nD τ).loc main_arg5)) := by
  after_results_simp <;> rfl

set_option maxRecDepth 8192 in
set_option maxHeartbeats 82800000 in
/-- And the weight array the program's weight stage. -/
theorem head_main_v120 (c : Dev nD) : after (opsA (F := F)) (launchContents m c) (Proc.devRef .tc main_v120)
    = val_main_v120 (F := F) (m ((c.tc : Thread nD τ).loc main_arg0)) (m ((c.tc : Thread nD τ).loc main_arg4)) := by
  after_results_simp <;> rfl

end Cert.ReferenceIdeal.RefHead

end
-- ==== Proof.RefTail.lean ====
import proofs.«404468_j32401233281614_3_alg».proof.Proof.RefRunP
import proofs.«404468_j32401233281614_3_alg».proof.Proof.Tail
import Idealize.ShloMosaic.Lib.StableHlo.Run
import Idealize.ShloMosaic.Lib.Pipeline.Frame

/-!
# The reference program's last sixty lines, read as values

The reference program ends with the same sixty operations as the kernel's program: the voxel lookup of the point
array it has in `main_v90` and the choice by the mask. They are read here, cut at the same places and stage by stage,
as the function `Cert.KernelIdeal.Tail.tailF` of the point array, the voxel field and the mask: the two programs spell
the operations over shapes and shape facts of the same text, so each stage of one is the stage of the other.
-/

set_option maxRecDepth 16384

noncomputable section

namespace Cert.ReferenceIdeal.RefTail

open Cert.ReferenceIdeal Cert.ReferenceIdeal.Gen Cert.ReferenceIdeal.ValueP
open Idealize.ShloMosaic Idealize.ShloMosaic.TcCoe Idealize.ShloMosaic.StableHlo
open Idealize.SL.Sem
open Cert.KernelIdeal.Tail (cellOf linearOf wrapOf inRangeOf lookupOf maskOf chooseOf tailF)

variable {F : FTy → Type} [FloatOps F]

/-- The sixty lines in six cuts: the cells, the linear cells, the wrapped cell, the range test, the gather and its
    choice, the choice by the mask. -/
theorem opsB_cut : (opsB (F := F))
    = List.take 15 opsB ++ (List.take 16 (List.drop 15 opsB) ++ (List.take 7 (List.drop 31 opsB)
        ++ (List.take 10 (List.drop 38 opsB) ++ (List.take 5 (List.drop 48 opsB) ++ List.drop 53 opsB)))) := rfl

/-- Fifteen lines leave the cells of the points they find in `main_v90`. -/
theorem cell_v126 (W : Valuation τ sig (Elt F)) :
    StableHlo.after (List.take 15 (opsB (F := F))) W (Proc.devRef .tc main_v126) = cellOf (W (Proc.devRef .tc main_v90)) := by
  simp only [opsB, List.take_succ_cons, List.take_zero, List.drop_succ_cons, List.drop_zero]
  after_results_simp
  refine (cast_eq _ _).trans ?_
  rfl
theorem cell_keeps_v90 (W : Valuation τ sig (Elt F)) :
    StableHlo.after (List.take 15 (opsB (F := F))) W (Proc.devRef .tc main_v90) = W (Proc.devRef .tc main_v90) := by
  simp only [opsB, List.take_succ_cons, List.take_zero, List.drop_succ_cons, List.drop_zero]
  after_results_simp
theorem cell_keeps_arg3 (W : Valuation τ sig (Elt F)) :
    StableHlo.after (List.take 15 (opsB (F := F))) W (Proc.devRef .tc main_arg3) = W (Proc.devRef .tc main_arg3) := by
  simp only [opsB, List.take_succ_cons, List.take_zero, List.drop_succ_cons, List.drop_zero]
  after_results_simp
theorem cell_keeps_arg4 (W : Valuation τ sig (Elt F)) :
    StableHlo.after (List.take 15 (opsB (F := F))) W (Proc.devRef .tc main_arg4) = W (Proc.devRef .tc main_arg4) := by
  simp only [opsB, List.take_succ_cons, List.take_zero, List.drop_succ_cons, List.drop_zero]
  after_results_simp

/-- Sixteen lines leave the linear cells of the cells they find in `main_v126`, and the voxel field reshaped. -/
theorem linear_v140 (W : Valuation τ sig (Elt F)) :
    StableHlo.after (List.take 16 (List.drop 15 (opsB (F := F)))) W (Proc.devRef .tc main_v140) = linearOf (W (Proc.devRef .tc main_v126)) := by
  simp only [opsB, List.take_succ_cons, List.take_zero, List.drop_succ_cons, List.drop_zero]
  after_results_simp
  rfl
theorem linear_v139 (W : Valuation τ sig (Elt F)) :
    StableHlo.after (List.take 16 (List.drop 15 (opsB (F := F)))) W (Proc.devRef .tc main_v139)
      = shapeCast _ (W (Proc.devRef .tc main_arg3)) shapeCasts_S64x32x32x32x3_S64x32768x3 := by
  simp only [opsB, List.take_succ_cons, List.take_zero, List.drop_succ_cons, List.drop_zero]
  after_results_simp
  rfl
theorem linear_keeps_v90 (W : Valuation τ sig (Elt F)) :
    StableHlo.after (List.take 16 (List.drop 15 (opsB (F := F)))) W (Proc.devRef .tc main_v90) = W (Proc.devRef .tc main_v90) := by
  simp only [opsB, List.take_succ_cons, List.take_zero, List.drop_succ_cons, List.drop_zero]
  after_results_simp
theorem linear_keeps_arg4 (W : Valuation τ sig (Elt F)) :
    StableHlo.after (List.take 16 (List.drop 15 (opsB (F := F)))) W (Proc.devRef .tc main_arg4) = W (Proc.devRef .tc main_arg4) := by
  simp only [opsB, List.take_succ_cons, List.take_zero, List.drop_succ_cons, List.drop_zero]
  after_results_simp

/-- Seven lines wrap the linear cell they find in `main_v140`. -/
theorem wrap_v4 (W : Valuation τ sig (Elt F)) :
    StableHlo.after (List.take 7 (List.drop 31 (opsB (F := F)))) W (Proc.devRef .tc main_call2_v4) = wrapOf (W (Proc.devRef .tc main_v140)) := by
  simp only [opsB, List.take_succ_cons, List.take_zero, List.drop_succ_cons, List.drop_zero]
  after_results_simp
  refine (cast_eq _ _).trans ?_
  rfl
theorem wrap_keeps_v139 (W : Valuation τ sig (Elt F)) :
    StableHlo.after (List.take 7 (List.drop 31 (opsB (F := F)))) W (Proc.devRef .tc main_v139) = W (Proc.devRef .tc main_v139) := by
  simp only [opsB, List.take_succ_cons, List.take_zero, List.drop_succ_cons, List.drop_zero]
  after_results_simp
theorem wrap_keeps_v90 (W : Valuation τ sig (Elt F)) :
    StableHlo.after (List.take 7 (List.drop 31 (opsB (F := F)))) W (Proc.devRef .tc main_v90) = W (Proc.devRef .tc main_v90) := by
  simp only [opsB, List.take_succ_cons, List.take_zero, List.drop_succ_cons, List.drop_zero]
  after_results_simp
theorem wrap_keeps_arg4 (W : Valuation τ sig (Elt F)) :
    StableHlo.after (List.take 7 (List.drop 31 (opsB (F := F)))) W (Proc.devRef .tc main_arg4) = W (Proc.devRef .tc main_arg4) := by
  simp only [opsB, List.take_succ_cons, List.take_zero, List.drop_succ_cons, List.drop_zero]
  after_results_simp

/-- Ten lines test the wrapped cell they find in `main_call2_v4` against `[0, 32767]`. -/
theorem range_v11 (W : Valuation τ sig (Elt F)) :
    StableHlo.after (List.take 10 (List.drop 38 (opsB (F := F)))) W (Proc.devRef .tc main_call2_v11) = inRangeOf (W (Proc.devRef .tc main_call2_v4)) := by
  simp only [opsB, List.take_succ_cons, List.take_zero, List.drop_succ_cons, List.drop_zero]
  after_results_simp
  refine (cast_eq _ _).trans ?_
  rfl
theorem range_keeps_v139 (W : Valuation τ sig (Elt F)) :
    StableHlo.after (List.take 10 (List.drop 38 (opsB (F := F)))) W (Proc.devRef .tc main_v139) = W (Proc.devRef .tc main_v139) := by
  simp only [opsB, List.take_succ_cons, List.take_zero, List.drop_succ_cons, List.drop_zero]
  after_results_simp
theorem range_keeps_v4 (W : Valuation τ sig (Elt F)) :
    StableHlo.after (List.take 10 (List.drop 38 (opsB (F := F)))) W (Proc.devRef .tc main_call2_v4) = W (Proc.devRef .tc main_call2_v4) := by
  simp only [opsB, List.take_succ_cons, List.take_zero, List.drop_succ_cons, List.drop_zero]
  after_results_simp
theorem range_keeps_v90 (W : Valuation τ sig (Elt F)) :
    StableHlo.after (List.take 10 (List.drop 38 (opsB (F := F)))) W (Proc.devRef .tc main_v90) = W (Proc.devRef .tc main_v90) := by
  simp only [opsB, List.take_succ_cons, List.take_zero, List.drop_succ_cons, List.drop_zero]
  after_results_simp
theorem range_keeps_arg4 (W : Valuation τ sig (Elt F)) :
    StableHlo.after (List.take 10 (List.drop 38 (opsB (F := F)))) W (Proc.devRef .tc main_arg4) = W (Proc.devRef .tc main_arg4) := by
  simp only [opsB, List.take_succ_cons, List.take_zero, List.drop_succ_cons, List.drop_zero]
  after_results_simp

/-- Five lines gather the voxel field at the wrapped cell and answer the not-a-number word where the test failed. -/
theorem gather_v141 (W : Valuation τ sig (Elt F)) :
    StableHlo.after (List.take 5 (List.drop 48 (opsB (F := F)))) W (Proc.devRef .tc main_v141)
      = select (broadcastInDim S64x65536x3 ![0, 1] bcast_S64x65536_S64x65536x3_0_1 (W (Proc.devRef .tc main_call2_v11)))
          (Host.gather gather_S64x32768x3_S64x65536x1_S64x65536x3_2_1_0_0_1_2_113 (W (Proc.devRef .tc main_v139)) (W (Proc.devRef .tc main_call2_v4)))
          (broadcastInDim S64x65536x3 ![] bcast_S_S64x65536x3 (constant S_ .f32 0x7FC00000#32 : (⟨S_, .f32⟩ : BufTy).Contents (Elt F))) := by
  simp only [opsB, List.take_succ_cons, List.take_zero, List.drop_succ_cons, List.drop_zero]
  after_results_simp
  refine (cast_eq _ _).trans ?_
  rfl
theorem gather_keeps_v90 (W : Valuation τ sig (Elt F)) :
    StableHlo.after (List.take 5 (List.drop 48 (opsB (F := F)))) W (Proc.devRef .tc main_v90) = W (Proc.devRef .tc main_v90) := by
  simp only [opsB, List.take_succ_cons, List.take_zero, List.drop_succ_cons, List.drop_zero]
  after_results_simp
theorem gather_keeps_arg4 (W : Valuation τ sig (Elt F)) :
    StableHlo.after (List.take 5 (List.drop 48 (opsB (F := F)))) W (Proc.devRef .tc main_arg4) = W (Proc.devRef .tc main_arg4) := by
  simp only [opsB, List.take_succ_cons, List.take_zero, List.drop_succ_cons, List.drop_zero]
  after_results_simp

/-- The last seven lines choose, by the mask, between the lookup reshaped to the points' shape and the points. -/
theorem choose_v146 (W : Valuation τ sig (Elt F)) :
    StableHlo.after (List.drop 53 (opsB (F := F))) W (Proc.devRef .tc main_v146)
      = chooseOf (maskOf (W (Proc.devRef .tc main_arg4)))
          (shapeCast _ (W (Proc.devRef .tc main_v141)) shapeCasts_S64x65536x3_S64x64x1024x3) (W (Proc.devRef .tc main_v90)) := by
  simp only [opsB, List.take_succ_cons, List.take_zero, List.drop_succ_cons, List.drop_zero]
  after_results_simp
  refine (cast_eq _ _).trans ?_
  rfl

/-- The reference program's last sixty lines leave in `main_v146` the lookup of the point array they find in `main_v90`. -/
theorem tail_v146 (W : Valuation τ sig (Elt F)) :
    StableHlo.after (opsB (F := F)) W (Proc.devRef .tc main_v146)
      = tailF (W (Proc.devRef .tc main_v90)) (W (Proc.devRef .tc main_arg3)) (W (Proc.devRef .tc main_arg4)) := by
  rw [opsB_cut, StableHlo.after_append, StableHlo.after_append, StableHlo.after_append, StableHlo.after_append, StableHlo.after_append,
    choose_v146, gather_v141, gather_keeps_v90, gather_keeps_arg4,
    range_v11, range_keeps_v139, range_keeps_v4, range_keeps_v90, range_keeps_arg4,
    wrap_v4, wrap_keeps_v139, wrap_keeps_v90, wrap_keeps_arg4,
    linear_v140, linear_v139, linear_keeps_v90, linear_keeps_arg4,
    cell_v126, cell_keeps_v90, cell_keeps_arg3, cell_keeps_arg4]
  rfl

end Cert.ReferenceIdeal.RefTail

end
-- ==== Proof.RefRun.lean ====
import proofs.«404468_j32401233281614_3_alg».proof.Proof.RefHead
import proofs.«404468_j32401233281614_3_alg».proof.Proof.RefTail

/-!
# The reference's run, read as values

Every weakly fair execution of the reference program ends with the point array at the program's point stage of the
arguments, the weight array at its weight stage, the looked-up points at the shared later operations applied to the
point stage, and the arguments as launched: the run's raw post, cut after operation 147.
-/

noncomputable section

namespace Cert.ReferenceIdeal.RefRun

open Cert.ReferenceIdeal Cert.ReferenceIdeal.Gen Cert.ReferenceIdeal.ValueP Cert.ReferenceIdeal.ReadP Cert.ReferenceIdeal.RefHead
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90) = val_main_v90 (F := F) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v120) = val_main_v120 (F := F) (m ((c.tc : Thread nD τ).loc main_arg0)) (m ((c.tc : Thread nD τ).loc main_arg4))
      ∧ r.2.mem ((c.tc : Thread nD τ).loc main_v146) = Cert.KernelIdeal.Tail.tailF (val_main_v90 (F := F) (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (ValueP.run_after m ρ)
  have key : ∀ b : Ref sig .tc, r.2.mem ((c.tc : Thread nD τ).loc b)
      = after (opsB (F := F)) (after (opsA (F := F)) (launchContents m c)) (Proc.devRef .tc b) := fun b => by
    rw [h c b, ops_split, StableHlo.after_append]
  refine ⟨?_, ?_, ?_, ?_, ?_, ?_, ?_, ?_, ?_⟩
  · rw [key, keep_main_v90, head_main_v90]
  · rw [key, keep_main_v120, head_main_v120]
  · rw [key, Cert.ReferenceIdeal.RefTail.tail_v146, head_main_v90, head_main_arg3, head_main_arg4]
  · rw [key, keep_main_arg0, head_main_arg0]
  · rw [key, keep_main_arg1, head_main_arg1]
  · rw [key, keep_main_arg2, head_main_arg2]
  · rw [key, keep_main_arg3, head_main_arg3]
  · rw [key, keep_main_arg4, head_main_arg4]
  · rw [key, keep_main_arg5, head_main_arg5]

end Cert.ReferenceIdeal.RefRun

end
-- ==== Proof.RefAtIndex.lean ====
import proofs.«404468_j32401233281614_3_alg».proof.Proof.RefReadP
import proofs.«404468_j32401233281614_3_alg».proof.Proof.Spec
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce
import Mathlib.Algebra.BigOperators.Fin

noncomputable section

namespace Cert.ReferenceIdeal.AtIdx

open Cert.ReferenceIdeal Cert.ReferenceIdeal.Gen Cert.ReferenceIdeal.ReadP Cert.Spec Idealize.ShloMosaic Idealize.ShloMosaic.ValueIdx

/-!
# The reference's point and weight stages, read at an index

The reference program computes its sampled points and its weights through some hundred whole-array operations. Read
at one index, stage by stage, they are the scalar formulas of the specification: the offset from the cube's centre and
the factor that pushes it onto the surface; the point in the box's frame; the normalized quaternion and the nine
entries of its rotation matrix; the contraction of the local point with a row of the matrix, plus the translation;
and, for the weight, the box's area over its batch's total, masked and divided by the sample count.
-/

/-! ## Small facts: indices by coordinates, a fold over three entries, two words -/

local macro "idx1_rfl" : tactic =>
  `(tactic| exact funext fun a => Fin.ext (by match a with | ⟨0, _⟩ => rfl))
local macro "idx2_rfl" : tactic =>
  `(tactic| exact funext fun a => Fin.ext (by match a with | ⟨0, _⟩ => rfl | ⟨1, _⟩ => rfl))
local macro "idx3_rfl" : tactic =>
  `(tactic| exact funext fun a => Fin.ext (by match a with | ⟨0, _⟩ => rfl | ⟨1, _⟩ => rfl | ⟨2, _⟩ => rfl))
local macro "idx4_rfl" : tactic =>
  `(tactic| exact funext fun a => Fin.ext (by match a with | ⟨0, _⟩ => rfl | ⟨1, _⟩ => rfl | ⟨2, _⟩ => rfl | ⟨3, _⟩ => rfl))

/-- A fold of a commutative associative operation over three entries. -/
theorem fold_fin3 {α : Type} (f : α → α → α) [Std.Commutative f] [Std.Associative f] (c : α) (g : Fin 3 → α) :
    (Finset.univ : Finset (Fin 3)).fold f c g = f (g 0) (f (g 1) (f (g 2) c)) := by
  have h : (Finset.univ : Finset (Fin 3)) = insert 0 (insert 1 {2}) := by decide
  rw [h, Finset.fold_insert (by decide), Finset.fold_insert (by decide), Finset.fold_singleton]

/-- The word 0xFF800000 is −∞, the least extended real. -/
theorem ofBits_negInf : Ideal.ofBits .f32 0xFF800000#32 = (⊥ : EReal) := by
  simp [Ideal.ofBits, Ideal.ieee]

/-- The row-major position of (b, p) among 64 × 64, split again over 64 × 64 × 1, is (b, p, 0). -/
theorem reshape_eq (b p : Fin 64) : idx_main_v18 (ix2 b p) = ix3 b p (0 : Fin 1) :=
  funext fun a => Fin.ext (by
    have hb := b.isLt
    have hp := p.isLt
    match a with
    | ⟨0, _⟩ => show (b.val * 64 + p.val) / 64 = b.val; omega
    | ⟨1, _⟩ => show (b.val * 64 + p.val) / 1 % 64 = p.val; omega
    | ⟨2, _⟩ => rfl)

/-! ## The offset, its largest absolute coordinate, and the scale -/

section Points

variable (x0 x1 : (⟨S64x64x3, .f32⟩ : BufTy).Contents (Elt Ideal)) (x2 : (⟨S64x64x4, .f32⟩ : BufTy).Contents (Elt Ideal))
  (x5 : (⟨S64x64x1024x3, .f32⟩ : BufTy).Contents (Elt Ideal)) (b p : Fin 64) (n : Fin 1024)

/-- The sample less one half. -/
theorem off_at (k : Fin 3) :
    val_main_v1 (F := Ideal) x5 (ix4 b p n k) = off (fun k => x5 (ix4 b p n k)) k := by
  rw [val_main_v1_apply, val_main_v0_apply, val_main_cst_apply]
  rfl

/-- Its absolute value. -/
theorem abs_at (k : Fin 3) :
    val_main_v2 (F := Ideal) x5 (ix4 b p n k) = absE (off (fun k => x5 (ix4 b p n k)) k) := by
  rw [val_main_v2_apply, off_at]
  rfl

/-- The maximum over the three coordinates, from −∞: a fold over the reduced axis. -/
theorem v3_at :
    val_main_v3 (F := Ideal) x5 (ix3 b p n)
      = max (max (val_main_v2 (F := Ideal) x5 (ix4 b p n 0)) (val_main_v2 (F := Ideal) x5 (ix4 b p n 1)))
          (val_main_v2 (F := Ideal) x5 (ix4 b p n 2)) := by
  have hR : S64x64x1024x3.Reduces [3] S64x64x1024 := by decide
  have hl : ∀ k : Fin 3, hR.lift (ix3 b p n) k = ix4 b p n k := fun k =>
    funext fun c => Fin.ext (by fin_cases c <;> rfl)
  unfold val_main_v3
  rw [Host.reduce_eq_fold_single FloatOps.maximumf _ _ reducesTo_S64x64x1024x3_S64x64x1024_d3 hR h_S_]
  refine (fold_fin3 _ _ _).trans ?_
  show max (val_main_v2 (F := Ideal) x5 (hR.lift (ix3 b p n) (0 : Fin 3)))
      (max (val_main_v2 (F := Ideal) x5 (hR.lift (ix3 b p n) (1 : Fin 3)))
        (max (val_main_v2 (F := Ideal) x5 (hR.lift (ix3 b p n) (2 : Fin 3))) (Ideal.ofBits .f32 0xFF800000#32))) = _
  rw [hl 0, hl 1, hl 2, ofBits_negInf, max_bot_right]
  exact (max_assoc (_ : EReal) _ _).symm

/-- The largest absolute coordinate of the offset. -/
theorem absmax_at :
    val_main_v3 (F := Ideal) x5 (ix3 b p n)
      = max (max (absE (off (fun k => x5 (ix4 b p n k)) 0)) (absE (off (fun k => x5 (ix4 b p n k)) 1)))
          (absE (off (fun k => x5 (ix4 b p n k)) 2)) := by
  rw [v3_at, abs_at, abs_at, abs_at]

/-- One half over the floored maximum. -/
theorem scl_at :
    val_main_v8 (F := Ideal) x5 (ix4 b p n (0 : Fin 1)) = scl (fun k => x5 (ix4 b p n k)) := by
  rw [val_main_v8_apply, val_main_v7_apply, val_main_cst_2_apply, val_main_v6_apply, val_main_v4_apply,
    val_main_v5_apply, val_main_cst_1_apply]
  have e : idx_main_v4 (ix4 b p n (0 : Fin 1)) = ix3 b p n := by idx3_rfl
  rw [e, absmax_at]
  rfl

/-- The point in the box's frame: offset times scale times half-size. -/
theorem loc_at (k : Fin 3) :
    val_main_v13 (F := Ideal) x0 x5 (ix4 b p n k)
      = loc (fun k => x0 (ix3 b p k)) (fun k => x5 (ix4 b p n k)) k := by
  rw [val_main_v13_apply, val_main_v10_apply, val_main_v9_apply, val_main_v12_apply, val_main_v11_apply]
  have e9 : idx_main_v9 (ix4 b p n k) = ix4 b p n (0 : Fin 1) := by idx4_rfl
  have e12 : idx_main_v11 (idx_main_v12 (ix4 b p n k)) = ix3 b p k := by idx3_rfl
  rw [e9, e12, scl_at, off_at]
  rfl

/-! ## The normalized quaternion -/

/-- The quaternion's length: the square root of the sum of squares, summed from zero. -/
theorem nrm_at :
    val_main_v14 (F := Ideal) x2 (ix3 b p (0 : Fin 1)) = nrm (fun j => x2 (ix3 b p j)) := by
  rw [val_main_v14_apply, val_main_call0_v2_apply, val_main_call0_v1_apply, val_main_call0_cst_apply]
  have e : ∀ k : Fin 4, idx_main_call0_v1 (idx_main_call0_v2 (ix3 b p (0 : Fin 1))) k = ix3 b p k := fun k => by idx3_rfl
  simp only [val_main_call0_v0_apply, e, Ideal.ofBits_def, Ideal.ofBits_zero_f32, zero_add, Ideal.mulf_def,
    Ideal.hostUnary_sqrt_def]
  rfl

/-- Entry `j` over the length. -/
theorem qn_at (j : Fin 4) :
    val_main_v16 (F := Ideal) x2 (ix3 b p j) = qn (fun j => x2 (ix3 b p j)) j := by
  rw [val_main_v16_apply, val_main_v15_apply]
  have e : idx_main_v15 (ix3 b p j) = ix3 b p (0 : Fin 1) := by idx3_rfl
  rw [e, nrm_at]
  rfl

/-- The four entries as 64 × 64 arrays. -/
theorem q0_at : val_main_v18 (F := Ideal) x2 (ix2 b p) = qn (fun j => x2 (ix3 b p j)) 0 := by
  rw [val_main_v18_apply, reshape_eq, val_main_v17_apply]
  have e : idx_main_v17 (ix3 b p (0 : Fin 1)) = ix3 b p (0 : Fin 4) := by idx3_rfl
  rw [e, qn_at]
theorem q1_at : val_main_v20 (F := Ideal) x2 (ix2 b p) = qn (fun j => x2 (ix3 b p j)) 1 := by
  rw [val_main_v20_apply, show idx_main_v20 (ix2 b p) = ix3 b p (0 : Fin 1) from reshape_eq b p, val_main_v19_apply]
  have e : idx_main_v19 (ix3 b p (0 : Fin 1)) = ix3 b p (1 : Fin 4) := by idx3_rfl
  rw [e, qn_at]
theorem q2_at : val_main_v22 (F := Ideal) x2 (ix2 b p) = qn (fun j => x2 (ix3 b p j)) 2 := by
  rw [val_main_v22_apply, show idx_main_v22 (ix2 b p) = ix3 b p (0 : Fin 1) from reshape_eq b p, val_main_v21_apply]
  have e : idx_main_v21 (ix3 b p (0 : Fin 1)) = ix3 b p (2 : Fin 4) := by idx3_rfl
  rw [e, qn_at]
theorem q3_at : val_main_v24 (F := Ideal) x2 (ix2 b p) = qn (fun j => x2 (ix3 b p j)) 3 := by
  rw [val_main_v24_apply, show idx_main_v24 (ix2 b p) = ix3 b p (0 : Fin 1) from reshape_eq b p, val_main_v23_apply]
  have e : idx_main_v23 (ix3 b p (0 : Fin 1)) = ix3 b p (3 : Fin 4) := by idx3_rfl
  rw [e, qn_at]

/-! ## The nine entries of the rotation matrix -/

theorem r00_at : val_main_v31 (F := Ideal) x2 (ix2 b p) = rot (fun j => x2 (ix3 b p j)) 0 0 := by
  rw [val_main_v31_apply, val_main_v30_apply, val_main_cst_4_apply, val_main_v29_apply, val_main_v28_apply,
    val_main_cst_3_apply, val_main_v27_apply, val_main_v25_apply, val_main_v26_apply, q2_at, q3_at]
  rfl
theorem r01_at : val_main_v36 (F := Ideal) x2 (ix2 b p) = rot (fun j => x2 (ix3 b p j)) 0 1 := by
  rw [val_main_v36_apply, val_main_v35_apply, val_main_cst_5_apply, val_main_v34_apply, val_main_v32_apply,
    val_main_v33_apply, q0_at, q1_at, q2_at, q3_at]
  rfl
theorem r02_at : val_main_v41 (F := Ideal) x2 (ix2 b p) = rot (fun j => x2 (ix3 b p j)) 0 2 := by
  rw [val_main_v41_apply, val_main_v40_apply, val_main_cst_6_apply, val_main_v39_apply, val_main_v37_apply,
    val_main_v38_apply, q0_at, q1_at, q2_at, q3_at]
  rfl
theorem r10_at : val_main_v46 (F := Ideal) x2 (ix2 b p) = rot (fun j => x2 (ix3 b p j)) 1 0 := by
  rw [val_main_v46_apply, val_main_v45_apply, val_main_cst_7_apply, val_main_v44_apply, val_main_v42_apply,
    val_main_v43_apply, q0_at, q1_at, q2_at, q3_at]
  rfl
theorem r11_at : val_main_v53 (F := Ideal) x2 (ix2 b p) = rot (fun j => x2 (ix3 b p j)) 1 1 := by
  rw [val_main_v53_apply, val_main_v52_apply, val_main_cst_9_apply, val_main_v51_apply, val_main_v50_apply,
    val_main_cst_8_apply, val_main_v49_apply, val_main_v47_apply, val_main_v48_apply, q1_at, q3_at]
  rfl
theorem r12_at : val_main_v58 (F := Ideal) x2 (ix2 b p) = rot (fun j => x2 (ix3 b p j)) 1 2 := by
  rw [val_main_v58_apply, val_main_v57_apply, val_main_cst_10_apply, val_main_v56_apply, val_main_v54_apply,
    val_main_v55_apply, q0_at, q1_at, q2_at, q3_at]
  rfl
theorem r20_at : val_main_v63 (F := Ideal) x2 (ix2 b p) = rot (fun j => x2 (ix3 b p j)) 2 0 := by
  rw [val_main_v63_apply, val_main_v62_apply, val_main_cst_11_apply, val_main_v61_apply, val_main_v59_apply,
    val_main_v60_apply, q0_at, q1_at, q2_at, q3_at]
  rfl
theorem r21_at : val_main_v68 (F := Ideal) x2 (ix2 b p) = rot (fun j => x2 (ix3 b p j)) 2 1 := by
  rw [val_main_v68_apply, val_main_v67_apply, val_main_cst_12_apply, val_main_v66_apply, val_main_v64_apply,
    val_main_v65_apply, q0_at, q1_at, q2_at, q3_at]
  rfl
theorem r22_at : val_main_v75 (F := Ideal) x2 (ix2 b p) = rot (fun j => x2 (ix3 b p j)) 2 2 := by
  rw [val_main_v75_apply, val_main_v74_apply, val_main_cst_14_apply, val_main_v73_apply, val_main_v72_apply,
    val_main_cst_13_apply, val_main_v71_apply, val_main_v69_apply, val_main_v70_apply, q1_at, q2_at]
  rfl

/-! ## The nine entries side by side, and as a 3 × 3 matrix -/

/-- Each entry gets a unit axis before the concatenation. -/
theorem bc_at (y : (⟨S64x64, .f32⟩ : BufTy).Contents (Elt Ideal)) :
    broadcastInDim S64x64x1 ![0, 1] bcast_S64x64_S64x64x1_0_1 y (ix3 b p (0 : Fin 1)) = y (ix2 b p) :=
  broadcastInDim_apply _ bcast_S64x64_S64x64x1_0_1 y (ix3 b p (0 : Fin 1)) (ix2 b p) (fun a => by
    match a with
    | ⟨0, _⟩ => rfl
    | ⟨1, _⟩ => rfl)

/-- Piece `k` of nine pieces of extent one along the last axis, read at (b, p, k). -/
theorem cat_piece (xs : List ((s : Shape) × (s.Idx → EReal))) (h : Shape.Concatenates (xs.map (·.1)) S64x64x9 2)
    (k : Nat) (hk9 : k < 9) (hk : k < xs.length) (x₁ : S64x64x1.Idx → EReal) (hxk : xs[k] = ⟨S64x64x1, x₁⟩)
    (hpre : (((xs.take k).map (·.1)).map fun s => if h : s.rank = S64x64x9.rank then s.size ((2 : Fin S64x64x9.rank).cast h.symm) else 0).sum = k) :
    concatenate S64x64x9 2 xs h (ix3 b p (⟨k, hk9⟩ : Fin 9)) = x₁ (ix3 b p (0 : Fin 1)) :=
  concatenate_apply_piece 2 xs h (ix3 b p (⟨k, hk9⟩ : Fin 9)) k hk S64x64x1 x₁ hxk rfl k hpre (ix3 b p (0 : Fin 1))
    (fun c hc => by
      match c with
      | ⟨0, _⟩ => rfl
      | ⟨1, _⟩ => rfl
      | ⟨2, _⟩ => exact absurd rfl hc)
    rfl

/-- Entry (i, j) of the matrix sits at position 3 i + j of the concatenation. -/
theorem idx86_eq (i j : Fin 3) :
    idx_main_v86 (ix4 b p i j) = ix3 b p (⟨3 * i.val + j.val, by have := i.isLt; have := j.isLt; omega⟩ : Fin 9) :=
  funext fun a => Fin.ext (by
    have hb := b.isLt
    have hp := p.isLt
    have hi := i.isLt
    have hj := j.isLt
    match a with
    | ⟨0, _⟩ => show (((b.val * 64 + p.val) * 3 + i.val) * 3 + j.val) / 576 = b.val; omega
    | ⟨1, _⟩ => show (((b.val * 64 + p.val) * 3 + i.val) * 3 + j.val) / 9 % 64 = p.val; omega
    | ⟨2, _⟩ => show (((b.val * 64 + p.val) * 3 + i.val) * 3 + j.val) % 9 = 3 * i.val + j.val; omega)

/-- The reshaped concatenation at (b, p, i, j) is the rotation matrix's entry (i, j). -/
theorem rot_at (i j : Fin 3) :
    val_main_v86 (F := Ideal) x2 (ix4 b p i j) = rot (fun j => x2 (ix3 b p j)) i j := by
  rw [val_main_v86_apply, idx86_eq]
  unfold val_main_v85
  fin_cases i <;> fin_cases j
  · exact (cat_piece b p _ _ 0 (by decide) (by simp) _ rfl rfl).trans ((bc_at b p _).trans (r00_at x2 b p))
  · exact (cat_piece b p _ _ 1 (by decide) (by simp) _ rfl rfl).trans ((bc_at b p _).trans (r01_at x2 b p))
  · exact (cat_piece b p _ _ 2 (by decide) (by simp) _ rfl rfl).trans ((bc_at b p _).trans (r02_at x2 b p))
  · exact (cat_piece b p _ _ 3 (by decide) (by simp) _ rfl rfl).trans ((bc_at b p _).trans (r10_at x2 b p))
  · exact (cat_piece b p _ _ 4 (by decide) (by simp) _ rfl rfl).trans ((bc_at b p _).trans (r11_at x2 b p))
  · exact (cat_piece b p _ _ 5 (by decide) (by simp) _ rfl rfl).trans ((bc_at b p _).trans (r12_at x2 b p))
  · exact (cat_piece b p _ _ 6 (by decide) (by simp) _ rfl rfl).trans ((bc_at b p _).trans (r20_at x2 b p))
  · exact (cat_piece b p _ _ 7 (by decide) (by simp) _ rfl rfl).trans ((bc_at b p _).trans (r21_at x2 b p))
  · exact (cat_piece b p _ _ 8 (by decide) (by simp) _ rfl rfl).trans ((bc_at b p _).trans (r22_at x2 b p))

/-! ## The contraction and the translation -/

/-- The local point against row `i` of the matrix. -/
theorem dot_at (i : Fin 3) :
    val_main_v87 (F := Ideal) x0 x2 x5 (ix4 b p n i)
      = rot (fun j => x2 (ix3 b p j)) i 0 * loc (fun k => x0 (ix3 b p k)) (fun k => x5 (ix4 b p n k)) 0
        + rot (fun j => x2 (ix3 b p j)) i 1 * loc (fun k => x0 (ix3 b p k)) (fun k => x5 (ix4 b p n k)) 1
        + rot (fun j => x2 (ix3 b p j)) i 2 * loc (fun k => x0 (ix3 b p k)) (fun k => x5 (ix4 b p n k)) 2 := by
  have el : ∀ k : Fin 3, lidx_main_v87 (ix4 b p n i) k = ix4 b p n k := fun k => by idx4_rfl
  have er : ∀ k : Fin 3, ridx_main_v87 (ix4 b p n i) k = ix4 b p i k := fun k => by idx4_rfl
  rw [val_main_v87_apply, Fin.sum_univ_three]
  simp only [el, er, loc_at, rot_at]
  exact congrArg₂ (· + ·) (congrArg₂ (· + ·) (mul_comm _ _) (mul_comm _ _)) (mul_comm _ _)

end Points

/-- **The sampled points, entry by entry.** -/
theorem pts_apply (x0 x1 : (⟨S64x64x3, .f32⟩ : BufTy).Contents (Elt Ideal)) (x2 : (⟨S64x64x4, .f32⟩ : BufTy).Contents (Elt Ideal)) (x5 : (⟨S64x64x1024x3, .f32⟩ : BufTy).Contents (Elt Ideal)) (b p : Fin 64) (n : Fin 1024) (i : Fin 3) :
    val_main_v90 (F := Ideal) x0 x1 x2 x5 (ix4 b p n i) = ptsS (fun k => x0 (ix3 b p k)) (fun k => x1 (ix3 b p k)) (fun j => x2 (ix3 b p j)) (fun k => x5 (ix4 b p n k)) i := by
  rw [val_main_v90_apply, val_main_v89_apply, val_main_v88_apply]
  have e : idx_main_v88 (idx_main_v89 (ix4 b p n i)) = ix3 b p i := by idx3_rfl
  rw [e, dot_at]
  rfl

/-! ## The weight -/

section Weight

variable (x0 : (⟨S64x64x3, .f32⟩ : BufTy).Contents (Elt Ideal)) (x4 : (⟨S64x64, .i32⟩ : BufTy).Contents (Elt Ideal))
  (b p : Fin 64)

/-- The three half-sizes as 64 × 64 arrays. -/
theorem s0_at : val_main_v92 (F := Ideal) x0 (ix2 b p) = x0 (ix3 b p 0) := by
  rw [val_main_v92_apply, show idx_main_v92 (ix2 b p) = ix3 b p (0 : Fin 1) from reshape_eq b p, val_main_v91_apply]
  exact congrArg x0 (by idx3_rfl)
theorem s1_at : val_main_v94 (F := Ideal) x0 (ix2 b p) = x0 (ix3 b p 1) := by
  rw [val_main_v94_apply, show idx_main_v94 (ix2 b p) = ix3 b p (0 : Fin 1) from reshape_eq b p, val_main_v93_apply]
  exact congrArg x0 (by idx3_rfl)
theorem s2_at : val_main_v96 (F := Ideal) x0 (ix2 b p) = x0 (ix3 b p 2) := by
  rw [val_main_v96_apply, show idx_main_v96 (ix2 b p) = ix3 b p (0 : Fin 1) from reshape_eq b p, val_main_v95_apply]
  exact congrArg x0 (by idx3_rfl)

/-- A box's area. -/
theorem area_at : val_main_v103 (F := Ideal) x0 (ix2 b p) = area (fun j => x0 (ix3 b p j)) := by
  rw [val_main_v103_apply, val_main_v102_apply, val_main_cst_15_apply, val_main_v101_apply, val_main_v99_apply,
    val_main_v97_apply, val_main_v98_apply, val_main_v100_apply, s0_at, s1_at, s2_at]
  rfl

/-- A batch's total area, summed from zero. -/
theorem total_at : val_main_v104 (F := Ideal) x0 (ix1 b) = ∑ p' : Fin 64, area (fun j => x0 (ix3 b p' j)) := by
  rw [val_main_v104_apply, val_main_cst_16_apply]
  have e : ∀ k : Fin 64, idx_main_v104 (ix1 b) k = ix2 b k := fun k => by idx2_rfl
  simp only [e, area_at, Ideal.ofBits_def, Ideal.ofBits_zero_f32, zero_add]

/-- The floored total, at every box of the batch. -/
theorem denom_at :
    val_main_v108 (F := Ideal) x0 (ix2 b p) = max (∑ p' : Fin 64, area (fun j => x0 (ix3 b p' j))) cAreaFloor := by
  rw [val_main_v108_apply, val_main_v107_apply, val_main_v105_apply, val_main_v106_apply, val_main_cst_17_apply]
  have e : idx_main_v105 (idx_main_v108 (ix2 b p)) = ix1 b := by idx1_rfl
  rw [e, total_at]
  rfl

/-- The mask: the comparison's bit, read as a number, is one where the word is one and zero elsewhere. -/
theorem mask_at : val_main_v112 (F := Ideal) x4 (ix2 b p) = maskE (x4 (ix2 b p)) := by
  rw [val_main_v112_apply, val_main_v111_apply, val_main_v110_apply, val_main_c_apply]
  unfold maskE
  by_cases h : (x4 (ix2 b p) : BitVec 32) = 1#32
  · have hc : IntOp.cmpi .eq (x4 (ix2 b p) : BitVec 32) 1#32 = 1#1 := by rw [h]; rfl
    rw [hc, if_pos h]
    show (((1#1 : BitVec 1).toNat : ℝ) : EReal) = 1
    simp
  · have hc : IntOp.cmpi .eq (x4 (ix2 b p) : BitVec 32) 1#32 = 0#1 := by
      show BitVec.ofBool ((x4 (ix2 b p) : BitVec 32) == 1#32) = 0#1
      rw [beq_eq_false_iff_ne.mpr h]
      rfl
    rw [hc, if_neg h]
    show (((0#1 : BitVec 1).toNat : ℝ) : EReal) = 0
    simp

end Weight

/-- **The weights, entry by entry.** -/
theorem weight_apply (x0 : (⟨S64x64x3, .f32⟩ : BufTy).Contents (Elt Ideal)) (x4 : (⟨S64x64, .i32⟩ : BufTy).Contents (Elt Ideal)) (b p : Fin 64) (n : Fin 1024) :
    val_main_v120 (F := Ideal) x0 x4 (ix3 b p n) = wS (fun p' j => x0 (ix3 b p' j)) p (x4 (ix2 b p)) := by
  rw [val_main_v120_apply, val_main_v119_apply, val_main_cst_19_apply, val_main_v118_apply, val_main_v117_apply,
    val_main_v115_apply, val_main_cst_18_apply, val_main_v116_apply, val_main_v114_apply, val_main_v113_apply,
    val_main_v109_apply]
  have e : idx_main_v114 (idx_main_v116 (ix3 b p n)) = ix2 b p := by idx2_rfl
  rw [e, area_at, denom_at, mask_at]
  simp only [Ideal.ofBits_def, Ideal.hostDivf_def, Ideal.mulf_def, Ideal.ofBits_one_f32, mul_one]
  rfl

end Cert.ReferenceIdeal.AtIdx

end
-- ==== Proof.RefBridge.lean ====
import proofs.«404468_j32401233281614_3_alg».proof.Proof.RefAtIndex
import proofs.«404468_j32401233281614_3_alg».proof.Proof.SpecArrays

/-!
# The reference's point and weight arrays are the specification's

Entry by entry the reference's point stage is the sampled point's coordinate and its weight stage the weight; so the two
arrays are the whole-array functions `Gpts` and `Gw` of the arguments.
-/

noncomputable section

namespace Cert.ReferenceIdeal.Bridge

open Cert.ReferenceIdeal Cert.ReferenceIdeal.ReadP Cert.ReferenceIdeal.AtIdx Cert.Spec
open Idealize.ShloMosaic Idealize.ShloMosaic.ValueIdx

theorem ref_pts (x0 x1 : (⟨S64x64x3, .f32⟩ : BufTy).Contents (Elt Ideal)) (x2 : (⟨S64x64x4, .f32⟩ : BufTy).Contents (Elt Ideal))
    (x5 : (⟨S64x64x1024x3, .f32⟩ : BufTy).Contents (Elt Ideal)) :
    val_main_v90 (F := Ideal) x0 x1 x2 x5 = Gpts x0 x1 x2 x5 := by
  funext j
  obtain ⟨b, p, n, i, rfl⟩ : ∃ (b p : Fin 64) (n : Fin 1024) (i : Fin 3), j = ix4 b p n i := ⟨j 0, j 1, j 2, j 3, eq_ix4 j⟩
  rw [pts_apply, Gpts_ix]

theorem ref_w (x0 : (⟨S64x64x3, .f32⟩ : BufTy).Contents (Elt Ideal)) (x4 : (⟨S64x64, .i32⟩ : BufTy).Contents (Elt Ideal)) :
    val_main_v120 (F := Ideal) x0 x4 = Gw x0 x4 := by
  funext j
  obtain ⟨b, p, n, rfl⟩ : ∃ (b p : Fin 64) (n : Fin 1024), j = ix3 b p n := ⟨j 0, j 1, j 2, eq_ix3 j⟩
  rw [weight_apply, Gw_ix]

end Cert.ReferenceIdeal.Bridge

end
-- ==== Proof.lean ====
import proofs.«404468_j32401233281614_3_alg».proof.Defs
import proofs.«404468_j32401233281614_3_alg».proof.Proof.Gen.Kernel
import proofs.«404468_j32401233281614_3_alg».proof.Proof.Gen.KernelIdeal
import proofs.«404468_j32401233281614_3_alg».proof.Proof.Gen.ReferenceIdeal
import proofs.«404468_j32401233281614_3_alg».proof.Proof.Gen.Pre_finite_inputs
import proofs.«404468_j32401233281614_3_alg».proof.Proof.KFrame
import proofs.«404468_j32401233281614_3_alg».proof.Proof.KernelResult
import proofs.«404468_j32401233281614_3_alg».proof.Proof.RefRun
import proofs.«404468_j32401233281614_3_alg».proof.Proof.RefBridge
import Idealize.ShloMosaic.Adequacy
import Idealize.ShloMosaic.Init

/-!
# The sampling kernel against its reference, over the extended reals

Both programs compute, for every box and every sample, the sample pushed onto the unit cube's surface, scaled by the
box's half-sizes, rotated by the box's normalized quaternion and translated; the box's weight; and the voxel field looked
up at the sampled points. The kernel does the first two blockwise, four batches per grid point, on the three coordinate
planes separately; the reference on whole arrays, the rotation as a contraction over three terms. Over the extended reals
the two differ only by the order of a product, the association of a three-term sum, a factor one, and how a largest of
three and a mask bit are spelt: no cancellation is used, so no finiteness either. The voxel lookup is the same chain of
operations on both sides, applied to equal point arrays.

The three frames: the kernel programs' by the frame run around their one region; the reference's by its run.
-/

noncomputable section

namespace Cert.Proof

open Idealize.ShloMosaic Idealize.ShloMosaic.TcCoe Idealize.SL.Sem Cert.Spec

/-- The reference's run, its three results as the same functions of the arguments the kernel program's run ends with. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v90) = Gpts (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v120) = Gw (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v146) = Cert.KernelIdeal.Tail.tailF (F := Ideal) (Gpts (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5))) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5) :=
  (θ_run (Cert.ReferenceIdeal.defs (F := Ideal)) _ _).mono (fun r h c =>
    ⟨(h c).1.trans (Cert.ReferenceIdeal.Bridge.ref_pts _ _ _ _), (h c).2.1.trans (Cert.ReferenceIdeal.Bridge.ref_w _ _),
      (h c).2.2.1.trans (by rw [Cert.ReferenceIdeal.Bridge.ref_pts]), (h c).2.2.2⟩)
    (Cert.ReferenceIdeal.RefRun.run (F := Ideal) m' ρ')

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run (Cert.ReferenceIdeal.defs (F := Ideal)) _ _).mono (fun _ h c => (h c).2.2.2) (ref_run m ρ)

/-- From memories that agree on the six arguments, the two runs end with equal point arrays, equal weights and equal
    looked-up points: both sides' results are the same functions, of equal arguments. -/
theorem algebraic : Cert.algebraic_KernelIdeal_ReferenceIdeal := by
  intro m ρ m' ρ' _ hagree
  refine ⟨_, _, _, Cert.KernelIdeal.Result.kernel_run m ρ, ?_⟩
  refine (θ_run (Cert.ReferenceIdeal.defs (F := Ideal)) _ _).mono (fun r h c => ?_) (ref_run m' ρ')
  obtain ⟨e0, e1, e2, e3, e4, e5⟩ := hagree c
  obtain ⟨h0, h1, h2, hargs⟩ := h c
  refine ⟨?_, ?_, ?_, hargs⟩
  · rw [h0, e0, e1, e2, e5]
  · rw [h1, e0, e4]
  · rw [h2, e0, e1, e2, e5, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
